-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S4x64x64 : Shape := ⟨3, ![4, 64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S4x64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S4x64x64 .f32 := Host.absf main_arg2
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S4x64x64 : Shape := ⟨3, ![4, 64, 64]⟩
abbrev S64 : Shape := ⟨1, ![64]⟩
abbrev S1x64x64 : Shape := ⟨3, ![1, 64, 64]⟩
abbrev S64x64 : Shape := ⟨2, ![64, 64]⟩
abbrev S2048x1024 : Shape := ⟨2, ![2048, 1024]⟩
abbrev S2048x64 : Shape := ⟨2, ![2048, 64]⟩
abbrev S1024x64 : Shape := ⟨2, ![1024, 64]⟩
abbrev S2048x2048 : Shape := ⟨2, ![2048, 2048]⟩
abbrev S1x64 : Shape := ⟨2, ![1, 64]⟩

abbrev nBuf : Space → Nat
  | .hbm => 26
  | .vmem => 24
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S4x64x64, .f32⟩
  | .hbm, ⟨3, _⟩ => ⟨S64, .f32⟩
  | .hbm, ⟨4, _⟩ => ⟨S1x64x64, .f32⟩
  | .hbm, ⟨5, _⟩ => ⟨S64x64, .f32⟩
  | .hbm, ⟨6, _⟩ => ⟨S16384x64, .f32⟩
  | .hbm, ⟨7, _⟩ => ⟨S16384x64, .f32⟩
  | .hbm, ⟨8, _⟩ => ⟨S16384x16384, .bf16⟩
  | .hbm, ⟨9, _⟩ => ⟨S1x64x64, .f32⟩
  | .hbm, ⟨10, _⟩ => ⟨S64x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S1x64x64, .f32⟩
  | .hbm, ⟨15, _⟩ => ⟨S64x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S1x64x64, .f32⟩
  | .hbm, ⟨20, _⟩ => ⟨S64x64, .f32⟩
  | .hbm, ⟨21, _⟩ => ⟨S16384x64, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .local _ .vmem, ⟨0, _⟩ => ⟨S2048x1024, .f32⟩
  | .local _ .vmem, ⟨1, _⟩ => ⟨S2048x1024, .f32⟩
  | .local _ .vmem, ⟨2, _⟩ => ⟨S16384x64, .f32⟩
  | .local _ .vmem, ⟨3, _⟩ => ⟨S2048x64, .f32⟩
  | .local _ .vmem, ⟨4, _⟩ => ⟨S2048x64, .f32⟩
  | .local _ .vmem, ⟨5, _⟩ => ⟨S2048x1024, .bf16⟩
  | .local _ .vmem, ⟨6, _⟩ => ⟨S2048x1024, .bf16⟩
  | .local _ .vmem, ⟨7, _⟩ => ⟨S2048x64, .f32⟩
  | .local _ .vmem, ⟨8, _⟩ => ⟨S2048x2048, .bf16⟩
  | .local _ .vmem, ⟨9, _⟩ => ⟨S2048x2048, .bf16⟩
  | .local _ .vmem, ⟨10, _⟩ => ⟨S16384x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x2048, .bf16⟩
  | .local _ .vmem, ⟨17, _⟩ => ⟨S2048x2048, .bf16⟩
  | .local _ .vmem, ⟨18, _⟩ => ⟨S16384x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S4x64x64_S1x64x64_0_0_0 : S4x64x64.Slices ![0, 0, 0] S1x64x64
  shapeCasts_S1x64x64_S64x64 : S1x64x64.ShapeCasts S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  h_S1024x64 : 0 < S1024x64.numel
  slices_S4x64x64_S1x64x64_1_0_0 : S4x64x64.Slices ![1, 0, 0] S1x64x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S2048x1024_S1024x64_S2048x64_1_0_0_1_n_n_wf : DotDims.WF S2048x1024 S1024x64 S2048x64 [1] [0] [0] [1] [] []
  dot_S2048x2048_S2048x64_S2048x64_1_0_0_1_n_n_wf : DotDims.WF S2048x2048 S2048x64 S2048x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x16384.size a
  hwx0_3 : ∀ i : grid0.Coords, EltTy.bits .bf16 = 32 ∨ (Rect.block (s := S16384x16384) S2048x1024.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S16384x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v3_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S4x64x64 : Shape := ⟨3, ![4, 64, 64]⟩
abbrev S64 : Shape := ⟨1, ![64]⟩
abbrev S1x64x64 : Shape := ⟨3, ![1, 64, 64]⟩
abbrev S64x64 : Shape := ⟨2, ![64, 64]⟩
abbrev S_ : Shape := ⟨0, ![]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S4x64x64, .f32⟩
  | .hbm, ⟨3, _⟩ => ⟨S64, .f32⟩
  | .hbm, ⟨4, _⟩ => ⟨S1x64x64, .f32⟩
  | .hbm, ⟨5, _⟩ => ⟨S64x64, .f32⟩
  | .hbm, ⟨6, _⟩ => ⟨S16384x64, .f32⟩
  | .hbm, ⟨7, _⟩ => ⟨S16384x64, .f32⟩
  | .hbm, ⟨8, _⟩ => ⟨S1x64x64, .f32⟩
  | .hbm, ⟨9, _⟩ => ⟨S64x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S1x64x64, .f32⟩
  | .hbm, ⟨18, _⟩ => ⟨S64x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S1x64x64, .f32⟩
  | .hbm, ⟨27, _⟩ => ⟨S64x64, .f32⟩
  | .hbm, ⟨28, _⟩ => ⟨S16384x64, .f32⟩
  | .hbm, ⟨29, _⟩ => ⟨S16384x64, .f32⟩
  | .hbm, ⟨30, _⟩ => ⟨S1x64, .f32⟩
  | .hbm, ⟨31, _⟩ => ⟨S16384x64, .f32⟩
  | .hbm, ⟨32, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]

class Facts₀ : Prop where
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  bcast_S_S16384x64 : S_.BroadcastsInDim S16384x64 (![] : Fin 0 → Fin S16384x64.rank)
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Kernel.Body0.lean ====
/-
  Region 0 (T₁ = L·x, and the bf16 copy of L): what one call of the kernel body does to its buffers, in each of
  the three positions a grid point (i, k) can have along the reduction axis k — first (k = 0: the accumulator is
  zeroed, then the block product added), middle (the block product added to what the point before left), last
  (k = 15: the same, and the accumulator copied into the output block). In every position the bf16 copy of the
  L block is stored whole into its output block.
-/
import proofs.«138783_j38826504356275_2_alg».proof.Proof.Gen.Kernel.Launch
import proofs.«138783_j38826504356275_2_alg».proof.Proof.Gen.Kernel.Skeleton
import proofs.«138783_j38826504356275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond0_0 (i : grid0.Coords) : Prop := (Scalar.cmpi .ne (Scalar.extui (Scalar.cmpi .eq (BitVec.ofNat 32 (i 1).val) 0#32)) 0#32) = 1#1
/-- The condition "k = 15" of the body's last branch. -/
abbrev cond0_1 (i : grid0.Coords) : Prop := k0_cond2 i = 1#1

/-- The 1024 rows of x that the point (·, k) multiplies its L block with: rows k·1024 … k·1024 + 1023. -/
abbrev rX0 (i : grid0.Coords) : Rect S16384x64 := Rect.unit (s := S16384x64) (k0_off1 i) S1024x64.size (k0_off1_inb i)

/-- The accumulator after a point: the accumulator it found plus (L block)·(x rows), both factors rounded to bf16. -/
def step0 (i : grid0.Coords) (xL : Vec F S2048x1024 .f32) (xX : Vec F S16384x64 .f32) (a : Vec F S2048x64 .f32) : Vec F S2048x64 .f32 :=
  k0_pay3 xL (View.ld xX (rX0 i)) a

theorem hzA : (![0, 0] : Fin S2048x1024.rank → Nat) = fun _ => 0 := by funext a; match a with | ⟨0, _⟩ => rfl | ⟨1, _⟩ => rfl
theorem hzB : (![0, 0] : Fin S2048x64.rank → Nat) = fun _ => 0 := by funext a; match a with | ⟨0, _⟩ => rfl | ⟨1, _⟩ => rfl

set_option maxHeartbeats 1000000 in
/-- A middle point (k ≠ 0, k ≠ 15): the accumulator found at `xs` is left at `step0 i xL xX xs`; the T₁ block's buffer is not touched. -/
theorem sound_kernel0_mid (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : ¬cond0_0 i) (hc1 : ¬cond0_1 i)
    (xL : Vec F S2048x1024 .f32) (xX : Vec F S16384x64 .f32) (x4 : Vec F S2048x64 .f32) (xs : Vec F S2048x64 .f32) (K : PUnit → sProp 𝕄) :
    iprop(owns (c : Thread nD τ) arg2 fullShare xL ∗ owns (c : Thread nD τ) arg3 fullShare xX ∗ owns (c : Thread nD τ) arg4 fullShare x4
        ∗ (∃ d, owns (c : Thread nD τ) arg5 fullShare d) ∗ owns (c : Thread nD τ) arg6 fullShare xs
        ∗ (iprop(owns (c : Thread nD τ) arg2 fullShare xL ∗ owns (c : Thread nD τ) arg3 fullShare xX ∗ owns (c : Thread nD τ) arg4 fullShare x4
            ∗ owns (c : Thread nD τ) arg5 fullShare (k0_pay2 xL) ∗ owns (c : Thread nD τ) arg6 fullShare (step0 i xL xX xs)) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  rw [View.read_writes_eq_canon _ _ _ (fun y => ⟨_, List.mem_singleton_self _, View.mem_set_unit_zero hzB inb_S2048x64_S2048x64_0_0 y⟩), View.canon_unit_zero hzB]
  unfold step0
  simp only [View.readAt_eq_ld, harg2.read_unread, harg3.read_unread, harg6.read_unread, View.ld_unit_zero (S := S2048x1024) hzA, View.ld_unit_zero (S := S2048x64) hzB]
set_option maxHeartbeats 1000000 in
/-- A first point (k = 0): the accumulator is zeroed and then left at the block product alone, `step0 i xL xX 0`. -/
theorem sound_kernel0_first (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : cond0_0 i) (hc1 : ¬cond0_1 i)
    (xL : Vec F S2048x1024 .f32) (xX : Vec F S16384x64 .f32) (x4 : Vec F S2048x64 .f32) (K : PUnit → sProp 𝕄) :
    iprop(owns (c : Thread nD τ) arg2 fullShare xL ∗ owns (c : Thread nD τ) arg3 fullShare xX ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare xL ∗ owns (c : Thread nD τ) arg3 fullShare xX ∗ owns (c : Thread nD τ) arg4 fullShare x4
            ∗ owns (c : Thread nD τ) arg5 fullShare (k0_pay2 xL) ∗ owns (c : Thread nD τ) arg6 fullShare (step0 i xL xX (k0_pay1 (F := F)))) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  rw [View.read_writes_eq_canon _ _ _ (fun y => ⟨_, List.mem_cons_self .., View.mem_set_unit_zero hzB inb_S2048x64_S2048x64_0_0 y⟩), View.canon_cons_unit_zero hzB]
  unfold step0
  sl_unfold_words
  simp only [View.readAt_eq_ld, harg2.read_unread, harg3.read_unread, View.ld_unit_zero (S := S2048x1024) hzA, View.ld_unit_zero (S := S2048x64) hzB, View.readCov_unit_zero (S := S2048x64) _ hzB]
  first | done | rfl
set_option maxHeartbeats 1000000 in
/-- A last point (k = 15): the accumulator found at `xs` is left at `step0 i xL xX xs`, and that is also stored, whole, into the T₁ block's buffer. -/
theorem sound_kernel0_last (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : ¬cond0_0 i) (hc1 : cond0_1 i)
    (xL : Vec F S2048x1024 .f32) (xX : Vec F S16384x64 .f32) (xs : Vec F S2048x64 .f32) (K : PUnit → sProp 𝕄) :
    iprop(owns (c : Thread nD τ) arg2 fullShare xL ∗ owns (c : Thread nD τ) arg3 fullShare xX ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare xL ∗ owns (c : Thread nD τ) arg3 fullShare xX ∗ owns (c : Thread nD τ) arg4 fullShare (step0 i xL xX xs)
            ∗ owns (c : Thread nD τ) arg5 fullShare (k0_pay2 xL) ∗ owns (c : Thread nD τ) arg6 fullShare (step0 i xL xX xs)) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hzB inb_S2048x64_S2048x64_0_0 y⟩), View.canon_unit_zero hzB]
    unfold step0
    sl_unfold_words
    simp only [View.readAt_eq_ld, harg2.read_unread, harg3.read_unread, harg6.read_unread, View.ld_unit_zero (S := S2048x1024) hzA, View.ld_unit_zero (S := S2048x64) hzB, View.readCov_unit_zero (S := S2048x64) _ hzB]
    first | done | rfl
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  sl_unfold_words
  rw [View.read_writes_eq_canon _ _ _ (fun y => ⟨_, List.mem_singleton_self _, View.mem_set_unit_zero hzB inb_S2048x64_S2048x64_0_0 y⟩), View.canon_unit_zero hzB]
  unfold step0
  simp only [View.readAt_eq_ld, harg2.read_unread, harg3.read_unread, harg6.read_unread, View.ld_unit_zero (S := S2048x1024) hzA, View.ld_unit_zero (S := S2048x64) hzB]
  first | done | rfl

end Cert.Kernel.Hand
end
-- ==== Proof.Kernel.Dat0.lean ====
/-
  Region 0 (T₁ = L·x and the bf16 copy of L) as a pipeline: what every window's buffer holds after the body at each
  grid point. The grid is 8 × 16, point t = (i, k) with i = t / 16 the block row and k = t % 16 the step along the
  reduction. The accumulator (the kernel's scratch) after point t is, by recursion on t,
      acc t = (if k = 0 then 0 else acc (t - 1)) + (L block (i, k))·(x rows k·1024 …),
  the bf16 copy's block is the L block rounded, and the T₁ block is stored (with the accumulator's value) only at
  k = 15; at the other points that window is idle. The invariant between points carries the scratch at `acc`.
-/
import proofs.«138783_j38826504356275_2_alg».proof.Proof.Kernel.Body0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the T₁ window is idle -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The accumulator, point by point -/

/-- The scratch accumulator after the body at point `n`. -/
def acc0 (c : Dev nD) : (n : ℕ) → n < cfg0.N → Vec F S2048x64 .f32
  | 0, hn => step0 (grid0.coords ⟨0, hn⟩) (iblk0 V c 0 ⟨0, hn⟩) (iblk0 V c 1 ⟨0, hn⟩) (k0_pay1 (F := F))
  | n + 1, hn => step0 (grid0.coords ⟨n + 1, hn⟩) (iblk0 V c 0 ⟨n + 1, hn⟩) (iblk0 V c 1 ⟨n + 1, hn⟩)
      (if (n + 1) % 16 = 0 then k0_pay1 (F := F) else acc0 c n (Nat.lt_of_succ_lt hn))

/-- At the first point of a block row the accumulator is the block product alone. -/
theorem acc0_first (c : Dev nD) (t : Fin cfg0.N) (h : t.val % 16 = 0) :
    acc0 V c t.val t.isLt = step0 (grid0.coords t) (iblk0 V c 0 t) (iblk0 V c 1 t) (k0_pay1 (F := F)) := by
  obtain ⟨n, hn⟩ := t
  cases n with
  | zero => rfl
  | succ n => exact congrArg _ (if_pos h)

/-- At a later point it is the point before's plus the block product. -/
theorem acc0_next (c : Dev nD) (t : Fin cfg0.N) (h : ¬t.val % 16 = 0) :
    acc0 V c t.val t.isLt = step0 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM0 : Memref sig .tc .vmem S2048x64 .f32 := Memref.whole cc0_scratch0

/-- The core's other scoped buffers (the later regions' staging buffers and scratch), each at some contents: they ride
    through this region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the region hands the body before the first point: the scratch at anything, the other scoped buffers, the
    generator register at some state. -/
theorem PhiA0_eq (c : Dev nD) :
    (Pipeline.ΦA spec0 c : sProp 𝕄)
      = iprop(iprop((∃ d, owns (c : Thread nD τ) scM0 fullShare d) ∗ other0 (F := F) c) ∗ (∃ r, prngReg c r)) := by
  unfold Pipeline.ΦA other0; rw [scopedRest0_eq]; simp only [scM0, owns_whole]; try rfl

/-- The invariant before point `n`: before the first the region's own; afterwards the scratch at the accumulator the
    point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ other0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ other0 (F := F) c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ other0 (F := F) c) ∗ (∃ r, prngReg c r)) := by
  cases n with
  | zero => exact absurd rfl hz
  | succ n => rfl

/-! ## The pipeline's proof data -/

/-- Region 0's proof data on core `c`: the arrays as the region finds them; after the body at point `t` each input's
    buffer at its block, the T₁ block's at the accumulator (read only where it is stored, k = 15), the bf16 copy's at the
    rounded L block; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => k0_pay2 (iblk0 V c 0 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = k0_pay2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The windows' current staging memrefs at point `t`, at the types the body takes them, with their wholeness. -/
abbrev ms0_0 (t : Fin cfg0.N) : Memref sig .tc .vmem S2048x1024 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S16384x64 .f32 := win0_1.stage (cfg0.slots t 1)
abbrev hs0_1 (t : Fin cfg0.N) : (ms0_1 t).IsWhole := Gen.hstage0_1 ((cfg0.slots t 1).cast Gen.nbuf0_1)
abbrev ms0_2 (t : Fin cfg0.N) : Memref sig .tc .vmem S2048x64 .f32 := win0_2.stage (cfg0.slots t 2)
abbrev hs0_2 (t : Fin cfg0.N) : (ms0_2 t).IsWhole := Gen.hstage0_2 ((cfg0.slots t 2).cast Gen.nbuf0_2)
abbrev ms0_3 (t : Fin cfg0.N) : Memref sig .tc .vmem S2048x1024 .bf16 := win0_3.stage (cfg0.slots t 3)
abbrev hs0_3 (t : Fin cfg0.N) : (ms0_3 t).IsWhole := Gen.hstage0_3 ((cfg0.slots t 3).cast Gen.nbuf0_3)

/-- What the body is called with at point `t`: the invariant, what the core owes, each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at point `t = (i, k)`. The inputs' buffers hold their blocks; the point is a first (k = 0), middle or last
    (k = 15) one. At a first point the scratch is handed over at anything (the region's own before the very first point,
    the row before's accumulator otherwise) and comes back at the block product alone; at the others it is handed over
    at the accumulator of the point before and comes back with the block product added. The T₁ block's buffer comes back
    as it was given except at a last point, where it holds the accumulator; the bf16 block's holds the rounded L block.
    The core's other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 2 t (idleAt0_2 t hc1) (noFlush0_2 t hc1)]
      rw [acc0_first V c t h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, ⟨%d3, H3⟩⟩
        iapply (sound_kernel0_first c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) _)
        isplitl [H0]; · iexact H0
        isplitl [H1]; · iexact H1
        isplitl [H2]; · iexact H2
        isplitl [H3]; · iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexists _; iexact H2
        iexact H3
      · rw [Phi0_castSucc V c t, Phi0_pos V c _ _ hz]
        iintro ⟨⟨⟨HS, Hoth⟩, Hg⟩, Ho, ⟨%d0, H0⟩, ⟨%d1, H1⟩, ⟨%d2, H2⟩, ⟨%d3, H3⟩⟩
        iapply (sound_kernel0_first c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) _)
        isplitl [H0]; · iexact H0
        isplitl [H1]; · iexact H1
        isplitl [H2]; · iexact H2
        isplitl [H3]; · iexists _; iexact H3
        isplitl [HS]; · iexists _; iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexists _; iexact H2
        iexact H3
  · have hc0 : ¬cond0_0 (grid0.coords t) := fun h => h0 ((hcond0_0 t).mp h)
    have hz : t.val ≠ 0 := fun h => h0 (by rw [h])
    rw [acc0_next V c t h0]
    rw [Phi0_castSucc V c t, Phi0_pos V c _ _ hz]
    by_cases h1 : t.val % 16 = 15
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_next V c t h0]
      iintro ⟨⟨⟨HS, Hoth⟩, Hg⟩, Ho, ⟨%d0, H0⟩, ⟨%d1, H1⟩, ⟨%d2, H2⟩, ⟨%d3, H3⟩⟩
      iapply (sound_kernel0_last c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hoth⟩, Hg⟩, Ho, ⟨%d0, H0⟩, ⟨%d1, H1⟩, ⟨%d2, H2⟩, ⟨%d3, H3⟩⟩
      iapply (sound_kernel0_mid c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexists _; iexact H2
      iexact H3

/-- The body at any point, from what the pipeline hands it to what it must hand back. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the region's own back: the accumulator in the scratch is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hoth⟩, Hg⟩
  isplitl [HS Hoth]
  · isplitl [HS]
    · iexists _; iexact HS
    iexact Hoth
  iexact Hg

/-- After the last point the invariant gives the region's own back: the scratch's contents are forgotten. -/
theorem hout0 (c : Dev nD) : (dat0 V c).Φ (Fin.last cfg0.N) ⊢ Pipeline.ΦA spec0 c :=
  Phi0_out V c _ (by rw [Fin.val_last]; have : cfg0.N = 128 := N_0; omega)

end Cert.Kernel.Hand
end
-- ==== Proof.Kernel.Body1.lean ====
/-
  Region 1 (T₂ = 2·(L·T₁) − x): what one call of the kernel body does to its buffers, in each of the three positions a
  grid point (i, k) can have along the reduction axis k — first (k = 0: the accumulator is zeroed, then the block product
  added), middle (the block product added to what the point before left), last (k = 7: the same, and 2·accumulator minus
  the block of the recurrence's older term stored into the output block).
-/
import proofs.«138783_j38826504356275_2_alg».proof.Proof.Gen.Kernel.Launch
import proofs.«138783_j38826504356275_2_alg».proof.Proof.Gen.Kernel.Skeleton
import proofs.«138783_j38826504356275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond1_0 (i : grid1.Coords) : Prop := (Scalar.cmpi .ne (Scalar.extui (Scalar.cmpi .eq (BitVec.ofNat 32 (i 1).val) 0#32)) 0#32) = 1#1
/-- The condition "k = 7" of the body's last branch. -/
abbrev cond1_1 (i : grid1.Coords) : Prop := k1_cond2 i = 1#1

/-- The 2048 rows of the resident T that the point (·, k) multiplies its L block with: rows k·2048 … k·2048 + 2047. -/
abbrev rX1 (i : grid1.Coords) : Rect S16384x64 := Rect.unit (s := S16384x64) (k1_off1 i) S2048x64.size (k1_off1_inb i)

/-- The accumulator after a point: the accumulator it found plus (L block)·(T rows), T's rows rounded to bf16. -/
def step1 (i : grid1.Coords) (xL : Vec F S2048x2048 .bf16) (xT : Vec F S16384x64 .f32) (a : Vec F S2048x64 .f32) : Vec F S2048x64 .f32 :=
  k1_pay2 xL (View.ld xT (rX1 i)) a

theorem hzC1 : (![0, 0] : Fin S2048x2048.rank → Nat) = fun _ => 0 := by funext a; match a with | ⟨0, _⟩ => rfl | ⟨1, _⟩ => rfl
theorem hzB1 : (![0, 0] : Fin S2048x64.rank → Nat) = fun _ => 0 := by funext a; match a with | ⟨0, _⟩ => rfl | ⟨1, _⟩ => rfl

set_option maxHeartbeats 1000000 in
/-- A middle point (k ≠ 0, k ≠ 7): the accumulator found at `xs` is left at `step1 i xL xT xs`; the output block's buffer is not touched. -/
theorem sound_kernel1_mid (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (xL : Vec F S2048x2048 .bf16) (xT : Vec F S16384x64 .f32) (xP : Vec F S2048x64 .f32) (x5 : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step1 i xL xT xs)) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hzB1 inb_S2048x64_S2048x64_0_0 y⟩), View.canon_unit_zero hzB1]
  unfold step1
  simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
  first | done | rfl

set_option maxHeartbeats 1000000 in
/-- A first point (k = 0): the accumulator is zeroed and then left at the block product alone. -/
theorem sound_kernel1_first (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (xL : Vec F S2048x2048 .bf16) (xT : Vec F S16384x64 .f32) (xP : Vec F S2048x64 .f32) (x5 : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ (∃ d, owns (c : Thread nD τ) arg6 fullShare d)
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step1 i xL xT (k1_pay1 (F := F)))) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_cons_self .., View.mem_set_unit_zero hzB1 inb_S2048x64_S2048x64_0_0 y⟩), View.canon_cons_unit_zero hzB1]
  unfold step1
  sl_unfold_words
  simp only [View.readAt_eq_ld, harg2.read_unread, harg3.read_unread, harg4.read_unread, View.ld_unit_zero (S := S2048x2048) hzC1, View.ld_unit_zero (S := S2048x64) hzB1, View.readCov_unit_zero (S := S2048x64) _ hzB1]
  first | done | rfl

set_option maxHeartbeats 1000000 in
/-- A last point (k = 7): the accumulator found at `xs` is left at `step1 i xL xT xs`, and twice that minus the older term's block is stored, whole, into the output block's buffer. -/
theorem sound_kernel1_last (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (xL : Vec F S2048x2048 .bf16) (xT : Vec F S16384x64 .f32) (xP : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ (∃ d, owns (c : Thread nD τ) arg5 fullShare d) ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare (k1_pay3 (step1 i xL xT xs) xP) ∗ owns (c : Thread nD τ) arg6 fullShare (step1 i xL xT xs)) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hzB1 inb_S2048x64_S2048x64_0_0 y⟩), View.canon_unit_zero hzB1]
    unfold step1
    sl_unfold_words
    simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
    first | done | rfl
  iexists _; isplitr
  swap; · iexact H6
  ipureintro
  sl_unfold_words
  rw [View.read_writes_eq_canon _ _ _ (fun y => ⟨_, List.mem_singleton_self _, View.mem_set_unit_zero hzB1 inb_S2048x64_S2048x64_0_0 y⟩), View.canon_unit_zero hzB1]
  unfold step1
  simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
  first | done | rfl

end Cert.Kernel.Hand
end
-- ==== Proof.Kernel.Dat1.lean ====
/-
  Region 1 (T₂ = 2·(L·T₁) − x) as a pipeline: what every window's buffer holds after the body at each grid point.
  The grid is 8 × 8, point t = (i, k) with i = t / 8 the block row and k = t % 8 the step along the reduction. The
  accumulator (the kernel's scratch) after point t is, by recursion on t,
      acc t = (if k = 0 then 0 else acc (t - 1)) + (L block (i, k))·(T₁ rows k·2048 …),
  and the output block is stored, with 2·acc − (x block i), only at k = 7; at the other points that window is idle.
  The invariant between points carries the scratch at `acc`.
-/
import proofs.«138783_j38826504356275_2_alg».proof.Proof.Kernel.Body1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The accumulator, point by point -/

/-- The scratch accumulator after the body at point `n`. -/
def acc1 (c : Dev nD) : (n : ℕ) → n < cfg1.N → Vec F S2048x64 .f32
  | 0, hn => step1 (grid1.coords ⟨0, hn⟩) (iblk1 V c 0 ⟨0, hn⟩) (iblk1 V c 1 ⟨0, hn⟩) (k1_pay1 (F := F))
  | n + 1, hn => step1 (grid1.coords ⟨n + 1, hn⟩) (iblk1 V c 0 ⟨n + 1, hn⟩) (iblk1 V c 1 ⟨n + 1, hn⟩)
      (if (n + 1) % 8 = 0 then k1_pay1 (F := F) else acc1 c n (Nat.lt_of_succ_lt hn))

/-- At the first point of a block row the accumulator is the block product alone. -/
theorem acc1_first (c : Dev nD) (t : Fin cfg1.N) (h : t.val % 8 = 0) :
    acc1 V c t.val t.isLt = step1 (grid1.coords t) (iblk1 V c 0 t) (iblk1 V c 1 t) (k1_pay1 (F := F)) := by
  obtain ⟨n, hn⟩ := t
  cases n with
  | zero => rfl
  | succ n => exact congrArg _ (if_pos h)

/-- At a later point it is the point before's plus the block product. -/
theorem acc1_next (c : Dev nD) (t : Fin cfg1.N) (h : ¬t.val % 8 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM1 : Memref sig .tc .vmem S2048x64 .f32 := Memref.whole cc1_scratch0

/-- The core's other scoped buffers (the other regions' staging buffers and scratch), each at some contents: they ride
    through this region untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the region hands the body before the first point gives the scratch at anything, the other scoped buffers and
    the generator register at some state, -/
theorem PhiA1_split (c : Dev nD) :
    (Pipeline.ΦA spec1 c : sProp 𝕄)
      ⊢ iprop(iprop((∃ d, owns (c : Thread nD τ) scM1 fullShare d) ∗ other1 (F := F) c) ∗ (∃ r, prngReg c r)) := by
  unfold Pipeline.ΦA other1; rw [scopedRest1_eq]; simp only [scM1, owns_whole]
  iintro ⟨⟨H0, H1, H2, H3, H4, H5, H6, H7, H8, H9, H10, H11, H12, H13, H14, H15, H16⟩, Hg⟩
  isplitr [Hg]
  · isplitl [H8]
    · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- and is made of them again. -/
theorem PhiA1_join (c : Dev nD) :
    iprop(iprop((∃ d, owns (c : Thread nD τ) scM1 fullShare d) ∗ other1 (F := F) c) ∗ (∃ r, prngReg c r))
      ⊢ (Pipeline.ΦA spec1 c : sProp 𝕄) := by
  unfold Pipeline.ΦA other1; rw [scopedRest1_eq]; simp only [scM1, owns_whole]
  iintro ⟨⟨H8, H0, H1, H2, H3, H4, H5, H6, H7, H9, H10, H11, H12, H13, H14, H15, H16⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- The invariant before point `n`: before the first the region's own; afterwards the scratch at the accumulator the
    point before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ other1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ other1 (F := F) c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ other1 (F := F) c) ∗ (∃ r, prngReg c r)) := by
  cases n with
  | zero => exact absurd rfl hz
  | succ n => rfl

/-! ## The pipeline's proof data -/

/-- Region 1's proof data on core `c`: the arrays as the region finds them; after the body at point `t` each input's
    buffer at its block and the output block's at 2·acc − (the older term's block) (read only where it is stored, k = 7);
    the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Each window's current staging memref at point `t`, spelled as the pipeline passes it to the body, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

/-- What the body is called with at point `t`: the invariant, what the core owes, and the four windows' current
    buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The three inputs' buffers hold their blocks. Along a block row the point is the first
    (k = 0), a middle one, or the last (k = 7). At the first the scratch is taken at anything (before the very first
    point from the region's own resources, later from the previous row's accumulator, forgotten) and left at the
    block product; at the others it is taken at the accumulator of the point before and left at this point's. The
    output block's buffer comes back as it was handed except at the last point of a row, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · -- the first point of a block row
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · -- the very first point: the scratch comes out of the region's own resources, at anything
      rw [Phi1_castSucc V c t, Phi1_zero V c _ _ hz]
      refine BIBase.Entails.trans (sep_mono_left (PhiA1_split (F := F) c)) ?_
      iintro ⟨⟨⟨HS, Hoth⟩, Hg⟩, Ho, ⟨%d0, H0⟩, ⟨%d1, H1⟩, ⟨%d2, H2⟩, ⟨%d3, H3⟩⟩
      iapply (sound_kernel1_first c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) _)
      isplitl [H0]
      · iexact H0
      isplitl [H1]
      · iexact H1
      isplitl [H2]
      · iexact H2
      isplitl [H3]
      · iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3
    · -- a later row's first point: the scratch holds the previous row's accumulator, which is forgotten
      rw [Phi1_castSucc V c t, Phi1_pos V c _ _ hz]
      iintro ⟨⟨⟨HS, Hoth⟩, Hg⟩, Ho, ⟨%d0, H0⟩, ⟨%d1, H1⟩, ⟨%d2, H2⟩, ⟨%d3, H3⟩⟩
      iapply (sound_kernel1_first c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) _)
      isplitl [H0]
      · iexact H0
      isplitl [H1]
      · iexact H1
      isplitl [H2]
      · iexact H2
      isplitl [H3]
      · iexact H3
      isplitl [HS]
      · iexists _; iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3
  · have hc0 : ¬cond1_0 (grid1.coords t) := fun h => h0 ((hcond1_0 t).mp h)
    have hz : t.val ≠ 0 := fun h => h0 (by rw [h])
    rw [acc1_next V c t h0]
    rw [Phi1_castSucc V c t, Phi1_pos V c _ _ hz]
    by_cases h1 : t.val % 8 = 7
    · -- the last point of a block row: the output block is stored
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      iintro ⟨⟨⟨HS, Hoth⟩, Hg⟩, Ho, ⟨%d0, H0⟩, ⟨%d1, H1⟩, ⟨%d2, H2⟩, ⟨%d3, H3⟩⟩
      iapply (sound_kernel1_last c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) (acc1 V c (t.val - 1) (Nat.lt_of_le_of_lt (Nat.sub_le _ _) t.isLt)) _)
      isplitl [H0]
      · iexact H0
      isplitl [H1]
      · iexact H1
      isplitl [H2]
      · iexact H2
      isplitl [H3]
      · iexists _; iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexact H3
    · -- a middle point: the output block's buffer is handed back as it came
      have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%d0, H0⟩, ⟨%d1, H1⟩, ⟨%d2, H2⟩, ⟨%d3, H3⟩⟩
      iapply (sound_kernel1_mid c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) (acc1 V c (t.val - 1) (Nat.lt_of_le_of_lt (Nat.sub_le _ _) t.isLt)) _)
      isplitl [H0]
      · iexact H0
      isplitl [H1]
      · iexact H1
      isplitl [H2]
      · iexact H2
      isplitl [H3]
      · iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3

/-- The body at any point, from what the pipeline hands it to what it must hand back. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the region's own back: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl, Phi1_pos V c _ _ hN]
  refine BIBase.Entails.trans ?_ (PhiA1_join (F := F) c)
  iintro ⟨⟨HS, Hoth⟩, Hg⟩
  isplitr [Hg]
  · isplitl [HS]
    · iexists _; iexact HS
    iexact Hoth
  iexact Hg

end Cert.Kernel.Hand
end
-- ==== Proof.Kernel.Body2.lean ====
/-
  Region 2 (T₃ = 2·(L·T₂) − T₁): what one call of the kernel body does to its buffers, in each of the three positions a
  grid point (i, k) can have along the reduction axis k — first (k = 0: the accumulator is zeroed, then the block product
  added), middle (the block product added to what the point before left), last (k = 7: the same, and 2·accumulator minus
  the block of the recurrence's older term stored into the output block).
-/
import proofs.«138783_j38826504356275_2_alg».proof.Proof.Gen.Kernel.Launch
import proofs.«138783_j38826504356275_2_alg».proof.Proof.Gen.Kernel.Skeleton
import proofs.«138783_j38826504356275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond2_0 (i : grid2.Coords) : Prop := (Scalar.cmpi .ne (Scalar.extui (Scalar.cmpi .eq (BitVec.ofNat 32 (i 1).val) 0#32)) 0#32) = 1#1
/-- The condition "k = 7" of the body's last branch. -/
abbrev cond2_1 (i : grid2.Coords) : Prop := k2_cond2 i = 1#1

/-- The 2048 rows of the resident T that the point (·, k) multiplies its L block with: rows k·2048 … k·2048 + 2047. -/
abbrev rX2 (i : grid2.Coords) : Rect S16384x64 := Rect.unit (s := S16384x64) (k2_off1 i) S2048x64.size (k2_off1_inb i)

/-- The accumulator after a point: the accumulator it found plus (L block)·(T rows), T's rows rounded to bf16. -/
def step2 (i : grid2.Coords) (xL : Vec F S2048x2048 .bf16) (xT : Vec F S16384x64 .f32) (a : Vec F S2048x64 .f32) : Vec F S2048x64 .f32 :=
  k2_pay2 xL (View.ld xT (rX2 i)) a

theorem hzC2 : (![0, 0] : Fin S2048x2048.rank → Nat) = fun _ => 0 := by funext a; match a with | ⟨0, _⟩ => rfl | ⟨1, _⟩ => rfl
theorem hzB2 : (![0, 0] : Fin S2048x64.rank → Nat) = fun _ => 0 := by funext a; match a with | ⟨0, _⟩ => rfl | ⟨1, _⟩ => rfl

set_option maxHeartbeats 1000000 in
/-- A middle point (k ≠ 0, k ≠ 7): the accumulator found at `xs` is left at `step2 i xL xT xs`; the output block's buffer is not touched. -/
theorem sound_kernel2_mid (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond2_0 i) (hc1 : ¬cond2_1 i)
    (xL : Vec F S2048x2048 .bf16) (xT : Vec F S16384x64 .f32) (xP : Vec F S2048x64 .f32) (x5 : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step2 i xL xT xs)) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hzB2 inb_S2048x64_S2048x64_0_0 y⟩), View.canon_unit_zero hzB2]
  unfold step2
  simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
  first | done | rfl

set_option maxHeartbeats 1000000 in
/-- A first point (k = 0): the accumulator is zeroed and then left at the block product alone. -/
theorem sound_kernel2_first (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : cond2_0 i) (hc1 : ¬cond2_1 i)
    (xL : Vec F S2048x2048 .bf16) (xT : Vec F S16384x64 .f32) (xP : Vec F S2048x64 .f32) (x5 : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ (∃ d, owns (c : Thread nD τ) arg6 fullShare d)
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step2 i xL xT (k2_pay1 (F := F)))) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_cons_self .., View.mem_set_unit_zero hzB2 inb_S2048x64_S2048x64_0_0 y⟩), View.canon_cons_unit_zero hzB2]
  unfold step2
  sl_unfold_words
  simp only [View.readAt_eq_ld, harg2.read_unread, harg3.read_unread, harg4.read_unread, View.ld_unit_zero (S := S2048x2048) hzC2, View.ld_unit_zero (S := S2048x64) hzB2, View.readCov_unit_zero (S := S2048x64) _ hzB2]
  first | done | rfl

set_option maxHeartbeats 1000000 in
/-- A last point (k = 7): the accumulator found at `xs` is left at `step2 i xL xT xs`, and twice that minus the older term's block is stored, whole, into the output block's buffer. -/
theorem sound_kernel2_last (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond2_0 i) (hc1 : cond2_1 i)
    (xL : Vec F S2048x2048 .bf16) (xT : Vec F S16384x64 .f32) (xP : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ (∃ d, owns (c : Thread nD τ) arg5 fullShare d) ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare (k2_pay3 (step2 i xL xT xs) xP) ∗ owns (c : Thread nD τ) arg6 fullShare (step2 i xL xT xs)) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hzB2 inb_S2048x64_S2048x64_0_0 y⟩), View.canon_unit_zero hzB2]
    unfold step2
    sl_unfold_words
    simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
    first | done | rfl
  iexists _; isplitr
  swap; · iexact H6
  ipureintro
  sl_unfold_words
  rw [View.read_writes_eq_canon _ _ _ (fun y => ⟨_, List.mem_singleton_self _, View.mem_set_unit_zero hzB2 inb_S2048x64_S2048x64_0_0 y⟩), View.canon_unit_zero hzB2]
  unfold step2
  simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
  first | done | rfl

end Cert.Kernel.Hand
end
-- ==== Proof.Kernel.Dat2.lean ====
/-
  Region 2 (T₃ = 2·(L·T₂) − T₁) as a pipeline: what every window's buffer holds after the body at each grid point.
  The grid is 8 × 8, point t = (i, k) with i = t / 8 the block row and k = t % 8 the step along the reduction. The
  accumulator (the kernel's scratch) after point t is, by recursion on t,
      acc t = (if k = 0 then 0 else acc (t - 1)) + (L block (i, k))·(T₂ rows k·2048 …),
  and the output block is stored, with 2·acc − (T₁ block i), only at k = 7; at the other points that window is idle.
  The invariant between points carries the scratch at `acc`.
-/
import proofs.«138783_j38826504356275_2_alg».proof.Proof.Kernel.Body2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid, and where the output window is idle -/

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The accumulator, point by point -/

/-- The scratch accumulator after the body at point `n`. -/
def acc2 (c : Dev nD) : (n : ℕ) → n < cfg2.N → Vec F S2048x64 .f32
  | 0, hn => step2 (grid2.coords ⟨0, hn⟩) (iblk2 V c 0 ⟨0, hn⟩) (iblk2 V c 1 ⟨0, hn⟩) (k2_pay1 (F := F))
  | n + 1, hn => step2 (grid2.coords ⟨n + 1, hn⟩) (iblk2 V c 0 ⟨n + 1, hn⟩) (iblk2 V c 1 ⟨n + 1, hn⟩)
      (if (n + 1) % 8 = 0 then k2_pay1 (F := F) else acc2 c n (Nat.lt_of_succ_lt hn))

/-- At the first point of a block row the accumulator is the block product alone. -/
theorem acc2_first (c : Dev nD) (t : Fin cfg2.N) (h : t.val % 8 = 0) :
    acc2 V c t.val t.isLt = step2 (grid2.coords t) (iblk2 V c 0 t) (iblk2 V c 1 t) (k2_pay1 (F := F)) := by
  obtain ⟨n, hn⟩ := t
  cases n with
  | zero => rfl
  | succ n => exact congrArg _ (if_pos h)

/-- At a later point it is the point before's plus the block product. -/
theorem acc2_next (c : Dev nD) (t : Fin cfg2.N) (h : ¬t.val % 8 = 0) :
    acc2 V c t.val t.isLt = step2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM2 : Memref sig .tc .vmem S2048x64 .f32 := Memref.whole cc2_scratch0

/-- The core's other scoped buffers (the other regions' staging buffers and scratch), each at some contents: they ride
    through this region untouched. -/
def other2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body before the first point gives the scratch at anything, the other scoped buffers and
    the generator register at some state, -/
theorem PhiA2_split (c : Dev nD) :
    (Pipeline.ΦA spec2 c : sProp 𝕄)
      ⊢ iprop(iprop((∃ d, owns (c : Thread nD τ) scM2 fullShare d) ∗ other2 (F := F) c) ∗ (∃ r, prngReg c r)) := by
  unfold Pipeline.ΦA other2; rw [scopedRest2_eq]
  simp only [scM2, owns_whole]
  iintro ⟨⟨H0, H1, H2, H3, H4, H5, H6, H7, H8, H9, H10, H11, H12, H13, H14, H15, H16⟩, Hg⟩
  isplitr [Hg]
  · isplitl [H16]
    · iexact H16
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact Hg

/-- and is made of them again. -/
theorem PhiA2_join (c : Dev nD) :
    iprop(iprop((∃ d, owns (c : Thread nD τ) scM2 fullShare d) ∗ other2 (F := F) c) ∗ (∃ r, prngReg c r))
      ⊢ (Pipeline.ΦA spec2 c : sProp 𝕄) := by
  unfold Pipeline.ΦA other2; rw [scopedRest2_eq]
  simp only [scM2, owns_whole]
  iintro ⟨⟨H16, H0, H1, H2, H3, H4, H5, H6, H7, H8, H9, H10, H11, H12, H13, H14, H15⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iexact Hg

/-- The invariant before point `n`: before the first the region's own; afterwards the scratch at the accumulator the
    point before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ other2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn) ∗ other2 (F := F) c) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega)) ∗ other2 (F := F) c) ∗ (∃ r, prngReg c r)) := by
  cases n with
  | zero => exact absurd rfl hz
  | succ n => rfl

/-! ## The pipeline's proof data -/

/-- Region 2's proof data on core `c`: the arrays as the region finds them; after the body at point `t` each input's
    buffer at its block and the output block's at 2·acc − (the older term's block) (read only where it is stored, k = 7);
    the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- Each window's current staging memref is a whole buffer. -/
abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point. The three inputs' memrefs hold their blocks. At k = 0 the scratch is taken at anything (the
    region's own before the very first point, the previous block row's accumulator afterwards) and left at the block
    product alone; at 0 < k the scratch is taken at the accumulator of the point before and left at that plus the block
    product. The output block's buffer is handed back as found except at k = 7, where it is stored whole. The core owes
    nothing throughout; the other scoped buffers and the generator register ride along. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ, Phi2_castSucc V c t]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 64 := lt_of_lt_of_eq t.isLt (show cfg2.N = 64 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1), acc2_first V c t h0]
    by_cases hz : t.val = 0
    · rw [Phi2_zero V c _ _ hz]
      refine BIBase.Entails.trans (sep_mono_left (PhiA2_split (F := F) c)) ?_
      iintro ⟨⟨⟨HS, Hoth⟩, Hg⟩, Ho, ⟨%d0, H0⟩, ⟨%d1, H1⟩, ⟨%d2, H2⟩, ⟨%d3, H3⟩⟩
      iapply (sound_kernel2_first c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [Phi2_pos V c _ _ hz]
      iintro ⟨⟨⟨HS, Hoth⟩, Hg⟩, Ho, ⟨%d0, H0⟩, ⟨%d1, H1⟩, ⟨%d2, H2⟩, ⟨%d3, H3⟩⟩
      iapply (sound_kernel2_first c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun h => h0 (by rw [h])
    have hc0 : ¬cond2_0 (grid2.coords t) := fun h => h0 ((hcond2_0 t).mp h)
    rw [Phi2_pos V c _ _ hz]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_next V c t h0]
      iintro ⟨⟨⟨HS, Hoth⟩, Hg⟩, Ho, ⟨%d0, H0⟩, ⟨%d1, H1⟩, ⟨%d2, H2⟩, ⟨%d3, H3⟩⟩
      iapply (sound_kernel2_last c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1), acc2_next V c t h0]
      iintro ⟨⟨⟨HS, Hoth⟩, Hg⟩, Ho, ⟨%d0, H0⟩, ⟨%d1, H1⟩, ⟨%d2, H2⟩, ⟨%d3, H3⟩⟩
      iapply (sound_kernel2_mid c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The body at any point, from what the pipeline hands it to what it must hand back. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives the region's own back: the scratch's contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = Phi2 V c (Fin.last cfg2.N).val (Nat.le_of_lt_succ (Fin.last cfg2.N).isLt) from rfl,
    Phi2_pos V c _ _ hN]
  refine BIBase.Entails.trans ?_ (PhiA2_join (F := F) c)
  iintro ⟨⟨HS, Ho⟩, Hg⟩
  isplitr [Hg]
  · isplitl [HS]
    · iexists _; iexact HS
    iexact Ho
  · iexact Hg

end Cert.Kernel.Hand
end
-- ==== Proof.Kernel.Fold.lean ====
/-
  The buffer contents at each boundary between @main's seven items (host operations, region 0, host operations,
  region 1, host operations, region 2, host operations), as a fold from the launch memory: a stretch of host operations
  applies its operations in order; a region leaves each of its windows' arrays at what the pipeline's write-backs leave
  (the inputs as entered) and every other buffer as it found it.
-/
import proofs.«138783_j38826504356275_2_alg».proof.Proof.Kernel.Dat0
import proofs.«138783_j38826504356275_2_alg».proof.Proof.Kernel.Dat1
import proofs.«138783_j38826504356275_2_alg».proof.Proof.Kernel.Dat2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what @main returns with. -/
abbrev W7 : Dev nD → Valuation τ sig (Elt F) := fun c => StableHlo.after hostOps3 (W6 m ρ c)

end Cert.Kernel.Hand
end
-- ==== Proof.Kernel.Run.lean ====
/-
  THE RUN of the kernel's program: @main's seven items from the launch to the return. Every weakly fair execution from
  any memory with zero counters terminates, nothing faulting, and the final memory holds every unscoped buffer at the
  last boundary's contents (the fold of Fold.lean). Each region is entered from "every unscoped buffer at the boundary's
  contents", its windows' arrays split out and put back at what its pipeline leaves, the generator register handed to
  the region's invariant and taken back, nothing owed; the host stretches run over the same thread state.
-/
import proofs.«138783_j38826504356275_2_alg».proof.Proof.Kernel.Fold
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's operations applied in order to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last boundary's contents. -/
abbrev Tₙ (c : Dev nD) : sProp 𝕄 := StableHlo.held (c : Thread nD τ) (Pipeline.ucRefs τ sig) (W7 m ρ c)

/-- What rides along ends owing nothing: the generator register is let go. -/
theorem R_owes (c : Dev nD) : (R c : sProp 𝕄) ⊢ iprop(∃ W, owes (c : Thread nD τ) (0 : CellTallies nD τ sig Unit) W) := by
  iintro ⟨-, HO⟩
  iexact HO

/-! ## The regions as segments -/

set_option backward.isDefEq.respectTransparency.types false in
/-- REGION 0 over the thread state: entered from every unscoped buffer at `W1`, left at `W2`. Its windows' arrays
    are split out of the unscoped buffers and put back at the exit contents; the generator register and the scoped
    buffers no window stages go into the region's invariant before its first point and come back from the invariant
    after its last; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its windows' arrays
    are split out of the unscoped buffers and put back at the exit contents; the generator register and the scoped
    buffers no window stages go into the region's invariant before its first point and come back from the invariant
    after its last; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its windows' arrays
    are split out of the unscoped buffers and put back at the exit contents; the generator register and the scoped
    buffers no window stages go into the region's invariant before its first point and come back from the invariant
    after its last; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run, at any float instance: the final memory agrees with the last boundary's contents on every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun _ h => h)

end Cert.Kernel.Hand
end
-- ==== Proof.Kernel.Args.lean ====
/-
  The argument arrays end as launched. No host operation writes one and no region's write-backs touch one (a region
  reads an argument through an input window, whose array is never written, or does not touch it at all), so the fold of
  the boundary contents, read at an argument's buffer, walks back to the launch memory; with the run this is the frame:
  every weakly fair execution terminates, nothing faulting, the arguments unchanged.
-/
import proofs.«138783_j38826504356275_2_alg».proof.Proof.Kernel.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first host stretch writes only its own results: every other buffer is as before it. -/
theorem keeps0 (V : Valuation τ sig (Elt F)) (r : Ref sig .tc) (h : r ∉ [main_v0, main_v1, main_v2]) :
    StableHlo.after hostOps0 V (Proc.devRef .tc r) = V (Proc.devRef .tc r) :=
  StableHlo.after_of_writes_sub (W := [main_v0, main_v1, main_v2]) hostOps0 V (by
    simp only [List.Forall, StableHlo.unary_writes, StableHlo.binary_writes, StableHlo.reshape_writes,
      Finset.singleton_subset_iff, List.mem_toFinset]
    repeat' apply And.intro
    all_goals exact List.mem_map_of_mem (by decide)) h

/-- The second host stretch writes only its own results: every other buffer is as before it. -/
theorem keeps1 (V : Valuation τ sig (Elt F)) (r : Ref sig .tc) (h : r ∉ [main_v4, main_v5, main_v6, main_v7]) :
    StableHlo.after hostOps1 V (Proc.devRef .tc r) = V (Proc.devRef .tc r) :=
  StableHlo.after_of_writes_sub (W := [main_v4, main_v5, main_v6, main_v7]) hostOps1 V (by
    simp only [List.Forall, StableHlo.unary_writes, StableHlo.binary_writes, StableHlo.reshape_writes,
      Finset.singleton_subset_iff, List.mem_toFinset]
    repeat' apply And.intro
    all_goals exact List.mem_map_of_mem (by decide)) h

/-- The third host stretch writes only its own results: every other buffer is as before it. -/
theorem keeps2 (V : Valuation τ sig (Elt F)) (r : Ref sig .tc) (h : r ∉ [main_v9, main_v10, main_v11, main_v12]) :
    StableHlo.after hostOps2 V (Proc.devRef .tc r) = V (Proc.devRef .tc r) :=
  StableHlo.after_of_writes_sub (W := [main_v9, main_v10, main_v11, main_v12]) hostOps2 V (by
    simp only [List.Forall, StableHlo.unary_writes, StableHlo.binary_writes, StableHlo.reshape_writes,
      Finset.singleton_subset_iff, List.mem_toFinset]
    repeat' apply And.intro
    all_goals exact List.mem_map_of_mem (by decide)) h

/-- The last host stretch writes only its own results: every other buffer is as before it. -/
theorem keeps3 (V : Valuation τ sig (Elt F)) (r : Ref sig .tc) (h : r ∉ [main_v14, main_v15, main_v16, main_v17, main_v18, main_v19, main_v20]) :
    StableHlo.after hostOps3 V (Proc.devRef .tc r) = V (Proc.devRef .tc r) :=
  StableHlo.after_of_writes_sub (W := [main_v14, main_v15, main_v16, main_v17, main_v18, main_v19, main_v20]) hostOps3 V (by
    simp only [List.Forall, StableHlo.unary_writes, StableHlo.binary_writes, StableHlo.reshape_writes,
      Finset.singleton_subset_iff, List.mem_toFinset]
    repeat' apply And.intro
    all_goals exact List.mem_map_of_mem (by decide)) h

/-- x: read by region 0 through its input window 1 and by region 1 through its input window 2, untouched by region 2. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) :=
        (W4_arr m ρ c 2).trans (((dat1 (V3 m ρ) c).arrAt_in 2 rfl _).trans (A_eq1 (V3 m ρ) c 2))
    _ = W2 m ρ c (Proc.devRef .tc main_arg0) := keeps1 _ main_arg0 (by decide)
    _ = W1 m ρ c (Proc.devRef .tc main_arg0) :=
        (W2_arr m ρ c 1).trans (((dat0 (V1 m ρ) c).arrAt_in 1 rfl _).trans (A_eq0 (V1 m ρ) c 1))
    _ = W0 m ρ c (Proc.devRef .tc main_arg0) := keeps0 _ main_arg0 (by decide)
    _ = m ((c : Thread nD τ).loc main_arg0) := rfl

/-- L: read by region 0 through its input window 0, untouched by regions 1 and 2. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) :=
        (W2_arr m ρ c 0).trans (((dat0 (V1 m ρ) c).arrAt_in 0 rfl _).trans (A_eq0 (V1 m ρ) c 0))
    _ = W0 m ρ c (Proc.devRef .tc main_arg1) := keeps0 _ main_arg1 (by decide)
    _ = m ((c : Thread nD τ).loc main_arg1) := rfl

/-- The four 64 × 64 matrices W₀ … W₃: each host stretch slices one out; no region has a window on them. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl

/-- b: broadcast and added by the last host stretch; no region has a window on it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run m ρ)

end Cert.Kernel.Hand
end
-- ==== Proof.KernelIdeal.Body0.lean ====
/-
  Region 0 (T₁ = L·x, and the bf16 copy of L): what one call of the kernel body does to its buffers, in each of
  the three positions a grid point (i, k) can have along the reduction axis k — first (k = 0: the accumulator is
  zeroed, then the block product added), middle (the block product added to what the point before left), last
  (k = 15: the same, and the accumulator copied into the output block). In every position the bf16 copy of the
  L block is stored whole into its output block.
-/
import proofs.«138783_j38826504356275_2_alg».proof.Proof.Gen.KernelIdeal.Launch
import proofs.«138783_j38826504356275_2_alg».proof.Proof.Gen.KernelIdeal.Skeleton
import proofs.«138783_j38826504356275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond0_0 (i : grid0.Coords) : Prop := (Scalar.cmpi .ne (Scalar.extui (Scalar.cmpi .eq (BitVec.ofNat 32 (i 1).val) 0#32)) 0#32) = 1#1
/-- The condition "k = 15" of the body's last branch. -/
abbrev cond0_1 (i : grid0.Coords) : Prop := k0_cond2 i = 1#1

/-- The 1024 rows of x that the point (·, k) multiplies its L block with: rows k·1024 … k·1024 + 1023. -/
abbrev rX0 (i : grid0.Coords) : Rect S16384x64 := Rect.unit (s := S16384x64) (k0_off1 i) S1024x64.size (k0_off1_inb i)

/-- The accumulator after a point: the accumulator it found plus (L block)·(x rows), both factors rounded to bf16. -/
def step0 (i : grid0.Coords) (xL : Vec F S2048x1024 .f32) (xX : Vec F S16384x64 .f32) (a : Vec F S2048x64 .f32) : Vec F S2048x64 .f32 :=
  k0_pay3 xL (View.ld xX (rX0 i)) a

theorem hzA : (![0, 0] : Fin S2048x1024.rank → Nat) = fun _ => 0 := by funext a; match a with | ⟨0, _⟩ => rfl | ⟨1, _⟩ => rfl
theorem hzB : (![0, 0] : Fin S2048x64.rank → Nat) = fun _ => 0 := by funext a; match a with | ⟨0, _⟩ => rfl | ⟨1, _⟩ => rfl

set_option maxHeartbeats 1000000 in
/-- A middle point (k ≠ 0, k ≠ 15): the accumulator found at `xs` is left at `step0 i xL xX xs`; the T₁ block's buffer is not touched. -/
theorem sound_kernel0_mid (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : ¬cond0_0 i) (hc1 : ¬cond0_1 i)
    (xL : Vec F S2048x1024 .f32) (xX : Vec F S16384x64 .f32) (x4 : Vec F S2048x64 .f32) (xs : Vec F S2048x64 .f32) (K : PUnit → sProp 𝕄) :
    iprop(owns (c : Thread nD τ) arg2 fullShare xL ∗ owns (c : Thread nD τ) arg3 fullShare xX ∗ owns (c : Thread nD τ) arg4 fullShare x4
        ∗ (∃ d, owns (c : Thread nD τ) arg5 fullShare d) ∗ owns (c : Thread nD τ) arg6 fullShare xs
        ∗ (iprop(owns (c : Thread nD τ) arg2 fullShare xL ∗ owns (c : Thread nD τ) arg3 fullShare xX ∗ owns (c : Thread nD τ) arg4 fullShare x4
            ∗ owns (c : Thread nD τ) arg5 fullShare (k0_pay2 xL) ∗ owns (c : Thread nD τ) arg6 fullShare (step0 i xL xX xs)) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  rw [View.read_writes_eq_canon _ _ _ (fun y => ⟨_, List.mem_singleton_self _, View.mem_set_unit_zero hzB inb_S2048x64_S2048x64_0_0 y⟩), View.canon_unit_zero hzB]
  unfold step0
  simp only [View.readAt_eq_ld, harg2.read_unread, harg3.read_unread, harg6.read_unread, View.ld_unit_zero (S := S2048x1024) hzA, View.ld_unit_zero (S := S2048x64) hzB]
set_option maxHeartbeats 1000000 in
/-- A first point (k = 0): the accumulator is zeroed and then left at the block product alone, `step0 i xL xX 0`. -/
theorem sound_kernel0_first (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : cond0_0 i) (hc1 : ¬cond0_1 i)
    (xL : Vec F S2048x1024 .f32) (xX : Vec F S16384x64 .f32) (x4 : Vec F S2048x64 .f32) (K : PUnit → sProp 𝕄) :
    iprop(owns (c : Thread nD τ) arg2 fullShare xL ∗ owns (c : Thread nD τ) arg3 fullShare xX ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare xL ∗ owns (c : Thread nD τ) arg3 fullShare xX ∗ owns (c : Thread nD τ) arg4 fullShare x4
            ∗ owns (c : Thread nD τ) arg5 fullShare (k0_pay2 xL) ∗ owns (c : Thread nD τ) arg6 fullShare (step0 i xL xX (k0_pay1 (F := F)))) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  rw [View.read_writes_eq_canon _ _ _ (fun y => ⟨_, List.mem_cons_self .., View.mem_set_unit_zero hzB inb_S2048x64_S2048x64_0_0 y⟩), View.canon_cons_unit_zero hzB]
  unfold step0
  sl_unfold_words
  simp only [View.readAt_eq_ld, harg2.read_unread, harg3.read_unread, View.ld_unit_zero (S := S2048x1024) hzA, View.ld_unit_zero (S := S2048x64) hzB, View.readCov_unit_zero (S := S2048x64) _ hzB]
  first | done | rfl
set_option maxHeartbeats 1000000 in
/-- A last point (k = 15): the accumulator found at `xs` is left at `step0 i xL xX xs`, and that is also stored, whole, into the T₁ block's buffer. -/
theorem sound_kernel0_last (c : Dev nD) (E : Set ℕ) (i : grid0.Coords)
    (arg2 : Memref sig .tc .vmem S2048x1024 .f32) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x1024 .bf16) (harg5 : arg5.IsWhole)
    (arg6 : Memref sig .tc .vmem S2048x64 .f32) (harg6 : arg6.IsWhole)
    (hc0 : ¬cond0_0 i) (hc1 : cond0_1 i)
    (xL : Vec F S2048x1024 .f32) (xX : Vec F S16384x64 .f32) (xs : Vec F S2048x64 .f32) (K : PUnit → sProp 𝕄) :
    iprop(owns (c : Thread nD τ) arg2 fullShare xL ∗ owns (c : Thread nD τ) arg3 fullShare xX ∗ (∃ d, owns (c : Thread nD τ) arg4 fullShare d)
        ∗ (∃ d, owns (c : Thread nD τ) arg5 fullShare d) ∗ owns (c : Thread nD τ) arg6 fullShare xs
        ∗ (iprop(owns (c : Thread nD τ) arg2 fullShare xL ∗ owns (c : Thread nD τ) arg3 fullShare xX ∗ owns (c : Thread nD τ) arg4 fullShare (step0 i xL xX xs)
            ∗ owns (c : Thread nD τ) arg5 fullShare (k0_pay2 xL) ∗ owns (c : Thread nD τ) arg6 fullShare (step0 i xL xX xs)) -∗ K ⟨⟩))
      ⊢ wp frame (wpE (defs₀ (F := F)) Variants.none c none) E (cc0__matvec_convert_kernel i arg2 harg2 arg3 harg3 arg4 harg4 arg5 harg5 arg6 harg6) K := by
  simp only [cc0__matvec_convert_kernel_eq_skeleton]; unfold cc0__matvec_convert_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hzB inb_S2048x64_S2048x64_0_0 y⟩), View.canon_unit_zero hzB]
    unfold step0
    sl_unfold_words
    simp only [View.readAt_eq_ld, harg2.read_unread, harg3.read_unread, harg6.read_unread, View.ld_unit_zero (S := S2048x1024) hzA, View.ld_unit_zero (S := S2048x64) hzB, View.readCov_unit_zero (S := S2048x64) _ hzB]
    first | done | rfl
  isplitl [H5]
  · iexists _; isplitr
    swap; · iexact H5
    ipureintro
    rw [View.read_writes_eq_canon _ _ _ (fun y => ⟨_, List.mem_singleton_self _, View.mem_set_unit_zero hzA inb_S2048x1024_S2048x1024_0_0 y⟩), View.canon_unit_zero hzA]
    simp only [View.readAt_eq_ld, harg2.read_unread, View.ld_unit_zero (S := S2048x1024) hzA]
  iexists _; isplitr
  swap; · iexact H6
  ipureintro
  sl_unfold_words
  rw [View.read_writes_eq_canon _ _ _ (fun y => ⟨_, List.mem_singleton_self _, View.mem_set_unit_zero hzB inb_S2048x64_S2048x64_0_0 y⟩), View.canon_unit_zero hzB]
  unfold step0
  simp only [View.readAt_eq_ld, harg2.read_unread, harg3.read_unread, harg6.read_unread, View.ld_unit_zero (S := S2048x1024) hzA, View.ld_unit_zero (S := S2048x64) hzB]
  first | done | rfl

end Cert.KernelIdeal.Hand
end
-- ==== Proof.KernelIdeal.Dat0.lean ====
/-
  Region 0 (T₁ = L·x and the bf16 copy of L) as a pipeline: what every window's buffer holds after the body at each
  grid point. The grid is 8 × 16, point t = (i, k) with i = t / 16 the block row and k = t % 16 the step along the
  reduction. The accumulator (the kernel's scratch) after point t is, by recursion on t,
      acc t = (if k = 0 then 0 else acc (t - 1)) + (L block (i, k))·(x rows k·1024 …),
  the bf16 copy's block is the L block rounded, and the T₁ block is stored (with the accumulator's value) only at
  k = 15; at the other points that window is idle. The invariant between points carries the scratch at `acc`.
-/
import proofs.«138783_j38826504356275_2_alg».proof.Proof.KernelIdeal.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the T₁ window is idle -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The accumulator, point by point -/

/-- The scratch accumulator after the body at point `n`. -/
def acc0 (c : Dev nD) : (n : ℕ) → n < cfg0.N → Vec F S2048x64 .f32
  | 0, hn => step0 (grid0.coords ⟨0, hn⟩) (iblk0 V c 0 ⟨0, hn⟩) (iblk0 V c 1 ⟨0, hn⟩) (k0_pay1 (F := F))
  | n + 1, hn => step0 (grid0.coords ⟨n + 1, hn⟩) (iblk0 V c 0 ⟨n + 1, hn⟩) (iblk0 V c 1 ⟨n + 1, hn⟩)
      (if (n + 1) % 16 = 0 then k0_pay1 (F := F) else acc0 c n (Nat.lt_of_succ_lt hn))

/-- At the first point of a block row the accumulator is the block product alone. -/
theorem acc0_first (c : Dev nD) (t : Fin cfg0.N) (h : t.val % 16 = 0) :
    acc0 V c t.val t.isLt = step0 (grid0.coords t) (iblk0 V c 0 t) (iblk0 V c 1 t) (k0_pay1 (F := F)) := by
  obtain ⟨n, hn⟩ := t
  cases n with
  | zero => rfl
  | succ n => exact congrArg _ (if_pos h)

/-- At a later point it is the point before's plus the block product. -/
theorem acc0_next (c : Dev nD) (t : Fin cfg0.N) (h : ¬t.val % 16 = 0) :
    acc0 V c t.val t.isLt = step0 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM0 : Memref sig .tc .vmem S2048x64 .f32 := Memref.whole cc0_scratch0

/-- The core's other scoped buffers (the later regions' staging buffers and scratch), each at some contents: they ride
    through this region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the region hands the body before the first point: the scratch at anything, the other scoped buffers, the
    generator register at some state. -/
theorem PhiA0_eq (c : Dev nD) :
    (Pipeline.ΦA spec0 c : sProp 𝕄)
      = iprop(iprop((∃ d, owns (c : Thread nD τ) scM0 fullShare d) ∗ other0 (F := F) c) ∗ (∃ r, prngReg c r)) := by
  unfold Pipeline.ΦA other0; rw [scopedRest0_eq]; simp only [scM0, owns_whole]; try rfl

/-- The invariant before point `n`: before the first the region's own; afterwards the scratch at the accumulator the
    point before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ other0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ other0 (F := F) c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ other0 (F := F) c) ∗ (∃ r, prngReg c r)) := by
  cases n with
  | zero => exact absurd rfl hz
  | succ n => rfl

/-! ## The pipeline's proof data -/

/-- Region 0's proof data on core `c`: the arrays as the region finds them; after the body at point `t` each input's
    buffer at its block, the T₁ block's at the accumulator (read only where it is stored, k = 15), the bf16 copy's at the
    rounded L block; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => k0_pay2 (iblk0 V c 0 t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = k0_pay2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The windows' current staging memrefs at point `t`, at the types the body takes them, with their wholeness. -/
abbrev ms0_0 (t : Fin cfg0.N) : Memref sig .tc .vmem S2048x1024 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S16384x64 .f32 := win0_1.stage (cfg0.slots t 1)
abbrev hs0_1 (t : Fin cfg0.N) : (ms0_1 t).IsWhole := Gen.hstage0_1 ((cfg0.slots t 1).cast Gen.nbuf0_1)
abbrev ms0_2 (t : Fin cfg0.N) : Memref sig .tc .vmem S2048x64 .f32 := win0_2.stage (cfg0.slots t 2)
abbrev hs0_2 (t : Fin cfg0.N) : (ms0_2 t).IsWhole := Gen.hstage0_2 ((cfg0.slots t 2).cast Gen.nbuf0_2)
abbrev ms0_3 (t : Fin cfg0.N) : Memref sig .tc .vmem S2048x1024 .bf16 := win0_3.stage (cfg0.slots t 3)
abbrev hs0_3 (t : Fin cfg0.N) : (ms0_3 t).IsWhole := Gen.hstage0_3 ((cfg0.slots t 3).cast Gen.nbuf0_3)

/-- What the body is called with at point `t`: the invariant, what the core owes, each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at point `t = (i, k)`. The inputs' buffers hold their blocks; the point is a first (k = 0), middle or last
    (k = 15) one. At a first point the scratch is handed over at anything (the region's own before the very first point,
    the row before's accumulator otherwise) and comes back at the block product alone; at the others it is handed over
    at the accumulator of the point before and comes back with the block product added. The T₁ block's buffer comes back
    as it was given except at a last point, where it holds the accumulator; the bf16 block's holds the rounded L block.
    The core's other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 2 t (idleAt0_2 t hc1) (noFlush0_2 t hc1)]
      rw [acc0_first V c t h0]
      by_cases hz : t.val = 0
      · rw [Phi0_castSucc V c t, Phi0_zero V c _ _ hz, PhiA0_eq]
        iintro ⟨⟨⟨HS, Hoth⟩, Hg⟩, Ho, ⟨%d0, H0⟩, ⟨%d1, H1⟩, ⟨%d2, H2⟩, ⟨%d3, H3⟩⟩
        iapply (sound_kernel0_first c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) _)
        isplitl [H0]; · iexact H0
        isplitl [H1]; · iexact H1
        isplitl [H2]; · iexact H2
        isplitl [H3]; · iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexists _; iexact H2
        iexact H3
      · rw [Phi0_castSucc V c t, Phi0_pos V c _ _ hz]
        iintro ⟨⟨⟨HS, Hoth⟩, Hg⟩, Ho, ⟨%d0, H0⟩, ⟨%d1, H1⟩, ⟨%d2, H2⟩, ⟨%d3, H3⟩⟩
        iapply (sound_kernel0_first c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) _)
        isplitl [H0]; · iexact H0
        isplitl [H1]; · iexact H1
        isplitl [H2]; · iexact H2
        isplitl [H3]; · iexists _; iexact H3
        isplitl [HS]; · iexists _; iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexists _; iexact H2
        iexact H3
  · have hc0 : ¬cond0_0 (grid0.coords t) := fun h => h0 ((hcond0_0 t).mp h)
    have hz : t.val ≠ 0 := fun h => h0 (by rw [h])
    rw [acc0_next V c t h0]
    rw [Phi0_castSucc V c t, Phi0_pos V c _ _ hz]
    by_cases h1 : t.val % 16 = 15
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, acc0_next V c t h0]
      iintro ⟨⟨⟨HS, Hoth⟩, Hg⟩, Ho, ⟨%d0, H0⟩, ⟨%d1, H1⟩, ⟨%d2, H2⟩, ⟨%d3, H3⟩⟩
      iapply (sound_kernel0_last c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (acc0 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hoth⟩, Hg⟩, Ho, ⟨%d0, H0⟩, ⟨%d1, H1⟩, ⟨%d2, H2⟩, ⟨%d3, H3⟩⟩
      iapply (sound_kernel0_mid c Set.univ (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) ((dat0 V c).before 2 t d2) (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexists _; iexact H2
      iexact H3

/-- The body at any point, from what the pipeline hands it to what it must hand back. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the region's own back: the accumulator in the scratch is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Hoth⟩, Hg⟩
  isplitl [HS Hoth]
  · isplitl [HS]
    · iexists _; iexact HS
    iexact Hoth
  iexact Hg

/-- After the last point the invariant gives the region's own back: the scratch's contents are forgotten. -/
theorem hout0 (c : Dev nD) : (dat0 V c).Φ (Fin.last cfg0.N) ⊢ Pipeline.ΦA spec0 c :=
  Phi0_out V c _ (by rw [Fin.val_last]; have : cfg0.N = 128 := N_0; omega)

end Cert.KernelIdeal.Hand
end
-- ==== Proof.KernelIdeal.Body1.lean ====
/-
  Region 1 (T₂ = 2·(L·T₁) − x): what one call of the kernel body does to its buffers, in each of the three positions a
  grid point (i, k) can have along the reduction axis k — first (k = 0: the accumulator is zeroed, then the block product
  added), middle (the block product added to what the point before left), last (k = 7: the same, and 2·accumulator minus
  the block of the recurrence's older term stored into the output block).
-/
import proofs.«138783_j38826504356275_2_alg».proof.Proof.Gen.KernelIdeal.Launch
import proofs.«138783_j38826504356275_2_alg».proof.Proof.Gen.KernelIdeal.Skeleton
import proofs.«138783_j38826504356275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond1_0 (i : grid1.Coords) : Prop := (Scalar.cmpi .ne (Scalar.extui (Scalar.cmpi .eq (BitVec.ofNat 32 (i 1).val) 0#32)) 0#32) = 1#1
/-- The condition "k = 7" of the body's last branch. -/
abbrev cond1_1 (i : grid1.Coords) : Prop := k1_cond2 i = 1#1

/-- The 2048 rows of the resident T that the point (·, k) multiplies its L block with: rows k·2048 … k·2048 + 2047. -/
abbrev rX1 (i : grid1.Coords) : Rect S16384x64 := Rect.unit (s := S16384x64) (k1_off1 i) S2048x64.size (k1_off1_inb i)

/-- The accumulator after a point: the accumulator it found plus (L block)·(T rows), T's rows rounded to bf16. -/
def step1 (i : grid1.Coords) (xL : Vec F S2048x2048 .bf16) (xT : Vec F S16384x64 .f32) (a : Vec F S2048x64 .f32) : Vec F S2048x64 .f32 :=
  k1_pay2 xL (View.ld xT (rX1 i)) a

theorem hzC1 : (![0, 0] : Fin S2048x2048.rank → Nat) = fun _ => 0 := by funext a; match a with | ⟨0, _⟩ => rfl | ⟨1, _⟩ => rfl
theorem hzB1 : (![0, 0] : Fin S2048x64.rank → Nat) = fun _ => 0 := by funext a; match a with | ⟨0, _⟩ => rfl | ⟨1, _⟩ => rfl

set_option maxHeartbeats 1000000 in
/-- A middle point (k ≠ 0, k ≠ 7): the accumulator found at `xs` is left at `step1 i xL xT xs`; the output block's buffer is not touched. -/
theorem sound_kernel1_mid (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (xL : Vec F S2048x2048 .bf16) (xT : Vec F S16384x64 .f32) (xP : Vec F S2048x64 .f32) (x5 : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step1 i xL xT xs)) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hzB1 inb_S2048x64_S2048x64_0_0 y⟩), View.canon_unit_zero hzB1]
  unfold step1
  simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
  first | done | rfl

set_option maxHeartbeats 1000000 in
/-- A first point (k = 0): the accumulator is zeroed and then left at the block product alone. -/
theorem sound_kernel1_first (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (xL : Vec F S2048x2048 .bf16) (xT : Vec F S16384x64 .f32) (xP : Vec F S2048x64 .f32) (x5 : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ (∃ d, owns (c : Thread nD τ) arg6 fullShare d)
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step1 i xL xT (k1_pay1 (F := F)))) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_cons_self .., View.mem_set_unit_zero hzB1 inb_S2048x64_S2048x64_0_0 y⟩), View.canon_cons_unit_zero hzB1]
  unfold step1
  sl_unfold_words
  simp only [View.readAt_eq_ld, harg2.read_unread, harg3.read_unread, harg4.read_unread, View.ld_unit_zero (S := S2048x2048) hzC1, View.ld_unit_zero (S := S2048x64) hzB1, View.readCov_unit_zero (S := S2048x64) _ hzB1]
  first | done | rfl

set_option maxHeartbeats 1000000 in
/-- A last point (k = 7): the accumulator found at `xs` is left at `step1 i xL xT xs`, and twice that minus the older term's block is stored, whole, into the output block's buffer. -/
theorem sound_kernel1_last (c : Dev nD) (E : Set ℕ) (i : grid1.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (xL : Vec F S2048x2048 .bf16) (xT : Vec F S16384x64 .f32) (xP : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ (∃ d, owns (c : Thread nD τ) arg5 fullShare d) ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare (k1_pay3 (step1 i xL xT xs) xP) ∗ owns (c : Thread nD τ) arg6 fullShare (step1 i xL xT xs)) -∗ K ⟨⟩))
      ⊢ wp frame (wpE (defs₀ (F := F)) Variants.none c none) E (cc1__cheby_kernel i arg2 harg2 arg3 harg3 arg4 harg4 arg5 harg5 arg6 harg6) K := by
  simp only [cc1__cheby_kernel_eq_skeleton]; unfold cc1__cheby_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hzB1 inb_S2048x64_S2048x64_0_0 y⟩), View.canon_unit_zero hzB1]
    unfold step1
    sl_unfold_words
    simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
    first | done | rfl
  iexists _; isplitr
  swap; · iexact H6
  ipureintro
  sl_unfold_words
  rw [View.read_writes_eq_canon _ _ _ (fun y => ⟨_, List.mem_singleton_self _, View.mem_set_unit_zero hzB1 inb_S2048x64_S2048x64_0_0 y⟩), View.canon_unit_zero hzB1]
  unfold step1
  simp only [View.readAt_eq_ld, harg2.read_unread, harg3.read_unread, harg4.read_unread, harg6.read_unread, View.ld_unit_zero (S := S2048x2048) hzC1, View.ld_unit_zero (S := S2048x64) hzB1, View.readCov_unit_zero (S := S2048x64) _ hzB1]
  first | done | rfl

end Cert.KernelIdeal.Hand
end
-- ==== Proof.KernelIdeal.Dat1.lean ====
/-
  Region 1 (T₂ = 2·(L·T₁) − x) as a pipeline: what every window's buffer holds after the body at each grid point.
  The grid is 8 × 8, point t = (i, k) with i = t / 8 the block row and k = t % 8 the step along the reduction. The
  accumulator (the kernel's scratch) after point t is, by recursion on t,
      acc t = (if k = 0 then 0 else acc (t - 1)) + (L block (i, k))·(T₁ rows k·2048 …),
  and the output block is stored, with 2·acc − (x block i), only at k = 7; at the other points that window is idle.
  The invariant between points carries the scratch at `acc`.
-/
import proofs.«138783_j38826504356275_2_alg».proof.Proof.KernelIdeal.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The accumulator, point by point -/

/-- The scratch accumulator after the body at point `n`. -/
def acc1 (c : Dev nD) : (n : ℕ) → n < cfg1.N → Vec F S2048x64 .f32
  | 0, hn => step1 (grid1.coords ⟨0, hn⟩) (iblk1 V c 0 ⟨0, hn⟩) (iblk1 V c 1 ⟨0, hn⟩) (k1_pay1 (F := F))
  | n + 1, hn => step1 (grid1.coords ⟨n + 1, hn⟩) (iblk1 V c 0 ⟨n + 1, hn⟩) (iblk1 V c 1 ⟨n + 1, hn⟩)
      (if (n + 1) % 8 = 0 then k1_pay1 (F := F) else acc1 c n (Nat.lt_of_succ_lt hn))

/-- At the first point of a block row the accumulator is the block product alone. -/
theorem acc1_first (c : Dev nD) (t : Fin cfg1.N) (h : t.val % 8 = 0) :
    acc1 V c t.val t.isLt = step1 (grid1.coords t) (iblk1 V c 0 t) (iblk1 V c 1 t) (k1_pay1 (F := F)) := by
  obtain ⟨n, hn⟩ := t
  cases n with
  | zero => rfl
  | succ n => exact congrArg _ (if_pos h)

/-- At a later point it is the point before's plus the block product. -/
theorem acc1_next (c : Dev nD) (t : Fin cfg1.N) (h : ¬t.val % 8 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM1 : Memref sig .tc .vmem S2048x64 .f32 := Memref.whole cc1_scratch0

/-- The core's other scoped buffers (the other regions' staging buffers and scratch), each at some contents: they ride
    through this region untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- What the region hands the body before the first point gives the scratch at anything, the other scoped buffers and
    the generator register at some state, -/
theorem PhiA1_split (c : Dev nD) :
    (Pipeline.ΦA spec1 c : sProp 𝕄)
      ⊢ iprop(iprop((∃ d, owns (c : Thread nD τ) scM1 fullShare d) ∗ other1 (F := F) c) ∗ (∃ r, prngReg c r)) := by
  unfold Pipeline.ΦA other1; rw [scopedRest1_eq]; simp only [scM1, owns_whole]
  iintro ⟨⟨H0, H1, H2, H3, H4, H5, H6, H7, H8, H9, H10, H11, H12, H13, H14, H15, H16⟩, Hg⟩
  isplitr [Hg]
  · isplitl [H8]
    · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- and is made of them again. -/
theorem PhiA1_join (c : Dev nD) :
    iprop(iprop((∃ d, owns (c : Thread nD τ) scM1 fullShare d) ∗ other1 (F := F) c) ∗ (∃ r, prngReg c r))
      ⊢ (Pipeline.ΦA spec1 c : sProp 𝕄) := by
  unfold Pipeline.ΦA other1; rw [scopedRest1_eq]; simp only [scM1, owns_whole]
  iintro ⟨⟨H8, H0, H1, H2, H3, H4, H5, H6, H7, H9, H10, H11, H12, H13, H14, H15, H16⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iexact Hg

/-- The invariant before point `n`: before the first the region's own; afterwards the scratch at the accumulator the
    point before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ other1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ other1 (F := F) c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ other1 (F := F) c) ∗ (∃ r, prngReg c r)) := by
  cases n with
  | zero => exact absurd rfl hz
  | succ n => rfl

/-! ## The pipeline's proof data -/

/-- Region 1's proof data on core `c`: the arrays as the region finds them; after the body at point `t` each input's
    buffer at its block and the output block's at 2·acc − (the older term's block) (read only where it is stored, k = 7);
    the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Each window's current staging memref at point `t`, spelled as the pipeline passes it to the body, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

/-- What the body is called with at point `t`: the invariant, what the core owes, and the four windows' current
    buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The three inputs' buffers hold their blocks. Along a block row the point is the first
    (k = 0), a middle one, or the last (k = 7). At the first the scratch is taken at anything (before the very first
    point from the region's own resources, later from the previous row's accumulator, forgotten) and left at the
    block product; at the others it is taken at the accumulator of the point before and left at this point's. The
    output block's buffer comes back as it was handed except at the last point of a row, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · -- the first point of a block row
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · -- the very first point: the scratch comes out of the region's own resources, at anything
      rw [Phi1_castSucc V c t, Phi1_zero V c _ _ hz]
      refine BIBase.Entails.trans (sep_mono_left (PhiA1_split (F := F) c)) ?_
      iintro ⟨⟨⟨HS, Hoth⟩, Hg⟩, Ho, ⟨%d0, H0⟩, ⟨%d1, H1⟩, ⟨%d2, H2⟩, ⟨%d3, H3⟩⟩
      iapply (sound_kernel1_first c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) _)
      isplitl [H0]
      · iexact H0
      isplitl [H1]
      · iexact H1
      isplitl [H2]
      · iexact H2
      isplitl [H3]
      · iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3
    · -- a later row's first point: the scratch holds the previous row's accumulator, which is forgotten
      rw [Phi1_castSucc V c t, Phi1_pos V c _ _ hz]
      iintro ⟨⟨⟨HS, Hoth⟩, Hg⟩, Ho, ⟨%d0, H0⟩, ⟨%d1, H1⟩, ⟨%d2, H2⟩, ⟨%d3, H3⟩⟩
      iapply (sound_kernel1_first c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) _)
      isplitl [H0]
      · iexact H0
      isplitl [H1]
      · iexact H1
      isplitl [H2]
      · iexact H2
      isplitl [H3]
      · iexact H3
      isplitl [HS]
      · iexists _; iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3
  · have hc0 : ¬cond1_0 (grid1.coords t) := fun h => h0 ((hcond1_0 t).mp h)
    have hz : t.val ≠ 0 := fun h => h0 (by rw [h])
    rw [acc1_next V c t h0]
    rw [Phi1_castSucc V c t, Phi1_pos V c _ _ hz]
    by_cases h1 : t.val % 8 = 7
    · -- the last point of a block row: the output block is stored
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [acc1_next V c t h0]
      iintro ⟨⟨⟨HS, Hoth⟩, Hg⟩, Ho, ⟨%d0, H0⟩, ⟨%d1, H1⟩, ⟨%d2, H2⟩, ⟨%d3, H3⟩⟩
      iapply (sound_kernel1_last c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) (acc1 V c (t.val - 1) (Nat.lt_of_le_of_lt (Nat.sub_le _ _) t.isLt)) _)
      isplitl [H0]
      · iexact H0
      isplitl [H1]
      · iexact H1
      isplitl [H2]
      · iexact H2
      isplitl [H3]
      · iexists _; iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexact H3
    · -- a middle point: the output block's buffer is handed back as it came
      have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hoth⟩, Hg⟩, Ho, ⟨%d0, H0⟩, ⟨%d1, H1⟩, ⟨%d2, H2⟩, ⟨%d3, H3⟩⟩
      iapply (sound_kernel1_mid c Set.univ (grid1.coords t) (ms1_0 t) (hs1_0 t) (ms1_1 t) (hs1_1 t)
        (ms1_2 t) (hs1_2 t) (ms1_3 t) (hs1_3 t) scM1 (Memref.isWhole_whole _) hc0 hc1
        (iblk1 V c 0 t) (iblk1 V c 1 t) (iblk1 V c 2 t) ((dat1 V c).before 3 t d3) (acc1 V c (t.val - 1) (Nat.lt_of_le_of_lt (Nat.sub_le _ _) t.isLt)) _)
      isplitl [H0]
      · iexact H0
      isplitl [H1]
      · iexact H1
      isplitl [H2]
      · iexact H2
      isplitl [H3]
      · iexact H3
      isplitl [HS]
      · iexact HS
      iintro ⟨H0, H1, H2, H3, HS⟩
      isplitl [HS Hoth Hg]
      · isplitr [Hg]
        · isplitl [HS]
          · iexact HS
          iexact Hoth
        iexact Hg
      isplitl [Ho]
      · iexact Ho
      isplitl [H0]
      · iexact H0
      isplitl [H1]
      · iexact H1
      isplitl [H2]
      · iexact H2
      iexists d3
      iexact H3

/-- The body at any point, from what the pipeline hands it to what it must hand back. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the region's own back: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl, Phi1_pos V c _ _ hN]
  refine BIBase.Entails.trans ?_ (PhiA1_join (F := F) c)
  iintro ⟨⟨HS, Hoth⟩, Hg⟩
  isplitr [Hg]
  · isplitl [HS]
    · iexists _; iexact HS
    iexact Hoth
  iexact Hg

end Cert.KernelIdeal.Hand
end
-- ==== Proof.KernelIdeal.Body2.lean ====
/-
  Region 2 (T₃ = 2·(L·T₂) − T₁): what one call of the kernel body does to its buffers, in each of the three positions a
  grid point (i, k) can have along the reduction axis k — first (k = 0: the accumulator is zeroed, then the block product
  added), middle (the block product added to what the point before left), last (k = 7: the same, and 2·accumulator minus
  the block of the recurrence's older term stored into the output block).
-/
import proofs.«138783_j38826504356275_2_alg».proof.Proof.Gen.KernelIdeal.Launch
import proofs.«138783_j38826504356275_2_alg».proof.Proof.Gen.KernelIdeal.Skeleton
import proofs.«138783_j38826504356275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition "k = 0" of the body's first branch, over the grid coordinates. -/
abbrev cond2_0 (i : grid2.Coords) : Prop := (Scalar.cmpi .ne (Scalar.extui (Scalar.cmpi .eq (BitVec.ofNat 32 (i 1).val) 0#32)) 0#32) = 1#1
/-- The condition "k = 7" of the body's last branch. -/
abbrev cond2_1 (i : grid2.Coords) : Prop := k2_cond2 i = 1#1

/-- The 2048 rows of the resident T that the point (·, k) multiplies its L block with: rows k·2048 … k·2048 + 2047. -/
abbrev rX2 (i : grid2.Coords) : Rect S16384x64 := Rect.unit (s := S16384x64) (k2_off1 i) S2048x64.size (k2_off1_inb i)

/-- The accumulator after a point: the accumulator it found plus (L block)·(T rows), T's rows rounded to bf16. -/
def step2 (i : grid2.Coords) (xL : Vec F S2048x2048 .bf16) (xT : Vec F S16384x64 .f32) (a : Vec F S2048x64 .f32) : Vec F S2048x64 .f32 :=
  k2_pay2 xL (View.ld xT (rX2 i)) a

theorem hzC2 : (![0, 0] : Fin S2048x2048.rank → Nat) = fun _ => 0 := by funext a; match a with | ⟨0, _⟩ => rfl | ⟨1, _⟩ => rfl
theorem hzB2 : (![0, 0] : Fin S2048x64.rank → Nat) = fun _ => 0 := by funext a; match a with | ⟨0, _⟩ => rfl | ⟨1, _⟩ => rfl

set_option maxHeartbeats 1000000 in
/-- A middle point (k ≠ 0, k ≠ 7): the accumulator found at `xs` is left at `step2 i xL xT xs`; the output block's buffer is not touched. -/
theorem sound_kernel2_mid (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond2_0 i) (hc1 : ¬cond2_1 i)
    (xL : Vec F S2048x2048 .bf16) (xT : Vec F S16384x64 .f32) (xP : Vec F S2048x64 .f32) (x5 : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step2 i xL xT xs)) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_singleton_self _, View.mem_set_unit_zero hzB2 inb_S2048x64_S2048x64_0_0 y⟩), View.canon_unit_zero hzB2]
  unfold step2
  simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
  first | done | rfl

set_option maxHeartbeats 1000000 in
/-- A first point (k = 0): the accumulator is zeroed and then left at the block product alone. -/
theorem sound_kernel2_first (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : cond2_0 i) (hc1 : ¬cond2_1 i)
    (xL : Vec F S2048x2048 .bf16) (xT : Vec F S16384x64 .f32) (xP : Vec F S2048x64 .f32) (x5 : Vec F S2048x64 .f32) (K : PUnit → sProp 𝕄) :
    iprop(owns (c : Thread nD τ) arg2 fullShare xL ∗ owns (c : Thread nD τ) arg3 fullShare xT ∗ owns (c : Thread nD τ) arg4 fullShare xP
        ∗ owns (c : Thread nD τ) arg5 fullShare x5 ∗ (∃ d, owns (c : Thread nD τ) arg6 fullShare d)
        ∗ (iprop(owns (c : Thread nD τ) arg2 fullShare xL ∗ owns (c : Thread nD τ) arg3 fullShare xT ∗ owns (c : Thread nD τ) arg4 fullShare xP
            ∗ owns (c : Thread nD τ) arg5 fullShare x5 ∗ owns (c : Thread nD τ) arg6 fullShare (step2 i xL xT (k2_pay1 (F := F)))) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (fun y => ⟨_, List.mem_cons_self .., View.mem_set_unit_zero hzB2 inb_S2048x64_S2048x64_0_0 y⟩), View.canon_cons_unit_zero hzB2]
  unfold step2
  sl_unfold_words
  simp only [View.readAt_eq_ld, harg2.read_unread, harg3.read_unread, harg4.read_unread, View.ld_unit_zero (S := S2048x2048) hzC2, View.ld_unit_zero (S := S2048x64) hzB2, View.readCov_unit_zero (S := S2048x64) _ hzB2]
  first | done | rfl

set_option maxHeartbeats 1000000 in
/-- A last point (k = 7): the accumulator found at `xs` is left at `step2 i xL xT xs`, and twice that minus the older term's block is stored, whole, into the output block's buffer. -/
theorem sound_kernel2_last (c : Dev nD) (E : Set ℕ) (i : grid2.Coords)
    (arg2 : Memref sig .tc .vmem S2048x2048 .bf16) (harg2 : arg2.IsWhole) (arg3 : Memref sig .tc .vmem S16384x64 .f32) (harg3 : arg3.IsWhole)
    (arg4 : Memref sig .tc .vmem S2048x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond2_0 i) (hc1 : cond2_1 i)
    (xL : Vec F S2048x2048 .bf16) (xT : Vec F S16384x64 .f32) (xP : Vec F S2048x64 .f32) (xs : Vec F S2048x64 .f32) (K : PUnit → sProp 𝕄) :
    iprop(owns (c : Thread nD τ) arg2 fullShare xL ∗ owns (c : Thread nD τ) arg3 fullShare xT ∗ owns (c : Thread nD τ) arg4 fullShare xP
        ∗ (∃ d, owns (c : Thread nD τ) arg5 fullShare d) ∗ owns (c : Thread nD τ) arg6 fullShare xs
        ∗ (iprop(owns (c : Thread nD τ) arg2 fullShare xL ∗ owns (c : Thread nD τ) arg3 fullShare xT ∗ owns (c : Thread nD τ) arg4 fullShare xP
            ∗ owns (c : Thread nD τ) arg5 fullShare (k2_pay3 (step2 i xL xT xs) xP) ∗ owns (c : Thread nD τ) arg6 fullShare (step2 i xL xT xs)) -∗ K ⟨⟩))
      ⊢ wp frame (wpE (defs₀ (F := F)) Variants.none c none) E (cc2__cheby_kernel i arg2 harg2 arg3 harg3 arg4 harg4 arg5 harg5 arg6 harg6) K := by
  simp only [cc2__cheby_kernel_eq_skeleton]; unfold cc2__cheby_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (fun y => ⟨_, List.mem_singleton_self _, View.mem_set_unit_zero hzB2 inb_S2048x64_S2048x64_0_0 y⟩), View.canon_unit_zero hzB2]
    unfold step2
    sl_unfold_words
    simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
    first | done | rfl
  iexists _; isplitr
  swap; · iexact H6
  ipureintro
  sl_unfold_words
  rw [View.read_writes_eq_canon _ _ _ (fun y => ⟨_, List.mem_singleton_self _, View.mem_set_unit_zero hzB2 inb_S2048x64_S2048x64_0_0 y⟩), View.canon_unit_zero hzB2]
  unfold step2
  simp only [View.readAt_eq_ld, harg2.read_unread, harg3.read_unread, harg4.read_unread, harg6.read_unread, View.ld_unit_zero (S := S2048x2048) hzC2, View.ld_unit_zero (S := S2048x64) hzB2, View.readCov_unit_zero (S := S2048x64) _ hzB2]
  first | done | rfl

end Cert.KernelIdeal.Hand
end
-- ==== Proof.KernelIdeal.Dat2.lean ====
/-
  Region 2 (T₃ = 2·(L·T₂) − T₁) as a pipeline: what every window's buffer holds after the body at each grid point.
  The grid is 8 × 8, point t = (i, k) with i = t / 8 the block row and k = t % 8 the step along the reduction. The
  accumulator (the kernel's scratch) after point t is, by recursion on t,
      acc t = (if k = 0 then 0 else acc (t - 1)) + (L block (i, k))·(T₂ rows k·2048 …),
  and the output block is stored, with 2·acc − (T₁ block i), only at k = 7; at the other points that window is idle.
  The invariant between points carries the scratch at `acc`.
-/
import proofs.«138783_j38826504356275_2_alg».proof.Proof.KernelIdeal.Body2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid, and where the output window is idle -/

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 = 7 :=
  (by decide +kernel : ∀ t : Fin grid2.N, cond2_1 (grid2.coords t) ↔ t.val % 8 = 7)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The accumulator, point by point -/

/-- The scratch accumulator after the body at point `n`. -/
def acc2 (c : Dev nD) : (n : ℕ) → n < cfg2.N → Vec F S2048x64 .f32
  | 0, hn => step2 (grid2.coords ⟨0, hn⟩) (iblk2 V c 0 ⟨0, hn⟩) (iblk2 V c 1 ⟨0, hn⟩) (k2_pay1 (F := F))
  | n + 1, hn => step2 (grid2.coords ⟨n + 1, hn⟩) (iblk2 V c 0 ⟨n + 1, hn⟩) (iblk2 V c 1 ⟨n + 1, hn⟩)
      (if (n + 1) % 8 = 0 then k2_pay1 (F := F) else acc2 c n (Nat.lt_of_succ_lt hn))

/-- At the first point of a block row the accumulator is the block product alone. -/
theorem acc2_first (c : Dev nD) (t : Fin cfg2.N) (h : t.val % 8 = 0) :
    acc2 V c t.val t.isLt = step2 (grid2.coords t) (iblk2 V c 0 t) (iblk2 V c 1 t) (k2_pay1 (F := F)) := by
  obtain ⟨n, hn⟩ := t
  cases n with
  | zero => rfl
  | succ n => exact congrArg _ (if_pos h)

/-- At a later point it is the point before's plus the block product. -/
theorem acc2_next (c : Dev nD) (t : Fin cfg2.N) (h : ¬t.val % 8 = 0) :
    acc2 V c t.val t.isLt = step2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- The kernel's scratch: a whole scoped buffer of its own. -/
abbrev scM2 : Memref sig .tc .vmem S2048x64 .f32 := Memref.whole cc2_scratch0

/-- The core's other scoped buffers (the other regions' staging buffers and scratch), each at some contents: they ride
    through this region untouched. -/
def other2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body before the first point gives the scratch at anything, the other scoped buffers and
    the generator register at some state, -/
theorem PhiA2_split (c : Dev nD) :
    (Pipeline.ΦA spec2 c : sProp 𝕄)
      ⊢ iprop(iprop((∃ d, owns (c : Thread nD τ) scM2 fullShare d) ∗ other2 (F := F) c) ∗ (∃ r, prngReg c r)) := by
  unfold Pipeline.ΦA other2; rw [scopedRest2_eq]
  simp only [scM2, owns_whole]
  iintro ⟨⟨H0, H1, H2, H3, H4, H5, H6, H7, H8, H9, H10, H11, H12, H13, H14, H15, H16⟩, Hg⟩
  isplitr [Hg]
  · isplitl [H16]
    · iexact H16
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact Hg

/-- and is made of them again. -/
theorem PhiA2_join (c : Dev nD) :
    iprop(iprop((∃ d, owns (c : Thread nD τ) scM2 fullShare d) ∗ other2 (F := F) c) ∗ (∃ r, prngReg c r))
      ⊢ (Pipeline.ΦA spec2 c : sProp 𝕄) := by
  unfold Pipeline.ΦA other2; rw [scopedRest2_eq]
  simp only [scM2, owns_whole]
  iintro ⟨⟨H16, H0, H1, H2, H3, H4, H5, H6, H7, H8, H9, H10, H11, H12, H13, H14, H15⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iexact Hg

/-- The invariant before point `n`: before the first the region's own; afterwards the scratch at the accumulator the
    point before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ other2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn) ∗ other2 (F := F) c) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega)) ∗ other2 (F := F) c) ∗ (∃ r, prngReg c r)) := by
  cases n with
  | zero => exact absurd rfl hz
  | succ n => rfl

/-! ## The pipeline's proof data -/

/-- Region 2's proof data on core `c`: the arrays as the region finds them; after the body at point `t` each input's
    buffer at its block and the output block's at 2·acc − (the older term's block) (read only where it is stored, k = 7);
    the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (acc2 V c t.val t.isLt) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- Each window's current staging memref is a whole buffer. -/
abbrev hs2_0 (t : Fin cfg2.N) : (st2_0 t).IsWhole := hstage2_0 ((cfg2.slots t 0).cast nbuf2_0)
abbrev hs2_1 (t : Fin cfg2.N) : (st2_1 t).IsWhole := hstage2_1 ((cfg2.slots t 1).cast nbuf2_1)
abbrev hs2_2 (t : Fin cfg2.N) : (st2_2 t).IsWhole := hstage2_2 ((cfg2.slots t 2).cast nbuf2_2)
abbrev hs2_3 (t : Fin cfg2.N) : (st2_3 t).IsWhole := hstage2_3 ((cfg2.slots t 3).cast nbuf2_3)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point. The three inputs' memrefs hold their blocks. At k = 0 the scratch is taken at anything (the
    region's own before the very first point, the previous block row's accumulator afterwards) and left at the block
    product alone; at 0 < k the scratch is taken at the accumulator of the point before and left at that plus the block
    product. The output block's buffer is handed back as found except at k = 7, where it is stored whole. The core owes
    nothing throughout; the other scoped buffers and the generator register ride along. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ, Phi2_castSucc V c t]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 64 := lt_of_lt_of_eq t.isLt (show cfg2.N = 64 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1), acc2_first V c t h0]
    by_cases hz : t.val = 0
    · rw [Phi2_zero V c _ _ hz]
      refine BIBase.Entails.trans (sep_mono_left (PhiA2_split (F := F) c)) ?_
      iintro ⟨⟨⟨HS, Hoth⟩, Hg⟩, Ho, ⟨%d0, H0⟩, ⟨%d1, H1⟩, ⟨%d2, H2⟩, ⟨%d3, H3⟩⟩
      iapply (sound_kernel2_first c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
    · rw [Phi2_pos V c _ _ hz]
      iintro ⟨⟨⟨HS, Hoth⟩, Hg⟩, Ho, ⟨%d0, H0⟩, ⟨%d1, H1⟩, ⟨%d2, H2⟩, ⟨%d3, H3⟩⟩
      iapply (sound_kernel2_first c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3
  · have hz : t.val ≠ 0 := fun h => h0 (by rw [h])
    have hc0 : ¬cond2_0 (grid2.coords t) := fun h => h0 ((hcond2_0 t).mp h)
    rw [Phi2_pos V c _ _ hz]
    by_cases h1 : t.val % 8 = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_next V c t h0]
      iintro ⟨⟨⟨HS, Hoth⟩, Hg⟩, Ho, ⟨%d0, H0⟩, ⟨%d1, H1⟩, ⟨%d2, H2⟩, ⟨%d3, H3⟩⟩
      iapply (sound_kernel2_last c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1), acc2_next V c t h0]
      iintro ⟨⟨⟨HS, Hoth⟩, Hg⟩, Ho, ⟨%d0, H0⟩, ⟨%d1, H1⟩, ⟨%d2, H2⟩, ⟨%d3, H3⟩⟩
      iapply (sound_kernel2_mid c Set.univ (grid2.coords t) (st2_0 t) (hs2_0 t) (st2_1 t) (hs2_1 t) (st2_2 t) (hs2_2 t) (st2_3 t) (hs2_3 t) scM2 (Memref.isWhole_whole _) hc0 hc1 (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        · iexact Hg
      isplitl [Ho]; · iexact Ho
      isplitl [H0]; · iexact H0
      isplitl [H1]; · iexact H1
      isplitl [H2]; · iexact H2
      iexists d3; iexact H3

/-- The body at any point, from what the pipeline hands it to what it must hand back. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives the region's own back: the scratch's contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 64 := N_2; omega
  rw [show (dat2 V c).Φ (Fin.last cfg2.N) = Phi2 V c (Fin.last cfg2.N).val (Nat.le_of_lt_succ (Fin.last cfg2.N).isLt) from rfl,
    Phi2_pos V c _ _ hN]
  refine BIBase.Entails.trans ?_ (PhiA2_join (F := F) c)
  iintro ⟨⟨HS, Ho⟩, Hg⟩
  isplitr [Hg]
  · isplitl [HS]
    · iexists _; iexact HS
    iexact Ho
  · iexact Hg

end Cert.KernelIdeal.Hand
end
-- ==== Proof.KernelIdeal.Fold.lean ====
/-
  The buffer contents at each boundary between @main's seven items (host operations, region 0, host operations,
  region 1, host operations, region 2, host operations), as a fold from the launch memory: a stretch of host operations
  applies its operations in order; a region leaves each of its windows' arrays at what the pipeline's write-backs leave
  (the inputs as entered) and every other buffer as it found it.
-/
import proofs.«138783_j38826504356275_2_alg».proof.Proof.KernelIdeal.Dat0
import proofs.«138783_j38826504356275_2_alg».proof.Proof.KernelIdeal.Dat1
import proofs.«138783_j38826504356275_2_alg».proof.Proof.KernelIdeal.Dat2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what @main returns with. -/
abbrev W7 : Dev nD → Valuation τ sig (Elt F) := fun c => StableHlo.after hostOps3 (W6 m ρ c)

end Cert.KernelIdeal.Hand
end
-- ==== Proof.KernelIdeal.Run.lean ====
/-
  THE RUN of the kernel's program: @main's seven items from the launch to the return. Every weakly fair execution from
  any memory with zero counters terminates, nothing faulting, and the final memory holds every unscoped buffer at the
  last boundary's contents (the fold of Fold.lean). Each region is entered from "every unscoped buffer at the boundary's
  contents", its windows' arrays split out and put back at what its pipeline leaves, the generator register handed to
  the region's invariant and taken back, nothing owed; the host stretches run over the same thread state.
-/
import proofs.«138783_j38826504356275_2_alg».proof.Proof.KernelIdeal.Fold
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's operations applied in order to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without what the core owes: every unscoped buffer at the last boundary's contents. -/
abbrev Tₙ (c : Dev nD) : sProp 𝕄 := StableHlo.held (c : Thread nD τ) (Pipeline.ucRefs τ sig) (W7 m ρ c)

/-- What rides along ends owing nothing: the generator register is let go. -/
theorem R_owes (c : Dev nD) : (R c : sProp 𝕄) ⊢ iprop(∃ W, owes (c : Thread nD τ) (0 : CellTallies nD τ sig Unit) W) := by
  iintro ⟨-, HO⟩
  iexact HO

/-! ## The regions as segments -/

set_option backward.isDefEq.respectTransparency.types false in
/-- REGION 0 over the thread state: entered from every unscoped buffer at `W1`, left at `W2`. Its windows' arrays
    are split out of the unscoped buffers and put back at the exit contents; the generator register and the scoped
    buffers no window stages go into the region's invariant before its first point and come back from the invariant
    after its last; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its windows' arrays
    are split out of the unscoped buffers and put back at the exit contents; the generator register and the scoped
    buffers no window stages go into the region's invariant before its first point and come back from the invariant
    after its last; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its windows' arrays
    are split out of the unscoped buffers and put back at the exit contents; the generator register and the scoped
    buffers no window stages go into the region's invariant before its first point and come back from the invariant
    after its last; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run, at any float instance: the final memory agrees with the last boundary's contents on every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun _ h => h)

end Cert.KernelIdeal.Hand
end
-- ==== Proof.KernelIdeal.Args.lean ====
/-
  The argument arrays end as launched. No host operation writes one and no region's write-backs touch one (a region
  reads an argument through an input window, whose array is never written, or does not touch it at all), so the fold of
  the boundary contents, read at an argument's buffer, walks back to the launch memory; with the run this is the frame:
  every weakly fair execution terminates, nothing faulting, the arguments unchanged.
-/
import proofs.«138783_j38826504356275_2_alg».proof.Proof.KernelIdeal.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first host stretch writes only its own results: every other buffer is as before it. -/
theorem keeps0 (V : Valuation τ sig (Elt F)) (r : Ref sig .tc) (h : r ∉ [main_v0, main_v1, main_v2]) :
    StableHlo.after hostOps0 V (Proc.devRef .tc r) = V (Proc.devRef .tc r) :=
  StableHlo.after_of_writes_sub (W := [main_v0, main_v1, main_v2]) hostOps0 V (by
    simp only [List.Forall, StableHlo.unary_writes, StableHlo.binary_writes, StableHlo.reshape_writes,
      Finset.singleton_subset_iff, List.mem_toFinset]
    repeat' apply And.intro
    all_goals exact List.mem_map_of_mem (by decide)) h

/-- The second host stretch writes only its own results: every other buffer is as before it. -/
theorem keeps1 (V : Valuation τ sig (Elt F)) (r : Ref sig .tc) (h : r ∉ [main_v4, main_v5, main_v6, main_v7]) :
    StableHlo.after hostOps1 V (Proc.devRef .tc r) = V (Proc.devRef .tc r) :=
  StableHlo.after_of_writes_sub (W := [main_v4, main_v5, main_v6, main_v7]) hostOps1 V (by
    simp only [List.Forall, StableHlo.unary_writes, StableHlo.binary_writes, StableHlo.reshape_writes,
      Finset.singleton_subset_iff, List.mem_toFinset]
    repeat' apply And.intro
    all_goals exact List.mem_map_of_mem (by decide)) h

/-- The third host stretch writes only its own results: every other buffer is as before it. -/
theorem keeps2 (V : Valuation τ sig (Elt F)) (r : Ref sig .tc) (h : r ∉ [main_v9, main_v10, main_v11, main_v12]) :
    StableHlo.after hostOps2 V (Proc.devRef .tc r) = V (Proc.devRef .tc r) :=
  StableHlo.after_of_writes_sub (W := [main_v9, main_v10, main_v11, main_v12]) hostOps2 V (by
    simp only [List.Forall, StableHlo.unary_writes, StableHlo.binary_writes, StableHlo.reshape_writes,
      Finset.singleton_subset_iff, List.mem_toFinset]
    repeat' apply And.intro
    all_goals exact List.mem_map_of_mem (by decide)) h

/-- The last host stretch writes only its own results: every other buffer is as before it. -/
theorem keeps3 (V : Valuation τ sig (Elt F)) (r : Ref sig .tc) (h : r ∉ [main_v14, main_v15, main_v16, main_v17, main_v18, main_v19, main_v20]) :
    StableHlo.after hostOps3 V (Proc.devRef .tc r) = V (Proc.devRef .tc r) :=
  StableHlo.after_of_writes_sub (W := [main_v14, main_v15, main_v16, main_v17, main_v18, main_v19, main_v20]) hostOps3 V (by
    simp only [List.Forall, StableHlo.unary_writes, StableHlo.binary_writes, StableHlo.reshape_writes,
      Finset.singleton_subset_iff, List.mem_toFinset]
    repeat' apply And.intro
    all_goals exact List.mem_map_of_mem (by decide)) h

/-- x: read by region 0 through its input window 1 and by region 1 through its input window 2, untouched by region 2. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keeps3 _ main_arg0 (by decide)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) :=
        (W4_arr m ρ c 2).trans (((dat1 (V3 m ρ) c).arrAt_in 2 rfl _).trans (A_eq1 (V3 m ρ) c 2))
    _ = W2 m ρ c (Proc.devRef .tc main_arg0) := keeps1 _ main_arg0 (by decide)
    _ = W1 m ρ c (Proc.devRef .tc main_arg0) :=
        (W2_arr m ρ c 1).trans (((dat0 (V1 m ρ) c).arrAt_in 1 rfl _).trans (A_eq0 (V1 m ρ) c 1))
    _ = W0 m ρ c (Proc.devRef .tc main_arg0) := keeps0 _ main_arg0 (by decide)
    _ = m ((c : Thread nD τ).loc main_arg0) := rfl

/-- L: read by region 0 through its input window 0, untouched by regions 1 and 2. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keeps3 _ main_arg1 (by decide)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) :=
        (W2_arr m ρ c 0).trans (((dat0 (V1 m ρ) c).arrAt_in 0 rfl _).trans (A_eq0 (V1 m ρ) c 0))
    _ = W0 m ρ c (Proc.devRef .tc main_arg1) := keeps0 _ main_arg1 (by decide)
    _ = m ((c : Thread nD τ).loc main_arg1) := rfl

/-- The four 64 × 64 matrices W₀ … W₃: each host stretch slices one out; no region has a window on them. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keeps3 _ main_arg2 (by decide)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl

/-- b: broadcast and added by the last host stretch; no region has a window on it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keeps3 _ main_arg3 (by decide)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := W2_of_ne m ρ c main_arg3 (by decide)
    _ = W0 m ρ c (Proc.devRef .tc main_arg3) := keeps0 _ main_arg3 (by decide)
    _ = m ((c : Thread nD τ).loc main_arg3) := rfl

/-- THE FRAME, at any float instance: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run m ρ)

end Cert.KernelIdeal.Hand
end
-- ==== Proof.Spec.lean ====
/-
  The mathematics both programs compute, over the extended reals.

  With L a 16384 × 16384 array and x a 16384 × 64 array, (L·T)(r, j) = Σ_k L(r, k) · T(k, j) (a finite sum in the
  commutative monoid of the extended reals, so its terms may be regrouped freely), the Chebyshev recurrence is
      T₀ = x,   T₁ = L·x,   T₂ = 2·(L·T₁) − T₀,   T₃ = 2·(L·T₂) − T₁,
  and the result is  T₀·W₀ + T₁·W₁ + T₂·W₂ + T₃·W₃ + b.  The kernel forms each L·T block row by block row, adding
  sixteen (or eight) partial products of column blocks of L into an accumulator that starts at zero; the reference forms
  it as one contraction over all k. The two agree because a sum over k < 16384 is the sum over the blocks of the sums
  within each block (`sum_blocks`), and 0 + a = a.
-/
import Mathlib.Algebra.BigOperators.Fin
import Idealize.ShloMosaic.PureOps.Ideal
import Idealize.ShloMosaic.Lib.ValueIdx

noncomputable section

open scoped BigOperators

namespace Cert.Spec

open Idealize.ShloMosaic Idealize.ShloMosaic.ValueIdx

/-- 16384 × 64: x and every T. -/
abbrev SNF : Shape := ⟨2, ![16384, 64]⟩
/-- 16384 × 16384: L. -/
abbrev SNN : Shape := ⟨2, ![16384, 16384]⟩

/-- (L·T)(r, j) = Σ_k L(r, k) · T(k, j). -/
def lmul (L : SNN.Idx → EReal) (T : SNF.Idx → EReal) : SNF.Idx → EReal :=
  fun i => ∑ k : Fin 16384, L (ix2 (i 0) k) * T (ix2 k (i 1))

/-- The recurrence's step 2·(L·T) − P, with 2 the f32 word 0x40000000 read exactly. -/
def cheb (L : SNN.Idx → EReal) (T P : SNF.Idx → EReal) : SNF.Idx → EReal :=
  fun i => Ideal.ofBits .f32 0x40000000#32 * lmul L T i - P i

/-- The same regrouping over initial segments of ℕ: k < (n+1)·bs splits as k < n·bs followed by the bs entries
n·bs + j of the last block. -/
theorem sum_blocks_range (nb bs : ℕ) (f : ℕ → EReal) :
    ∑ k ∈ Finset.range (nb * bs), f k = ∑ b ∈ Finset.range nb, ∑ j ∈ Finset.range bs, f (b * bs + j) := by
  induction nb with
  | zero => simp
  | succ n ih =>
    rw [Nat.succ_mul, Finset.sum_range_add, ih, Finset.sum_range_succ]

/-- The sum over k < nb·bs is the sum over the nb blocks of the sums over the bs entries of each block. -/
theorem sum_blocks (nb bs : ℕ) (f : ℕ → EReal) :
    ∑ k : Fin (nb * bs), f k.val = ∑ b : Fin nb, ∑ j : Fin bs, f (b.val * bs + j.val) := by
  rw [Fin.sum_univ_eq_sum_range (fun k => f k) (nb * bs), sum_blocks_range,
    ← Fin.sum_univ_eq_sum_range (fun b => ∑ j ∈ Finset.range bs, f (b * bs + j)) nb]
  refine Finset.sum_congr rfl fun b _ => ?_
  exact (Fin.sum_univ_eq_sum_range (fun j => f (b.val * bs + j)) bs).symm

end Cert.Spec
end
-- ==== Proof.Value0.lean ====
/-
  What region 0 leaves in its first output array, at the ideal instance (floats are extended reals, every rounding the
  identity): T₁ = L·x. Block row i of T₁ is written once, at the point (i, 15), with the
  accumulator, which by then is 0 + Σ_{k ≤ 15} (L block (i,k))·(x rows k·1024 …), i.e. at (r, j)
  Σ_k Σ_{kk < 1024} L(r, k·1024 + kk)·x(k·1024 + kk, j) = Σ_{k' < 16384} L(r, k')·x(k', j).
-/
import proofs.«138783_j38826504356275_2_alg».proof.Proof.KernelIdeal.Dat0
import proofs.«138783_j38826504356275_2_alg».proof.Proof.Spec
import Idealize.ShloMosaic.PureOps.Ideal.Laws
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The block product at an index -/

theorem lhs0_0 (i : S2048x64.Idx) (q : Cert.KernelIdeal.dot_S2048x1024_S1024x64_S2048x64_1_0_0_1_n_n.contr.Idx) :
    (Cert.KernelIdeal.dot_S2048x1024_S1024x64_S2048x64_1_0_0_1_n_n.lhsIdx i q 0).val = (i 0).val := by
  unfold DotDims.lhsIdx
  rw [dif_neg (show ¬(0 : Fin S2048x1024.rank) ∈ Cert.KernelIdeal.dot_S2048x1024_S1024x64_S2048x64_1_0_0_1_n_n.lhsBatch by decide), dif_pos (show (0 : Fin S2048x1024.rank) ∈ Cert.KernelIdeal.dot_S2048x1024_S1024x64_S2048x64_1_0_0_1_n_n.lhsNonContracting by decide)]
  rfl
theorem lhs0_1 (i : S2048x64.Idx) (q : Cert.KernelIdeal.dot_S2048x1024_S1024x64_S2048x64_1_0_0_1_n_n.contr.Idx) :
    (Cert.KernelIdeal.dot_S2048x1024_S1024x64_S2048x64_1_0_0_1_n_n.lhsIdx i q 1).val = (q ⟨0, by decide⟩).val :=
  Cert.KernelIdeal.dot_S2048x1024_S1024x64_S2048x64_1_0_0_1_n_n.lhsIdx_val_of_single rfl i q
theorem rhs0_0 (i : S2048x64.Idx) (q : Cert.KernelIdeal.dot_S2048x1024_S1024x64_S2048x64_1_0_0_1_n_n.contr.Idx) :
    (Cert.KernelIdeal.dot_S2048x1024_S1024x64_S2048x64_1_0_0_1_n_n.rhsIdx i q 0).val = (q ⟨0, by decide⟩).val :=
  Cert.KernelIdeal.dot_S2048x1024_S1024x64_S2048x64_1_0_0_1_n_n.rhsIdx_val_of_single rfl i q
theorem rhs0_1 (i : S2048x64.Idx) (q : Cert.KernelIdeal.dot_S2048x1024_S1024x64_S2048x64_1_0_0_1_n_n.contr.Idx) :
    (Cert.KernelIdeal.dot_S2048x1024_S1024x64_S2048x64_1_0_0_1_n_n.rhsIdx i q 1).val = (i 1).val := by
  unfold DotDims.rhsIdx
  rw [dif_neg (show ¬(1 : Fin S1024x64.rank) ∈ Cert.KernelIdeal.dot_S2048x1024_S1024x64_S2048x64_1_0_0_1_n_n.rhsBatch by decide), dif_pos (show (1 : Fin S1024x64.rank) ∈ Cert.KernelIdeal.dot_S2048x1024_S1024x64_S2048x64_1_0_0_1_n_n.rhsNonContracting by decide)]
  rfl

/-- One step of the accumulation at an element: the accumulator's entry plus row p of the L block times column q of the
    rows of x the step reads. -/
theorem step0_apply (i : grid0.Coords) (xL : Vec Ideal S2048x1024 .f32) (xT : Vec Ideal S16384x64 .f32)
    (a : Vec Ideal S2048x64 .f32) (p : Fin 2048) (q : Fin 64) :
    step0 i xL xT a (ix2 p q) = a (ix2 p q) + ∑ kk : Fin 1024, xL (ix2 p kk) * (View.ld xT (rX0 i)) (ix2 kk q) := by
  unfold step0 k0_pay3 k0_pay2
  rw [shapeCast_self]
  refine (addf_apply _ _ _).trans (congrArg (a (ix2 p q) + ·) ?_)
  refine (Ideal.matmul_constant_zero_apply Cert.KernelIdeal.dot_S2048x1024_S1024x64_S2048x64_1_0_0_1_n_n none _ _ (ix2 p q)).trans ?_
  rw [← Equiv.sum_comp (contrEquiv1 Cert.KernelIdeal.dot_S2048x1024_S1024x64_S2048x64_1_0_0_1_n_n 1024 rfl rfl).symm]
  refine Finset.sum_congr rfl fun kk _ => ?_
  have hk := contrEquiv1_symm_val Cert.KernelIdeal.dot_S2048x1024_S1024x64_S2048x64_1_0_0_1_n_n 1024 rfl rfl kk
  have el : Cert.KernelIdeal.dot_S2048x1024_S1024x64_S2048x64_1_0_0_1_n_n.lhsIdx (ix2 p q) ((contrEquiv1 Cert.KernelIdeal.dot_S2048x1024_S1024x64_S2048x64_1_0_0_1_n_n 1024 rfl rfl).symm kk) = ix2 p kk := funext fun b => Fin.ext (by
    match b with
    | ⟨0, _⟩ => exact lhs0_0 _ _
    | ⟨1, _⟩ => exact (lhs0_1 _ _).trans hk)
  have er : Cert.KernelIdeal.dot_S2048x1024_S1024x64_S2048x64_1_0_0_1_n_n.rhsIdx (ix2 p q) ((contrEquiv1 Cert.KernelIdeal.dot_S2048x1024_S1024x64_S2048x64_1_0_0_1_n_n 1024 rfl rfl).symm kk) = ix2 kk q := funext fun b => Fin.ext (by
    match b with
    | ⟨0, _⟩ => exact (rhs0_0 _ _).trans hk
    | ⟨1, _⟩ => exact rhs0_1 _ _)
  rw [el, er]
  rfl

variable (V : (c : Dev nD) → (b : Ref sig .tc) → Buf (Elt Ideal) ((c : Thread nD τ).loc b))

/-! ## The blocks at an element -/

/-- The block indices over the grid: point t = (t / 16, t % 16); the L block moves with both, the x window is the whole
    array, the output block moves with the block row. -/
theorem idx0 : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = t.val / 16 ∧ win0_2.index t (1 : Fin 2) = 0 :=
  (by decide +kernel : ∀ t : Fin grid0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = t.val / 16 ∧ win0_2.index t (1 : Fin 2) = 0)

/-- The rows of x a step reads start at (t % 16)·1024. -/
theorem off0 : ∀ t : Fin cfg0.N, k0_off1 (grid0.coords t) = ![(t.val % 16) * 1024, 0] :=
  (by decide +kernel : ∀ t : Fin grid0.N, k0_off1 (grid0.coords t) = ![(t.val % 16) * 1024, 0])

set_option maxHeartbeats 200000 in
/-- The L block at point t = (i, k): its entry (p, kk) is L(i·2048 + p, k·1024 + kk). -/
theorem iblk0_0_apply (c : Dev nD) (t : Fin cfg0.N) (p : Fin 2048) (kk : Fin 1024) (r s : Fin 16384)
    (hr : r.val = t.val / 16 * 2048 + p.val) (hs : s.val = t.val % 16 * 1024 + kk.val) :
    iblk0 V c 0 t (ix2 p kk) = V c main_arg1 (ix2 r s) := by
  unfold iblk0
  rw [View.read_apply]
  show V c main_arg1 _ = V c main_arg1 _
  refine congrArg (V c main_arg1) ?_
  obtain ⟨e0, e1, -⟩ := idx0 t
  funext a; apply Fin.ext
  match a with
  | ⟨0, _⟩ => show win0_0.index t (0 : Fin 2) * 2048 + 1 * p.val = r.val; rw [e0, hr]; omega
  | ⟨1, _⟩ => show win0_0.index t (1 : Fin 2) * 1024 + 1 * kk.val = s.val; rw [e1, hs]; omega

set_option maxHeartbeats 200000 in
/-- The x window's block is the whole array at every point. -/
theorem iblk0_1_apply (c : Dev nD) (t : Fin cfg0.N) (r : Fin 16384) (q : Fin 64) :
    iblk0 V c 1 t (ix2 r q) = V c main_arg0 (ix2 r q) := by
  unfold iblk0
  rw [View.read_apply]
  show V c main_arg0 _ = V c main_arg0 _
  refine congrArg (V c main_arg0) ?_
  obtain ⟨-, -, e0, e1, -⟩ := idx0 t
  funext a; apply Fin.ext
  match a with
  | ⟨0, _⟩ => show win0_1.index t (0 : Fin 2) * 16384 + 1 * r.val = r.val; rw [e0]; omega
  | ⟨1, _⟩ => show win0_1.index t (1 : Fin 2) * 64 + 1 * q.val = q.val; rw [e1]; omega

set_option maxHeartbeats 200000 in
/-- The rows of x a step loads: row kk of the load is row (t % 16)·1024 + kk of the array. -/
theorem ldX0_apply (t : Fin cfg0.N) (xT : Vec Ideal S16384x64 .f32) (kk : Fin 1024) (q : Fin 64) (s : Fin 16384)
    (hs : s.val = t.val % 16 * 1024 + kk.val) :
    View.ld xT (rX0 (grid0.coords t)) (ix2 kk q) = xT (ix2 s q) := by
  show xT _ = xT _
  refine congrArg xT ?_
  have e := off0 t
  funext a; apply Fin.ext
  match a with
  | ⟨0, _⟩ =>
    show k0_off1 (grid0.coords t) (0 : Fin 2) + 1 * kk.val = s.val
    rw [e, hs]; show t.val % 16 * 1024 + 1 * kk.val = t.val % 16 * 1024 + kk.val; omega
  | ⟨1, _⟩ =>
    show k0_off1 (grid0.coords t) (1 : Fin 2) + 1 * q.val = q.val
    rw [e]; show 0 + 1 * q.val = q.val; omega

/-! ## The accumulator along a block row -/

/-- One term of the contraction: L(r, n)·x(n, q); zero past the array, where it is never read. -/
def term0 (L : Cert.Spec.SNN.Idx → EReal) (T : Cert.Spec.SNF.Idx → EReal) (r : Fin 16384) (q : Fin 64) (n : ℕ) : EReal :=
  if h : n < 16384 then L (ix2 r ⟨n, h⟩) * T (ix2 ⟨n, h⟩ q) else 0

set_option maxHeartbeats 400000 in
/-- One step at point n = (i, k), at the element (p, q) of the block, r = i·2048 + p the row of the array: the
    accumulator's entry plus the partial product over the columns k·1024 … of L. -/
theorem step0_at (c : Dev nD) (n : ℕ) (hn : n < cfg0.N) (a : Vec Ideal S2048x64 .f32) (p : Fin 2048) (q : Fin 64)
    (r : Fin 16384) (hr : r.val = n / 16 * 2048 + p.val) :
    step0 (grid0.coords ⟨n, hn⟩) (iblk0 V c 0 ⟨n, hn⟩) (iblk0 V c 1 ⟨n, hn⟩) a (ix2 p q)
      = a (ix2 p q) + ∑ kk : Fin 1024, term0 (V c main_arg1) (V c main_arg0) r q (n % 16 * 1024 + kk.val) := by
  have hN : n < 128 := lt_of_lt_of_eq hn N_0
  refine (step0_apply _ _ _ _ p q).trans (congrArg (a (ix2 p q) + ·) (Finset.sum_congr rfl fun kk _ => ?_))
  have hk : n % 16 * 1024 + kk.val < 16384 := by have := kk.isLt; omega
  rw [ldX0_apply ⟨n, hn⟩ _ kk q ⟨_, hk⟩ rfl, iblk0_0_apply V c ⟨n, hn⟩ p kk r ⟨_, hk⟩ hr rfl, iblk0_1_apply V c ⟨n, hn⟩ ⟨_, hk⟩ q]
  unfold term0
  rw [dif_pos hk]

/-- The zero block at an element. -/
theorem k0_pay1_apply (p : Fin 2048) (q : Fin 64) : (k0_pay1 (F := Ideal)) (ix2 p q) = 0 := by
  unfold k0_pay1
  rw [shapeCast_self]
  exact Ideal.ofBits_zero_f32

set_option maxHeartbeats 400000 in
/-- After point n = (i, k) the accumulator's entry (p, q) is the sum of the partial products of the column blocks
    0 … k of row r = i·2048 + p: by induction along the block row. -/
theorem acc0_apply (c : Dev nD) : ∀ (n : ℕ) (hn : n < cfg0.N) (p : Fin 2048) (q : Fin 64) (r : Fin 16384),
    r.val = n / 16 * 2048 + p.val →
    acc0 V c n hn (ix2 p q) = ∑ kb ∈ Finset.range (n % 16 + 1), ∑ kk : Fin 1024, term0 (V c main_arg1) (V c main_arg0) r q (kb * 1024 + kk.val)
  | 0, hn, p, q, r, hr => by
    refine (congrFun (acc0_first V c ⟨0, hn⟩ rfl) (ix2 p q)).trans ?_
    rw [step0_at V c 0 hn _ p q r hr, k0_pay1_apply, zero_add, Finset.sum_range_one]
  | n + 1, hn, p, q, r, hr => by
    by_cases h0 : (n + 1) % 16 = 0
    · refine (congrFun (acc0_first V c ⟨n + 1, hn⟩ h0) (ix2 p q)).trans ?_
      rw [step0_at V c (n + 1) hn _ p q r hr, k0_pay1_apply, zero_add, h0, Finset.sum_range_one]
    · have hr' : r.val = n / 16 * 2048 + p.val := by omega
      have he : (n + 1) % 16 = n % 16 + 1 := by omega
      have ih := acc0_apply c n (Nat.lt_of_succ_lt hn) p q r hr'
      refine (congrFun (acc0_next V c ⟨n + 1, hn⟩ h0) (ix2 p q)).trans ?_
      rw [step0_at V c (n + 1) hn _ p q r hr, he, Finset.sum_range_succ, ← ih]
      rfl

/-! ## What the array ends holding -/

/-- Row r of L·x at column q is the sum, over the sixteen column blocks of L, of the partial products. -/
theorem lmul_blocks (c : Dev nD) (r : Fin 16384) (q : Fin 64) :
    Cert.Spec.lmul (V c main_arg1) (V c main_arg0) (ix2 r q)
      = ∑ kb ∈ Finset.range (15 + 1), ∑ kk : Fin 1024, term0 (V c main_arg1) (V c main_arg0) r q (kb * 1024 + kk.val) := by
  have hs := Cert.Spec.sum_blocks 16 1024 (term0 (V c main_arg1) (V c main_arg0) r q)
  rw [show (15 + 1 : ℕ) = 16 from rfl,
    ← Fin.sum_univ_eq_sum_range (fun kb => ∑ kk : Fin 1024, term0 (V c main_arg1) (V c main_arg0) r q (kb * 1024 + kk.val)) 16]
  refine Eq.trans ?_ hs
  unfold Cert.Spec.lmul
  refine Finset.sum_congr rfl fun k _ => ?_
  unfold term0
  rw [dif_pos k.isLt]

set_option maxHeartbeats 200000 in
/-- The output window is not cut at the array's end: what a point writes back is all its buffer holds. -/
theorem cut0_2 (t : Fin cfg0.N) (X : Vec Ideal S2048x64 .f32) : (cfg0.win 2).cut (grid0.coords t) X = X := rfl

set_option maxHeartbeats 200000 in
/-- The output block at point t = (i, k), read off any contents G of the array: its entry (p, q) is G(i·2048 + p, q). -/
theorem read_blk0_2 (t : Fin cfg0.N) (G : S16384x64.Idx → EReal) (p : Fin 2048) (q : Fin 64) (r : Fin 16384)
    (hr : r.val = t.val / 16 * 2048 + p.val) :
    ((cfg0.win 2).blk t).view.read (Elt Ideal) G (ix2 p q) = G (ix2 r q) := by
  rw [View.read_apply]
  show G _ = G _
  refine congrArg G ?_
  obtain ⟨-, -, -, -, e0, e1⟩ := idx0 t
  funext a; apply Fin.ext
  match a with
  | ⟨0, _⟩ => show win0_2.index t (0 : Fin 2) * 2048 + 1 * p.val = r.val; rw [e0, hr]; omega
  | ⟨1, _⟩ => show win0_2.index t (1 : Fin 2) * 64 + 1 * q.val = q.val; rw [e1]; omega

set_option maxHeartbeats 400000 in
/-- What a flushing point (i, 15) writes back is its block of L·x: rows i·2048 … of it. -/
theorem flushed0_2_eq (c : Dev nD) (t : Fin cfg0.N) (hf : (cfg0.win 2).flush t = true) :
    (dat0 V c).flushed 2 t = ((cfg0.win 2).blk t).view.read (Elt Ideal) (Cert.Spec.lmul (V c main_arg1) (V c main_arg0)) := by
  have h15 : t.val % 16 = 15 := (flush0_2 t).mp hf
  have hN : t.val < 128 := lt_of_lt_of_eq t.isLt N_0
  show (cfg0.win 2).cut (grid0.coords t) ((dat0 V c).after 2 t) = _
  rw [after0_2, cut0_2]
  funext j
  obtain ⟨p, q, rfl⟩ : ∃ (p : Fin 2048) (q : Fin 64), j = ix2 p q := ⟨_, _, eq_ix2 (n0 := 2048) (n1 := 64) j⟩
  have hr : t.val / 16 * 2048 + p.val < 16384 := by have := p.isLt; omega
  rw [read_blk0_2 t _ p q ⟨_, hr⟩ rfl, acc0_apply V c t.val t.isLt p q ⟨_, hr⟩ rfl, h15, lmul_blocks]

set_option maxHeartbeats 400000 in
/-- Row r of the array lies in the block flushed at the point (r / 2048, 15). -/
theorem cover0_2 (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 128 := N_0
  obtain ⟨t, ht⟩ : ∃ t : Fin cfg0.N, t.val = (i 0).val / 2048 * 16 + 15 := ⟨⟨(i 0).val / 2048 * 16 + 15, by rw [hN]; omega⟩, rfl⟩
  obtain ⟨-, -, -, -, e0, e1⟩ := idx0 t
  refine ⟨t, (flush0_2 t).mpr (by rw [ht]; omega), ?_⟩
  show i ∈ ((View.whole main_v3_0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 64 ≤ (i 1).val ∧ (i 1).val < win0_2.index t (1 : Fin 2) * 64 + 64
    rw [e1]; omega

/-- Region 0 leaves T₁ = L·x in its first output array. -/
theorem final0_2 (c : Dev nD) :
    ((dat0 (F := Ideal) V c).arrAt 2 cfg0.N : S16384x64.Idx → EReal) = Cert.Spec.lmul (V c main_arg1) (V c main_arg0) := by
  exact (dat0 V c).arrAt_eq_of_cover 2 (Cert.Spec.lmul (V c main_arg1) (V c main_arg0)) (flushed0_2_eq V c) (fun i => cover0_2 i)

end Cert.KernelIdeal.Hand
end
-- ==== Proof.Value0b.lean ====
/-
  What region 0 leaves in its second output array, at the ideal instance: L itself. Every grid point (i, k) writes the
  block (i, k) of the array back with the L block rounded to bf16, the rounding the identity on extended reals; the
  blocks tile the array.
-/
import proofs.«138783_j38826504356275_2_alg».proof.Proof.KernelIdeal.Dat0
import Idealize.ShloMosaic.PureOps.Ideal.Laws
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The printed index maps, decided over the grid: the input window over L moves with this output window, whose block
    index at the point t = i·16 + k is (i, k). -/
theorem idx_facts0_3 : ∀ t : Fin cfg0.N, win0_0.index t (0 : Fin 2) = win0_3.index t (0 : Fin 2)
    ∧ win0_0.index t (1 : Fin 2) = win0_3.index t (1 : Fin 2)
    ∧ win0_3.index t (0 : Fin 2) = t.val / 16 ∧ win0_3.index t (1 : Fin 2) = t.val % 16 :=
  (by decide +kernel : ∀ t : Fin grid0.N, _)

/-- What point `t` writes back is block `t` of L: the body stores the L block it loaded, rounded to bf16 (the identity
    on extended reals), and the two windows' blocks at `t` sit at the same offsets of their arrays. -/
theorem flushed0_3_eq (c : Dev nD) (t : Fin cfg0.N) :
    (dat0 (F := Ideal) V c).flushed 3 t = ((cfg0.win 3).blk t).view.read (Elt Ideal) (V c main_arg1 : S16384x16384.Idx → EReal) := by
  show (cfg0.win 3).cut (grid0.coords t) ((dat0 V c).after 3 t) = _
  rw [after0_3]
  funext y
  show (V c main_arg1 : S16384x16384.Idx → EReal) (((cfg0.win 0).blk t).view.emb y) = (V c main_arg1 : S16384x16384.Idx → EReal) (((cfg0.win 3).blk t).view.emb y)
  obtain ⟨e0, e1, e2, e3⟩ := idx_facts0_3 t
  have h0 : ((cfg0.win 0).blk t).view.emb y = ((cfg0.win 3).blk t).view.emb y := by
    funext a; apply Fin.ext
    match a with
    | ⟨0, _⟩ => show win0_0.index t (0 : Fin 2) * 2048 + 1 * (y 0).val = win0_3.index t (0 : Fin 2) * 2048 + 1 * (y 0).val; omega
    | ⟨1, _⟩ => show win0_0.index t (1 : Fin 2) * 1024 + 1 * (y 1).val = win0_3.index t (1 : Fin 2) * 1024 + 1 * (y 1).val; omega
  rw [h0]

/-- An index of the array is in point `t`'s block iff each coordinate is in the block's range on its axis. -/
theorem mem_blk0_3 (t : Fin cfg0.N) (i : S16384x16384.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v3_1).slice (win0_3.rect t)).set ↔ _
  rw [View.set_slice_whole, Rect.mem_set_unit]
  exact Iff.rfl

/-- The blocks tile the array: the index (r, s) is in the block of the point (r / 2048)·16 + s / 1024, and every point
    writes its block back. -/
theorem cover0_3 (i : S16384x16384.Idx) :
    ∃ t : Fin cfg0.N, (cfg0.win 3).flush t = true ∧ i ∈ ((cfg0.win 3).blk t).view.set := by
  have hi0 : (i 0).val < 16384 := (i 0).isLt
  have hi1 : (i 1).val < 16384 := (i 1).isLt
  have hN : cfg0.N = 128 := N_0
  have ht : (i 0).val / 2048 * 16 + (i 1).val / 1024 < cfg0.N := by rw [hN]; omega
  refine ⟨⟨(i 0).val / 2048 * 16 + (i 1).val / 1024, ht⟩, flush0_3 _, ?_⟩
  rw [mem_blk0_3]
  obtain ⟨-, -, e2, e3⟩ := idx_facts0_3 ⟨(i 0).val / 2048 * 16 + (i 1).val / 1024, ht⟩
  have q0 : win0_3.index ⟨(i 0).val / 2048 * 16 + (i 1).val / 1024, ht⟩ (0 : Fin 2) = (i 0).val / 2048 := by rw [e2]; show ((i 0).val / 2048 * 16 + (i 1).val / 1024) / 16 = _; omega
  have q1 : win0_3.index ⟨(i 0).val / 2048 * 16 + (i 1).val / 1024, ht⟩ (1 : Fin 2) = (i 1).val / 1024 := by rw [e3]; show ((i 0).val / 2048 * 16 + (i 1).val / 1024) % 16 = _; omega
  intro a
  match a with
  | ⟨0, _⟩ =>
    show win0_3.index ⟨(i 0).val / 2048 * 16 + (i 1).val / 1024, ht⟩ (0 : Fin 2) * 2048 ≤ (i 0).val ∧ (i 0).val < win0_3.index ⟨(i 0).val / 2048 * 16 + (i 1).val / 1024, ht⟩ (0 : Fin 2) * 2048 + 2048
    rw [q0]; omega
  | ⟨1, _⟩ =>
    show win0_3.index ⟨(i 0).val / 2048 * 16 + (i 1).val / 1024, ht⟩ (1 : Fin 2) * 1024 ≤ (i 1).val ∧ (i 1).val < win0_3.index ⟨(i 0).val / 2048 * 16 + (i 1).val / 1024, ht⟩ (1 : Fin 2) * 1024 + 1024
    rw [q1]; omega

/-- Region 0 leaves L itself (its bf16 copy, the rounding the identity) in its second output array. -/
theorem final0_3 (c : Dev nD) :
    ((dat0 (F := Ideal) V c).arrAt 3 cfg0.N : S16384x16384.Idx → EReal) = V c main_arg1 :=
  (dat0 (F := Ideal) V c).arrAt_eq_of_cover 3 (V c main_arg1 : S16384x16384.Idx → EReal) (fun t _ => flushed0_3_eq V c t) cover0_3

end Cert.KernelIdeal.Hand
end
-- ==== Proof.Value1.lean ====
/-
  What region 1 leaves in its output array, at the ideal instance: T₂ = 2·(L·T₁) − x, where L is what the region finds in
  the bf16 array and T₁, x what it finds in its other two input arrays. Block row i is written once, at the point (i, 7),
  with 2·acc − (x block i), the accumulator by then 0 + Σ_{k ≤ 7} (L block (i,k))·(T₁ rows k·2048 …), i.e. at (r, j)
  Σ_k Σ_{kk < 2048} L(r, k·2048 + kk)·T₁(k·2048 + kk, j) = Σ_{k' < 16384} L(r, k')·T₁(k', j).
-/
import proofs.«138783_j38826504356275_2_alg».proof.Proof.KernelIdeal.Dat1
import proofs.«138783_j38826504356275_2_alg».proof.Proof.Spec
import Idealize.ShloMosaic.PureOps.Ideal.Laws
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The block product at an index -/

theorem lhsK_0 (j : S2048x64.Idx) (q : Cert.KernelIdeal.dot_S2048x2048_S2048x64_S2048x64_1_0_0_1_n_n.contr.Idx) :
    (Cert.KernelIdeal.dot_S2048x2048_S2048x64_S2048x64_1_0_0_1_n_n.lhsIdx j q 0).val = (j 0).val := by
  unfold DotDims.lhsIdx
  rw [dif_neg (show ¬(0 : Fin S2048x2048.rank) ∈ Cert.KernelIdeal.dot_S2048x2048_S2048x64_S2048x64_1_0_0_1_n_n.lhsBatch by decide), dif_pos (show (0 : Fin S2048x2048.rank) ∈ Cert.KernelIdeal.dot_S2048x2048_S2048x64_S2048x64_1_0_0_1_n_n.lhsNonContracting by decide)]
  rfl
theorem lhsK_1 (j : S2048x64.Idx) (q : Cert.KernelIdeal.dot_S2048x2048_S2048x64_S2048x64_1_0_0_1_n_n.contr.Idx) :
    (Cert.KernelIdeal.dot_S2048x2048_S2048x64_S2048x64_1_0_0_1_n_n.lhsIdx j q 1).val = (q ⟨0, by decide⟩).val :=
  Cert.KernelIdeal.dot_S2048x2048_S2048x64_S2048x64_1_0_0_1_n_n.lhsIdx_val_of_single rfl j q
theorem rhsK_0 (j : S2048x64.Idx) (q : Cert.KernelIdeal.dot_S2048x2048_S2048x64_S2048x64_1_0_0_1_n_n.contr.Idx) :
    (Cert.KernelIdeal.dot_S2048x2048_S2048x64_S2048x64_1_0_0_1_n_n.rhsIdx j q 0).val = (q ⟨0, by decide⟩).val :=
  Cert.KernelIdeal.dot_S2048x2048_S2048x64_S2048x64_1_0_0_1_n_n.rhsIdx_val_of_single rfl j q
theorem rhsK_1 (j : S2048x64.Idx) (q : Cert.KernelIdeal.dot_S2048x2048_S2048x64_S2048x64_1_0_0_1_n_n.contr.Idx) :
    (Cert.KernelIdeal.dot_S2048x2048_S2048x64_S2048x64_1_0_0_1_n_n.rhsIdx j q 1).val = (j 1).val := by
  unfold DotDims.rhsIdx
  rw [dif_neg (show ¬(1 : Fin S2048x64.rank) ∈ Cert.KernelIdeal.dot_S2048x2048_S2048x64_S2048x64_1_0_0_1_n_n.rhsBatch by decide), dif_pos (show (1 : Fin S2048x64.rank) ∈ Cert.KernelIdeal.dot_S2048x2048_S2048x64_S2048x64_1_0_0_1_n_n.rhsNonContracting by decide)]
  rfl

/-- The accumulating payload at (p, q): the accumulator there plus row p of the L block times column q of the T rows. -/
theorem pay2_apply (xL : Vec Ideal S2048x2048 .bf16) (xR : Vec Ideal S2048x64 .f32) (a : Vec Ideal S2048x64 .f32)
    (p : Fin 2048) (q : Fin 64) :
    k1_pay2 xL xR a (ix2 p q) = a (ix2 p q) + ∑ kk : Fin 2048, xL (ix2 p kk) * xR (ix2 kk q) := by
  unfold k1_pay2
  simp only [shapeCast_self]
  rw [addf_apply]
  refine congrArg (a (ix2 p q) + ·) ?_
  refine (Ideal.matmul_constant_zero_apply Cert.KernelIdeal.dot_S2048x2048_S2048x64_S2048x64_1_0_0_1_n_n none xL (truncf .bf16 xR bitsLt_bf16_f32) (ix2 p q)).trans ?_
  rw [← Equiv.sum_comp (contrEquiv1 Cert.KernelIdeal.dot_S2048x2048_S2048x64_S2048x64_1_0_0_1_n_n 2048 rfl rfl).symm]
  refine Finset.sum_congr rfl fun k _ => ?_
  have hk := contrEquiv1_symm_val Cert.KernelIdeal.dot_S2048x2048_S2048x64_S2048x64_1_0_0_1_n_n 2048 rfl rfl k
  have el : Cert.KernelIdeal.dot_S2048x2048_S2048x64_S2048x64_1_0_0_1_n_n.lhsIdx (ix2 p q) ((contrEquiv1 Cert.KernelIdeal.dot_S2048x2048_S2048x64_S2048x64_1_0_0_1_n_n 2048 rfl rfl).symm k) = ix2 p k := funext fun a => Fin.ext (by
    match a with
    | ⟨0, _⟩ => exact lhsK_0 _ _
    | ⟨1, _⟩ => exact (lhsK_1 _ _).trans hk)
  have er : Cert.KernelIdeal.dot_S2048x2048_S2048x64_S2048x64_1_0_0_1_n_n.rhsIdx (ix2 p q) ((contrEquiv1 Cert.KernelIdeal.dot_S2048x2048_S2048x64_S2048x64_1_0_0_1_n_n 2048 rfl rfl).symm k) = ix2 k q := funext fun a => Fin.ext (by
    match a with
    | ⟨0, _⟩ => exact (rhsK_0 _ _).trans hk
    | ⟨1, _⟩ => exact rhsK_1 _ _)
  rw [el, er]
  rfl

/-- The zeroing payload is 0 everywhere. -/
theorem pay1_apply (j : S2048x64.Idx) : k1_pay1 (F := Ideal) j = 0 := by
  unfold k1_pay1
  simp only [shapeCast_self]
  exact Ideal.ofBits_zero_f32

/-- The stored payload at an index: twice the accumulator less the older term. -/
theorem pay3_apply (a xP : Vec Ideal S2048x64 .f32) (j : S2048x64.Idx) :
    k1_pay3 a xP j = Ideal.ofBits .f32 0x40000000#32 * a j - xP j := by
  unfold k1_pay3
  rfl

/-! ## The grid's index maps, decided once -/

theorem hN1 : cfg1.N = 64 := N_1

theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0)

theorem off1 : ∀ t : Fin cfg1.N, k1_off1 (grid1.coords t) = ![t.val % 8 * 2048, 0] :=
  (by decide +kernel : ∀ t : Fin grid1.N, k1_off1 (grid1.coords t) = ![t.val % 8 * 2048, 0])

/-! ## The blocks at an index -/

/-- The L block at the point (i, k), at (p, kk): L at (i·2048 + p, k·2048 + kk). -/
theorem iblk1_0_apply (c : Dev nD) (t : Fin cfg1.N) (p kk : Fin 2048) (r k' : Fin 16384)
    (hr : r.val = t.val / 8 * 2048 + p.val) (hk : k'.val = t.val % 8 * 2048 + kk.val) :
    (iblk1 V c 0 t : Vec Ideal S2048x2048 .bf16) (ix2 p kk) = V c main_v3_1 (ix2 r k') := by
  obtain ⟨e0, e1, -⟩ := idx1 t
  unfold iblk1
  rw [View.read_apply]
  show V c main_v3_1 _ = V c main_v3_1 _
  congr 1
  funext a
  apply Fin.ext
  match a with
  | ⟨0, _⟩ => show win1_0.index t (0 : Fin 2) * 2048 + 1 * p.val = r.val; rw [e0, hr]; omega
  | ⟨1, _⟩ => show win1_0.index t (1 : Fin 2) * 2048 + 1 * kk.val = k'.val; rw [e1, hk]; omega

/-- The resident T block is the whole T array at every point. -/
theorem iblk1_1_apply (c : Dev nD) (t : Fin cfg1.N) (j : S16384x64.Idx) :
    (iblk1 V c 1 t : Vec Ideal S16384x64 .f32) j = V c main_v3_0 j := by
  obtain ⟨-, -, e2, e3, -⟩ := idx1 t
  unfold iblk1
  rw [View.read_apply]
  show V c main_v3_0 _ = V c main_v3_0 _
  congr 1
  funext a
  apply Fin.ext
  match a with
  | ⟨0, _⟩ => show win1_1.index t (0 : Fin 2) * 16384 + 1 * (j 0).val = (j 0).val; rw [e2]; omega
  | ⟨1, _⟩ => show win1_1.index t (1 : Fin 2) * 64 + 1 * (j 1).val = (j 1).val; rw [e3]; omega

/-- The rows of T the point (i, k) multiplies with, at (kk, q): T at (k·2048 + kk, q). -/
theorem ldT_apply (c : Dev nD) (t : Fin cfg1.N) (kk : Fin 2048) (q : Fin 64) (k' : Fin 16384)
    (hk : k'.val = t.val % 8 * 2048 + kk.val) :
    View.ld (iblk1 V c 1 t : Vec Ideal S16384x64 .f32) (rX1 (grid1.coords t)) (ix2 kk q) = V c main_v3_0 (ix2 k' q) := by
  show (iblk1 V c 1 t : Vec Ideal S16384x64 .f32) ((rX1 (grid1.coords t)).emb (ix2 kk q)) = _
  rw [iblk1_1_apply]
  congr 1
  funext a
  apply Fin.ext
  match a with
  | ⟨0, _⟩ => show k1_off1 (grid1.coords t) 0 + 1 * kk.val = k'.val; rw [off1 t, hk]; show t.val % 8 * 2048 + 1 * kk.val = _; omega
  | ⟨1, _⟩ => show k1_off1 (grid1.coords t) 1 + 1 * q.val = q.val; rw [off1 t]; show 0 + 1 * q.val = _; omega

/-- The older term's block at the point (i, ·), at (p, q): P at (i·2048 + p, q). -/
theorem iblk1_2_apply (c : Dev nD) (t : Fin cfg1.N) (p : Fin 2048) (q : Fin 64) (r : Fin 16384)
    (hr : r.val = t.val / 8 * 2048 + p.val) :
    (iblk1 V c 2 t : Vec Ideal S2048x64 .f32) (ix2 p q) = V c main_arg0 (ix2 r q) := by
  obtain ⟨-, -, -, -, e4, e5, -⟩ := idx1 t
  unfold iblk1
  rw [View.read_apply]
  show V c main_arg0 _ = V c main_arg0 _
  congr 1
  funext a
  apply Fin.ext
  match a with
  | ⟨0, _⟩ => show win1_2.index t (0 : Fin 2) * 2048 + 1 * p.val = r.val; rw [e4, hr]; omega
  | ⟨1, _⟩ => show win1_2.index t (1 : Fin 2) * 64 + 1 * q.val = q.val; rw [e5]; omega

/-! ## The accumulator along a block row -/

/-- The k-th term of (L·T)(r, q), as a function of every natural k (0 past the arrays' extent, never used). -/
def term (L : Cert.Spec.SNN.Idx → EReal) (T : Cert.Spec.SNF.Idx → EReal) (r : Fin 16384) (q : Fin 64) (k : ℕ) : EReal :=
  if h : k < 16384 then L (ix2 r ⟨k, h⟩) * T (ix2 ⟨k, h⟩ q) else 0

/-- One point's step at (p, q): the accumulator found plus the 2048 terms of column block k. -/
theorem step1_apply (c : Dev nD) (t : Fin cfg1.N) (a : Vec Ideal S2048x64 .f32) (p : Fin 2048) (q : Fin 64)
    (r : Fin 16384) (hr : r.val = t.val / 8 * 2048 + p.val) :
    step1 (grid1.coords t) (iblk1 V c 0 t) (iblk1 V c 1 t) a (ix2 p q)
      = a (ix2 p q) + ∑ kk : Fin 2048, term (V c main_v3_1) (V c main_v3_0) r q (t.val % 8 * 2048 + kk.val) := by
  unfold step1
  rw [pay2_apply]
  refine congrArg (a (ix2 p q) + ·) (Finset.sum_congr rfl fun kk _ => ?_)
  have hlt : t.val % 8 * 2048 + kk.val < 16384 := by have := kk.isLt; omega
  rw [iblk1_0_apply V c t p kk r ⟨_, hlt⟩ hr rfl, ldT_apply V c t kk q ⟨_, hlt⟩ rfl]
  unfold term
  rw [dif_pos hlt]

/-- The invariant along a block row: after the point (i, k) the accumulator holds, at (p, q), the terms of the column
    blocks 0 … k of row i·2048 + p. -/
theorem acc1_apply (c : Dev nD) : ∀ (n : ℕ) (hn : n < cfg1.N) (p : Fin 2048) (q : Fin 64) (r : Fin 16384),
    r.val = n / 8 * 2048 + p.val →
    acc1 V c n hn (ix2 p q)
      = ∑ kb ∈ Finset.range (n % 8 + 1), ∑ kk : Fin 2048, term (V c main_v3_1) (V c main_v3_0) r q (kb * 2048 + kk.val)
  | 0, hn, p, q, r, hr => by
    rw [acc1_first V c ⟨0, hn⟩ rfl, step1_apply V c ⟨0, hn⟩ _ p q r hr, pay1_apply, zero_add]
    show _ = ∑ kb ∈ Finset.range 1, _
    rw [Finset.sum_range_one]
    rfl
  | n + 1, hn, p, q, r, hr => by
    by_cases h : (n + 1) % 8 = 0
    · rw [acc1_first V c ⟨n + 1, hn⟩ h, step1_apply V c ⟨n + 1, hn⟩ _ p q r hr, pay1_apply, zero_add]
      show ∑ kk : Fin 2048, term _ _ r q ((n + 1) % 8 * 2048 + kk.val) = _
      rw [h, Finset.sum_range_one]
    · have hn' : n < cfg1.N := Nat.lt_of_succ_lt hn
      have hdiv : (n + 1) / 8 = n / 8 := by omega
      have hmod : (n + 1) % 8 = n % 8 + 1 := by omega
      rw [acc1_next V c ⟨n + 1, hn⟩ h, step1_apply V c ⟨n + 1, hn⟩ _ p q r hr]
      show acc1 V c n hn' (ix2 p q) + ∑ kk : Fin 2048, term _ _ r q ((n + 1) % 8 * 2048 + kk.val) = _
      rw [acc1_apply c n hn' p q r (by rw [hr, hdiv]), hmod, Finset.sum_range_succ _ (n % 8 + 1)]

/-- The sum of the eight column blocks' terms is the whole row's. -/
theorem sum_terms (L : Cert.Spec.SNN.Idx → EReal) (T : Cert.Spec.SNF.Idx → EReal) (r : Fin 16384) (q : Fin 64) :
    ∑ kb ∈ Finset.range 8, ∑ kk : Fin 2048, term L T r q (kb * 2048 + kk.val) = ∑ k : Fin 16384, L (ix2 r k) * T (ix2 k q) := by
  rw [← Fin.sum_univ_eq_sum_range (fun kb => ∑ kk : Fin 2048, term L T r q (kb * 2048 + kk.val)) 8]
  refine (Cert.Spec.sum_blocks 8 2048 (term L T r q)).symm.trans ?_
  show ∑ k : Fin 16384, term L T r q k.val = _
  refine Finset.sum_congr rfl fun k _ => ?_
  unfold term
  rw [dif_pos k.isLt]

/-! ## What is written back, and where -/

/-- What the point (i, 7) writes back is its block of 2·(L·T) − P. -/
theorem flushed1_3_eq (c : Dev nD) (t : Fin cfg1.N) (hf : (cfg1.win 3).flush t = true) :
    (dat1 (F := Ideal) V c).flushed 3 t
      = ((cfg1.win 3).blk t).view.read (Elt Ideal) (Cert.Spec.cheb (V c main_v3_1) (V c main_v3_0) (V c main_arg0)) := by
  have h7 : t.val % 8 = 7 := (flush1_3 t).mp hf
  have htN : t.val < 64 := hN1 ▸ t.isLt
  obtain ⟨-, -, -, -, -, -, e6, e7⟩ := idx1 t
  show (cfg1.win 3).cut (grid1.coords t) ((dat1 (F := Ideal) V c).after 3 t) = _
  rw [after1_3]
  funext j
  obtain ⟨p, q, rfl⟩ : ∃ (p : Fin 2048) (q : Fin 64), j = ix2 p q := ⟨j 0, j 1, eq_ix2 j⟩
  have hrlt : t.val / 8 * 2048 + p.val < 16384 := by have := p.isLt; omega
  rw [View.read_apply]
  have hemb : ((cfg1.win 3).blk t).view.emb (ix2 p q) = (ix2 ⟨t.val / 8 * 2048 + p.val, hrlt⟩ q : S16384x64.Idx) := by
    funext a
    apply Fin.ext
    match a with
    | ⟨0, _⟩ => show win1_3.index t (0 : Fin 2) * 2048 + 1 * p.val = t.val / 8 * 2048 + p.val; rw [e6]; omega
    | ⟨1, _⟩ => show win1_3.index t (1 : Fin 2) * 64 + 1 * q.val = q.val; rw [e7]; omega
  rw [hemb]
  have hx : (cfg1.win 3).xinj (grid1.coords t) (ix2 p q) = (ix2 p q : S2048x64.Idx) := by
    funext a
    apply Fin.ext
    match a with
    | ⟨0, _⟩ => rfl
    | ⟨1, _⟩ => rfl
  show k1_pay3 (acc1 V c t.val t.isLt) (iblk1 V c 2 t) ((cfg1.win 3).xinj (grid1.coords t) (ix2 p q)) = Cert.Spec.cheb _ _ _ _
  rw [hx, pay3_apply, acc1_apply V c t.val t.isLt p q ⟨_, hrlt⟩ rfl, h7, sum_terms, iblk1_2_apply V c t p q ⟨_, hrlt⟩ rfl]
  rfl

/-- Every row of the output array is in the block written back at the last point of its block row. -/
theorem cover1_3 (i : S16384x64.Idx) : ∃ t : Fin cfg1.N, (cfg1.win 3).flush t = true ∧ i ∈ ((cfg1.win 3).blk t).view.set := by
  have h0 : (i 0).val < 16384 := (i 0).isLt
  have h1 : (i 1).val < 64 := (i 1).isLt
  have htlt : (i 0).val / 2048 * 8 + 7 < cfg1.N := by rw [hN1]; omega
  refine ⟨⟨(i 0).val / 2048 * 8 + 7, htlt⟩, (flush1_3 _).mpr (by show ((i 0).val / 2048 * 8 + 7) % 8 = 7; omega), ?_⟩
  obtain ⟨-, -, -, -, -, -, e6, e7⟩ := idx1 ⟨(i 0).val / 2048 * 8 + 7, htlt⟩
  show i ∈ ((View.whole main_v8).slice (win1_3.rect ⟨(i 0).val / 2048 * 8 + 7, htlt⟩)).set
  rw [View.set_slice_whole, Rect.mem_set_unit]
  intro a
  match a with
  | ⟨0, _⟩ =>
    show win1_3.index ⟨(i 0).val / 2048 * 8 + 7, htlt⟩ (0 : Fin 2) * 2048 ≤ (i 0).val
      ∧ (i 0).val < win1_3.index ⟨(i 0).val / 2048 * 8 + 7, htlt⟩ (0 : Fin 2) * 2048 + 2048
    rw [e6]
    show ((i 0).val / 2048 * 8 + 7) / 8 * 2048 ≤ (i 0).val ∧ (i 0).val < ((i 0).val / 2048 * 8 + 7) / 8 * 2048 + 2048
    omega
  | ⟨1, _⟩ =>
    show win1_3.index ⟨(i 0).val / 2048 * 8 + 7, htlt⟩ (1 : Fin 2) * 64 ≤ (i 1).val
      ∧ (i 1).val < win1_3.index ⟨(i 0).val / 2048 * 8 + 7, htlt⟩ (1 : Fin 2) * 64 + 64
    rw [e7]
    omega

/-- Region 1 leaves 2·(L·T₁) − x in its output array. -/
theorem final1_3 (c : Dev nD) :
    ((dat1 (F := Ideal) V c).arrAt 3 cfg1.N : S16384x64.Idx → EReal)
      = Cert.Spec.cheb (V c main_v3_1) (V c main_v3_0) (V c main_arg0) := by
  exact (dat1 (F := Ideal) V c).arrAt_eq_of_cover 3 (Cert.Spec.cheb (V c main_v3_1) (V c main_v3_0) (V c main_arg0))
    (flushed1_3_eq V c) cover1_3

end Cert.KernelIdeal.Hand
end
-- ==== Proof.Value2.lean ====
/-
  What region 2 leaves in its output array, at the ideal instance: T₃ = 2·(L·T₂) − T₁, where L is what the region finds in
  the bf16 array and T₂, T₁ what it finds in its other two input arrays. Block row i is written once, at the point (i, 7),
  with 2·acc − (T₁ block i), the accumulator by then 0 + Σ_{k ≤ 7} (L block (i,k))·(T₂ rows k·2048 …), i.e. at (r, j)
  Σ_k Σ_{kk < 2048} L(r, k·2048 + kk)·T₂(k·2048 + kk, j) = Σ_{k' < 16384} L(r, k')·T₂(k', j).
-/
import proofs.«138783_j38826504356275_2_alg».proof.Proof.KernelIdeal.Dat2
import proofs.«138783_j38826504356275_2_alg».proof.Proof.Spec
import Idealize.ShloMosaic.PureOps.Ideal.Laws
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The block product at an index -/

theorem lhsK2_0 (j : S2048x64.Idx) (q : Cert.KernelIdeal.dot_S2048x2048_S2048x64_S2048x64_1_0_0_1_n_n.contr.Idx) :
    (Cert.KernelIdeal.dot_S2048x2048_S2048x64_S2048x64_1_0_0_1_n_n.lhsIdx j q 0).val = (j 0).val := by
  unfold DotDims.lhsIdx
  rw [dif_neg (show ¬(0 : Fin S2048x2048.rank) ∈ Cert.KernelIdeal.dot_S2048x2048_S2048x64_S2048x64_1_0_0_1_n_n.lhsBatch by decide), dif_pos (show (0 : Fin S2048x2048.rank) ∈ Cert.KernelIdeal.dot_S2048x2048_S2048x64_S2048x64_1_0_0_1_n_n.lhsNonContracting by decide)]
  rfl
theorem lhsK2_1 (j : S2048x64.Idx) (q : Cert.KernelIdeal.dot_S2048x2048_S2048x64_S2048x64_1_0_0_1_n_n.contr.Idx) :
    (Cert.KernelIdeal.dot_S2048x2048_S2048x64_S2048x64_1_0_0_1_n_n.lhsIdx j q 1).val = (q ⟨0, by decide⟩).val :=
  Cert.KernelIdeal.dot_S2048x2048_S2048x64_S2048x64_1_0_0_1_n_n.lhsIdx_val_of_single rfl j q
theorem rhsK2_0 (j : S2048x64.Idx) (q : Cert.KernelIdeal.dot_S2048x2048_S2048x64_S2048x64_1_0_0_1_n_n.contr.Idx) :
    (Cert.KernelIdeal.dot_S2048x2048_S2048x64_S2048x64_1_0_0_1_n_n.rhsIdx j q 0).val = (q ⟨0, by decide⟩).val :=
  Cert.KernelIdeal.dot_S2048x2048_S2048x64_S2048x64_1_0_0_1_n_n.rhsIdx_val_of_single rfl j q
theorem rhsK2_1 (j : S2048x64.Idx) (q : Cert.KernelIdeal.dot_S2048x2048_S2048x64_S2048x64_1_0_0_1_n_n.contr.Idx) :
    (Cert.KernelIdeal.dot_S2048x2048_S2048x64_S2048x64_1_0_0_1_n_n.rhsIdx j q 1).val = (j 1).val := by
  unfold DotDims.rhsIdx
  rw [dif_neg (show ¬(1 : Fin S2048x64.rank) ∈ Cert.KernelIdeal.dot_S2048x2048_S2048x64_S2048x64_1_0_0_1_n_n.rhsBatch by decide), dif_pos (show (1 : Fin S2048x64.rank) ∈ Cert.KernelIdeal.dot_S2048x2048_S2048x64_S2048x64_1_0_0_1_n_n.rhsNonContracting by decide)]
  rfl

/-- The accumulating payload at (p, q): the accumulator there plus row p of the L block times column q of the T rows. -/
theorem pay2_apply2 (xL : Vec Ideal S2048x2048 .bf16) (xR : Vec Ideal S2048x64 .f32) (a : Vec Ideal S2048x64 .f32)
    (p : Fin 2048) (q : Fin 64) :
    k2_pay2 xL xR a (ix2 p q) = a (ix2 p q) + ∑ kk : Fin 2048, xL (ix2 p kk) * xR (ix2 kk q) := by
  unfold k2_pay2
  simp only [shapeCast_self]
  rw [addf_apply]
  refine congrArg (a (ix2 p q) + ·) ?_
  refine (Ideal.matmul_constant_zero_apply Cert.KernelIdeal.dot_S2048x2048_S2048x64_S2048x64_1_0_0_1_n_n none xL (truncf .bf16 xR bitsLt_bf16_f32) (ix2 p q)).trans ?_
  rw [← Equiv.sum_comp (contrEquiv1 Cert.KernelIdeal.dot_S2048x2048_S2048x64_S2048x64_1_0_0_1_n_n 2048 rfl rfl).symm]
  refine Finset.sum_congr rfl fun k _ => ?_
  have hk := contrEquiv1_symm_val Cert.KernelIdeal.dot_S2048x2048_S2048x64_S2048x64_1_0_0_1_n_n 2048 rfl rfl k
  have el : Cert.KernelIdeal.dot_S2048x2048_S2048x64_S2048x64_1_0_0_1_n_n.lhsIdx (ix2 p q) ((contrEquiv1 Cert.KernelIdeal.dot_S2048x2048_S2048x64_S2048x64_1_0_0_1_n_n 2048 rfl rfl).symm k) = ix2 p k := funext fun a => Fin.ext (by
    match a with
    | ⟨0, _⟩ => exact lhsK2_0 _ _
    | ⟨1, _⟩ => exact (lhsK2_1 _ _).trans hk)
  have er : Cert.KernelIdeal.dot_S2048x2048_S2048x64_S2048x64_1_0_0_1_n_n.rhsIdx (ix2 p q) ((contrEquiv1 Cert.KernelIdeal.dot_S2048x2048_S2048x64_S2048x64_1_0_0_1_n_n 2048 rfl rfl).symm k) = ix2 k q := funext fun a => Fin.ext (by
    match a with
    | ⟨0, _⟩ => exact (rhsK2_0 _ _).trans hk
    | ⟨1, _⟩ => exact rhsK2_1 _ _)
  rw [el, er]
  rfl

/-- The zeroing payload is 0 everywhere. -/
theorem pay1_apply2 (j : S2048x64.Idx) : k2_pay1 (F := Ideal) j = 0 := by
  unfold k2_pay1
  simp only [shapeCast_self]
  exact Ideal.ofBits_zero_f32

/-- The stored payload at an index: twice the accumulator less the older term. -/
theorem pay3_apply2 (a xP : Vec Ideal S2048x64 .f32) (j : S2048x64.Idx) :
    k2_pay3 a xP j = Ideal.ofBits .f32 0x40000000#32 * a j - xP j := by
  unfold k2_pay3
  simp only [shapeCast_self]
  rfl

/-! ## The grid's index maps, decided once -/

theorem hN2 : cfg2.N = 64 := N_2

theorem idx2 : ∀ t : Fin cfg2.N, win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0)

theorem off2 : ∀ t : Fin cfg2.N, k2_off1 (grid2.coords t) = ![t.val % 8 * 2048, 0] :=
  (by decide +kernel : ∀ t : Fin grid2.N, k2_off1 (grid2.coords t) = ![t.val % 8 * 2048, 0])

/-! ## The blocks at an index -/

/-- The L block at the point (i, k), at (p, kk): L at (i·2048 + p, k·2048 + kk). -/
theorem iblk2_0_apply (c : Dev nD) (t : Fin cfg2.N) (p kk : Fin 2048) (r k' : Fin 16384)
    (hr : r.val = t.val / 8 * 2048 + p.val) (hk : k'.val = t.val % 8 * 2048 + kk.val) :
    (iblk2 V c 0 t : Vec Ideal S2048x2048 .bf16) (ix2 p kk) = V c main_v3_1 (ix2 r k') := by
  obtain ⟨e0, e1, -⟩ := idx2 t
  unfold iblk2
  rw [View.read_apply]
  show V c main_v3_1 _ = V c main_v3_1 _
  congr 1
  funext a
  apply Fin.ext
  match a with
  | ⟨0, _⟩ => show win2_0.index t (0 : Fin 2) * 2048 + 1 * p.val = r.val; rw [e0, hr]; omega
  | ⟨1, _⟩ => show win2_0.index t (1 : Fin 2) * 2048 + 1 * kk.val = k'.val; rw [e1, hk]; omega

/-- The resident T block is the whole T array at every point. -/
theorem iblk2_1_apply (c : Dev nD) (t : Fin cfg2.N) (j : S16384x64.Idx) :
    (iblk2 V c 1 t : Vec Ideal S16384x64 .f32) j = V c main_v8 j := by
  obtain ⟨-, -, e2, e3, -⟩ := idx2 t
  unfold iblk2
  rw [View.read_apply]
  show V c main_v8 _ = V c main_v8 _
  congr 1
  funext a
  apply Fin.ext
  match a with
  | ⟨0, _⟩ => show win2_1.index t (0 : Fin 2) * 16384 + 1 * (j 0).val = (j 0).val; rw [e2]; omega
  | ⟨1, _⟩ => show win2_1.index t (1 : Fin 2) * 64 + 1 * (j 1).val = (j 1).val; rw [e3]; omega

/-- The rows of T the point (i, k) multiplies with, at (kk, q): T at (k·2048 + kk, q). -/
theorem ldT2_apply (c : Dev nD) (t : Fin cfg2.N) (kk : Fin 2048) (q : Fin 64) (k' : Fin 16384)
    (hk : k'.val = t.val % 8 * 2048 + kk.val) :
    View.ld (iblk2 V c 1 t : Vec Ideal S16384x64 .f32) (rX2 (grid2.coords t)) (ix2 kk q) = V c main_v8 (ix2 k' q) := by
  show (iblk2 V c 1 t : Vec Ideal S16384x64 .f32) ((rX2 (grid2.coords t)).emb (ix2 kk q)) = _
  rw [iblk2_1_apply]
  congr 1
  funext a
  apply Fin.ext
  match a with
  | ⟨0, _⟩ => show k2_off1 (grid2.coords t) 0 + 1 * kk.val = k'.val; rw [off2 t, hk]; show t.val % 8 * 2048 + 1 * kk.val = _; omega
  | ⟨1, _⟩ => show k2_off1 (grid2.coords t) 1 + 1 * q.val = q.val; rw [off2 t]; show 0 + 1 * q.val = _; omega

/-- The older term's block at the point (i, ·), at (p, q): P at (i·2048 + p, q). -/
theorem iblk2_2_apply (c : Dev nD) (t : Fin cfg2.N) (p : Fin 2048) (q : Fin 64) (r : Fin 16384)
    (hr : r.val = t.val / 8 * 2048 + p.val) :
    (iblk2 V c 2 t : Vec Ideal S2048x64 .f32) (ix2 p q) = V c main_v3_0 (ix2 r q) := by
  obtain ⟨-, -, -, -, e4, e5, -⟩ := idx2 t
  unfold iblk2
  rw [View.read_apply]
  show V c main_v3_0 _ = V c main_v3_0 _
  congr 1
  funext a
  apply Fin.ext
  match a with
  | ⟨0, _⟩ => show win2_2.index t (0 : Fin 2) * 2048 + 1 * p.val = r.val; rw [e4, hr]; omega
  | ⟨1, _⟩ => show win2_2.index t (1 : Fin 2) * 64 + 1 * q.val = q.val; rw [e5]; omega

/-! ## The accumulator along a block row -/

/-- The k-th term of (L·T)(r, q), as a function of every natural k (0 past the arrays' extent, never used). -/
def term2 (L : Cert.Spec.SNN.Idx → EReal) (T : Cert.Spec.SNF.Idx → EReal) (r : Fin 16384) (q : Fin 64) (k : ℕ) : EReal :=
  if h : k < 16384 then L (ix2 r ⟨k, h⟩) * T (ix2 ⟨k, h⟩ q) else 0

/-- One point's step at (p, q): the accumulator found plus the 2048 terms of column block k. -/
theorem step2_apply (c : Dev nD) (t : Fin cfg2.N) (a : Vec Ideal S2048x64 .f32) (p : Fin 2048) (q : Fin 64)
    (r : Fin 16384) (hr : r.val = t.val / 8 * 2048 + p.val) :
    step2 (grid2.coords t) (iblk2 V c 0 t) (iblk2 V c 1 t) a (ix2 p q)
      = a (ix2 p q) + ∑ kk : Fin 2048, term2 (V c main_v3_1) (V c main_v8) r q (t.val % 8 * 2048 + kk.val) := by
  unfold step2
  rw [pay2_apply2]
  refine congrArg (a (ix2 p q) + ·) (Finset.sum_congr rfl fun kk _ => ?_)
  have hlt : t.val % 8 * 2048 + kk.val < 16384 := by have := kk.isLt; omega
  rw [iblk2_0_apply V c t p kk r ⟨_, hlt⟩ hr rfl, ldT2_apply V c t kk q ⟨_, hlt⟩ rfl]
  unfold term2
  rw [dif_pos hlt]

/-- The invariant along a block row: after the point (i, k) the accumulator holds, at (p, q), the terms of the column
    blocks 0 … k of row i·2048 + p. -/
theorem acc2_apply (c : Dev nD) : ∀ (n : ℕ) (hn : n < cfg2.N) (p : Fin 2048) (q : Fin 64) (r : Fin 16384),
    r.val = n / 8 * 2048 + p.val →
    acc2 V c n hn (ix2 p q)
      = ∑ kb ∈ Finset.range (n % 8 + 1), ∑ kk : Fin 2048, term2 (V c main_v3_1) (V c main_v8) r q (kb * 2048 + kk.val)
  | 0, hn, p, q, r, hr => by
    rw [acc2_first V c ⟨0, hn⟩ rfl, step2_apply V c ⟨0, hn⟩ _ p q r hr, pay1_apply2, zero_add]
    show _ = ∑ kb ∈ Finset.range 1, _
    rw [Finset.sum_range_one]
    rfl
  | n + 1, hn, p, q, r, hr => by
    by_cases h : (n + 1) % 8 = 0
    · rw [acc2_first V c ⟨n + 1, hn⟩ h, step2_apply V c ⟨n + 1, hn⟩ _ p q r hr, pay1_apply2, zero_add]
      show ∑ kk : Fin 2048, term2 _ _ r q ((n + 1) % 8 * 2048 + kk.val) = _
      rw [h, Finset.sum_range_one]
    · have hn' : n < cfg2.N := Nat.lt_of_succ_lt hn
      have hdiv : (n + 1) / 8 = n / 8 := by omega
      have hmod : (n + 1) % 8 = n % 8 + 1 := by omega
      rw [acc2_next V c ⟨n + 1, hn⟩ h, step2_apply V c ⟨n + 1, hn⟩ _ p q r hr]
      show acc2 V c n hn' (ix2 p q) + ∑ kk : Fin 2048, term2 _ _ r q ((n + 1) % 8 * 2048 + kk.val) = _
      rw [acc2_apply c n hn' p q r (by rw [hr, hdiv]), hmod, Finset.sum_range_succ _ (n % 8 + 1)]

/-- The sum of the eight column blocks' terms is the whole row's. -/
theorem sum_terms2 (L : Cert.Spec.SNN.Idx → EReal) (T : Cert.Spec.SNF.Idx → EReal) (r : Fin 16384) (q : Fin 64) :
    ∑ kb ∈ Finset.range 8, ∑ kk : Fin 2048, term2 L T r q (kb * 2048 + kk.val) = ∑ k : Fin 16384, L (ix2 r k) * T (ix2 k q) := by
  rw [← Fin.sum_univ_eq_sum_range (fun kb => ∑ kk : Fin 2048, term2 L T r q (kb * 2048 + kk.val)) 8]
  refine (Cert.Spec.sum_blocks 8 2048 (term2 L T r q)).symm.trans ?_
  show ∑ k : Fin 16384, term2 L T r q k.val = _
  refine Finset.sum_congr rfl fun k _ => ?_
  unfold term2
  rw [dif_pos k.isLt]

/-! ## What is written back, and where -/

/-- What the point (i, 7) writes back is its block of 2·(L·T) − P. -/
theorem flushed2_3_eq (c : Dev nD) (t : Fin cfg2.N) (hf : (cfg2.win 3).flush t = true) :
    (dat2 (F := Ideal) V c).flushed 3 t
      = ((cfg2.win 3).blk t).view.read (Elt Ideal) (Cert.Spec.cheb (V c main_v3_1) (V c main_v8) (V c main_v3_0)) := by
  have h7 : t.val % 8 = 7 := (flush2_3 t).mp hf
  have htN : t.val < 64 := hN2 ▸ t.isLt
  obtain ⟨-, -, -, -, -, -, e6, e7⟩ := idx2 t
  show (cfg2.win 3).cut (grid2.coords t) ((dat2 (F := Ideal) V c).after 3 t) = _
  rw [after2_3]
  funext j
  obtain ⟨p, q, rfl⟩ : ∃ (p : Fin 2048) (q : Fin 64), j = ix2 p q := ⟨j 0, j 1, eq_ix2 j⟩
  have hrlt : t.val / 8 * 2048 + p.val < 16384 := by have := p.isLt; omega
  rw [View.read_apply]
  have hemb : ((cfg2.win 3).blk t).view.emb (ix2 p q) = (ix2 ⟨t.val / 8 * 2048 + p.val, hrlt⟩ q : S16384x64.Idx) := by
    funext a
    apply Fin.ext
    match a with
    | ⟨0, _⟩ => show win2_3.index t (0 : Fin 2) * 2048 + 1 * p.val = t.val / 8 * 2048 + p.val; rw [e6]; omega
    | ⟨1, _⟩ => show win2_3.index t (1 : Fin 2) * 64 + 1 * q.val = q.val; rw [e7]; omega
  rw [hemb]
  have hx : (cfg2.win 3).xinj (grid2.coords t) (ix2 p q) = (ix2 p q : S2048x64.Idx) := by
    funext a
    apply Fin.ext
    match a with
    | ⟨0, _⟩ => rfl
    | ⟨1, _⟩ => rfl
  show k2_pay3 (acc2 V c t.val t.isLt) (iblk2 V c 2 t) ((cfg2.win 3).xinj (grid2.coords t) (ix2 p q)) = Cert.Spec.cheb _ _ _ _
  rw [hx, pay3_apply2, acc2_apply V c t.val t.isLt p q ⟨_, hrlt⟩ rfl, h7, sum_terms2, iblk2_2_apply V c t p q ⟨_, hrlt⟩ rfl]
  rfl

/-- Every row of the output array is in the block written back at the last point of its block row. -/
theorem cover2_3 (i : S16384x64.Idx) : ∃ t : Fin cfg2.N, (cfg2.win 3).flush t = true ∧ i ∈ ((cfg2.win 3).blk t).view.set := by
  have h0 : (i 0).val < 16384 := (i 0).isLt
  have h1 : (i 1).val < 64 := (i 1).isLt
  have htlt : (i 0).val / 2048 * 8 + 7 < cfg2.N := by rw [hN2]; omega
  refine ⟨⟨(i 0).val / 2048 * 8 + 7, htlt⟩, (flush2_3 _).mpr (by show ((i 0).val / 2048 * 8 + 7) % 8 = 7; omega), ?_⟩
  obtain ⟨-, -, -, -, -, -, e6, e7⟩ := idx2 ⟨(i 0).val / 2048 * 8 + 7, htlt⟩
  show i ∈ ((View.whole main_v13).slice (win2_3.rect ⟨(i 0).val / 2048 * 8 + 7, htlt⟩)).set
  rw [View.set_slice_whole, Rect.mem_set_unit]
  intro a
  match a with
  | ⟨0, _⟩ =>
    show win2_3.index ⟨(i 0).val / 2048 * 8 + 7, htlt⟩ (0 : Fin 2) * 2048 ≤ (i 0).val
      ∧ (i 0).val < win2_3.index ⟨(i 0).val / 2048 * 8 + 7, htlt⟩ (0 : Fin 2) * 2048 + 2048
    rw [e6]
    show ((i 0).val / 2048 * 8 + 7) / 8 * 2048 ≤ (i 0).val ∧ (i 0).val < ((i 0).val / 2048 * 8 + 7) / 8 * 2048 + 2048
    omega
  | ⟨1, _⟩ =>
    show win2_3.index ⟨(i 0).val / 2048 * 8 + 7, htlt⟩ (1 : Fin 2) * 64 ≤ (i 1).val
      ∧ (i 1).val < win2_3.index ⟨(i 0).val / 2048 * 8 + 7, htlt⟩ (1 : Fin 2) * 64 + 64
    rw [e7]
    omega

/-- Region 2 leaves 2·(L·T₂) − T₁ in its output array. -/
theorem final2_3 (c : Dev nD) :
    ((dat2 (F := Ideal) V c).arrAt 3 cfg2.N : S16384x64.Idx → EReal)
      = Cert.Spec.cheb (V c main_v3_1) (V c main_v8) (V c main_v3_0) := by
  exact (dat2 (F := Ideal) V c).arrAt_eq_of_cover 3 (Cert.Spec.cheb (V c main_v3_1) (V c main_v8) (V c main_v3_0))
    (flushed2_3_eq V c) cover2_3

end Cert.KernelIdeal.Hand
end
-- ==== Proof.RefValue.lean ====
/-
  The reference's three Chebyshev terms, as the reference's own host operations compute them, are the functions of
  Spec.lean: T₁ = L·x, T₂ = 2·(L·T₁) − x, T₃ = 2·(L·T₂) − T₁, index by index over the extended reals (the host's
  contraction over all k is the sum Σ_k L(r,k)·T(k,j); its product with the broadcast constant 2 and its difference are
  the extended reals' own).
-/
import proofs.«138783_j38826504356275_2_alg».proof.Proof.Gen.ReferenceIdeal.Run
import proofs.«138783_j38826504356275_2_alg».proof.Proof.Gen.ReferenceIdeal.Read
import proofs.«138783_j38826504356275_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction of L (over its second axis) with T (over its first) is L·T: its element at (r, j) is
Σ_k L(r, k) · T(k, j). -/
theorem dot_eq_lmul (L : (⟨S16384x16384, .f32⟩ : BufTy).Contents (Elt Ideal)) (T : (⟨S16384x64, .f32⟩ : BufTy).Contents (Elt Ideal)) :
    Host.dotGeneral (F := Ideal) (φ₁ := .f32) (φ₂ := .f32) dot_S16384x16384_S16384x64_S16384x64_1_0_0_1_n_n none L T = Cert.Spec.lmul L T := by
  funext i
  obtain ⟨r, j, rfl⟩ : ∃ (r : Fin 16384) (j : Fin 64), i = ix2 r j := ⟨i 0, i 1, eq_ix2 i⟩
  refine (val_main_v3_apply T L (ix2 r j)).trans ?_
  unfold Cert.Spec.lmul
  refine Finset.sum_congr rfl fun k _ => ?_
  have el : lidx_main_v3 (ix2 r j) k = ix2 r k :=
    funext fun a => Fin.ext (by match a with | ⟨0, _⟩ => rfl | ⟨1, _⟩ => rfl)
  have er : ridx_main_v3 (ix2 r j) k = ix2 k j :=
    funext fun a => Fin.ext (by match a with | ⟨0, _⟩ => rfl | ⟨1, _⟩ => rfl)
  rw [el, er]

/-- The reference's first matrix product is L·x. -/
theorem ref_T1 (x : (⟨S16384x64, .f32⟩ : BufTy).Contents (Elt Ideal)) (L : (⟨S16384x16384, .f32⟩ : BufTy).Contents (Elt Ideal)) :
    val_main_v3 (F := Ideal) x L = Cert.Spec.lmul L x :=
  dot_eq_lmul L x

/-- The first broadcast constant is the f32 word 0x40000000 at every index. -/
theorem two_apply (i : S16384x64.Idx) : val_main_v9 (F := Ideal) i = Ideal.ofBits .f32 0x40000000#32 := by
  rw [val_main_v9_apply, val_main_cst_apply]
  rfl

/-- The second broadcast constant is the same word at every index. -/
theorem two_apply' (i : S16384x64.Idx) : val_main_v17 (F := Ideal) i = Ideal.ofBits .f32 0x40000000#32 := by
  rw [val_main_v17_apply, val_main_cst_0_apply]
  rfl

/-- Its second term is 2·(L·T₁) − x. -/
theorem ref_T2 (x : (⟨S16384x64, .f32⟩ : BufTy).Contents (Elt Ideal)) (L : (⟨S16384x16384, .f32⟩ : BufTy).Contents (Elt Ideal)) :
    val_main_v11 (F := Ideal) x L = Cert.Spec.cheb L (Cert.Spec.lmul L x) x := by
  have h8 : val_main_v8 (F := Ideal) x L = Cert.Spec.lmul L (Cert.Spec.lmul L x) :=
    (dot_eq_lmul L (val_main_v3 (F := Ideal) x L)).trans (by rw [ref_T1])
  funext i
  rw [val_main_v11_apply, val_main_v10_apply, two_apply, h8]
  simp only [Ideal.subf_def, Ideal.mulf_def]
  rfl

/-- Its third term is 2·(L·T₂) − T₁. -/
theorem ref_T3 (x : (⟨S16384x64, .f32⟩ : BufTy).Contents (Elt Ideal)) (L : (⟨S16384x16384, .f32⟩ : BufTy).Contents (Elt Ideal)) :
    val_main_v19 (F := Ideal) x L = Cert.Spec.cheb L (Cert.Spec.cheb L (Cert.Spec.lmul L x) x) (Cert.Spec.lmul L x) := by
  have h16 : val_main_v16 (F := Ideal) x L = Cert.Spec.lmul L (Cert.Spec.cheb L (Cert.Spec.lmul L x) x) :=
    (dot_eq_lmul L (val_main_v11 (F := Ideal) x L)).trans (by rw [ref_T2])
  funext i
  rw [val_main_v19_apply, val_main_v18_apply, two_apply', h16, ref_T1]
  simp only [Ideal.subf_def, Ideal.mulf_def]
  rfl

end Cert.ReferenceIdeal.RefValue
end
-- ==== Proof.Glue.lean ====
/-
  The kernel's result as a function of its arguments, at the ideal instance, and its agreement with the reference's.
  Reading the fold of the boundary contents backwards from the result: the last host stretch adds the bias to
  x·W₀ + T₁·W₁ + T₂·W₂ + T₃·W₃, the products accumulated stretch by stretch; the three regions leave T₁ = L·x,
  T₂ = 2·(L·T₁) − x, T₃ = 2·(L·T₂) − T₁ (Value0, Value0b, Value1, Value2), region 0 also the copy of L that regions 1 and 2
  read; the reference computes the same three terms (RefValue) and combines them by the same host operations in the same
  order.
-/
import proofs.«138783_j38826504356275_2_alg».proof.Proof.KernelIdeal.Fold
import proofs.«138783_j38826504356275_2_alg».proof.Proof.Value0
import proofs.«138783_j38826504356275_2_alg».proof.Proof.Value0b
import proofs.«138783_j38826504356275_2_alg».proof.Proof.Value1
import proofs.«138783_j38826504356275_2_alg».proof.Proof.Value2
import proofs.«138783_j38826504356275_2_alg».proof.Proof.RefValue
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- The arguments on core `c`: x, L, the four weight matrices, the bias. -/
abbrev aX (c : Dev nD) : FVec Ideal S16384x64 .f32 := m ((c : Thread nD τ).loc main_arg0)
abbrev aL (c : Dev nD) : FVec Ideal S16384x16384 .f32 := m ((c : Thread nD τ).loc main_arg1)
abbrev aW (c : Dev nD) : FVec Ideal S4x64x64 .f32 := m ((c : Thread nD τ).loc main_arg2)
abbrev aB (c : Dev nD) : FVec Ideal S64 .f32 := m ((c : Thread nD τ).loc main_arg3)

/-- The recurrence's terms. -/
def tT1 (c : Dev nD) : FVec Ideal S16384x64 .f32 := Cert.Spec.lmul (aL m c) (aX m c)
def tT2 (c : Dev nD) : FVec Ideal S16384x64 .f32 := Cert.Spec.cheb (aL m c) (tT1 m c) (aX m c)
def tT3 (c : Dev nD) : FVec Ideal S16384x64 .f32 := Cert.Spec.cheb (aL m c) (tT2 m c) (tT1 m c)

/-- T·Wₖ for the four weight matrices, as the host computes it. -/
def pj0 (c : Dev nD) (T : FVec Ideal S16384x64 .f32) : FVec Ideal S16384x64 .f32 :=
  Host.dotGeneral (F := Ideal) dot_S16384x64_S64x64_S16384x64_1_0_0_1_n_n none T (shapeCast S64x64 (extractStridedSlice S1x64x64 ![0, 0, 0] (aW m c) slices_S4x64x64_S1x64x64_0_0_0) shapeCasts_S1x64x64_S64x64)
def pj1 (c : Dev nD) (T : FVec Ideal S16384x64 .f32) : FVec Ideal S16384x64 .f32 :=
  Host.dotGeneral (F := Ideal) dot_S16384x64_S64x64_S16384x64_1_0_0_1_n_n none T (shapeCast S64x64 (extractStridedSlice S1x64x64 ![1, 0, 0] (aW m c) slices_S4x64x64_S1x64x64_1_0_0) shapeCasts_S1x64x64_S64x64)
def pj2 (c : Dev nD) (T : FVec Ideal S16384x64 .f32) : FVec Ideal S16384x64 .f32 :=
  Host.dotGeneral (F := Ideal) dot_S16384x64_S64x64_S16384x64_1_0_0_1_n_n none T (shapeCast S64x64 (extractStridedSlice S1x64x64 ![2, 0, 0] (aW m c) slices_S4x64x64_S1x64x64_2_0_0) shapeCasts_S1x64x64_S64x64)
def pj3 (c : Dev nD) (T : FVec Ideal S16384x64 .f32) : FVec Ideal S16384x64 .f32 :=
  Host.dotGeneral (F := Ideal) dot_S16384x64_S64x64_S16384x64_1_0_0_1_n_n none T (shapeCast S64x64 (extractStridedSlice S1x64x64 ![3, 0, 0] (aW m c) slices_S4x64x64_S1x64x64_3_0_0) shapeCasts_S1x64x64_S64x64)

/-- The partial sums of the output, in the order both programs add them. -/
def o0 (c : Dev nD) : FVec Ideal S16384x64 .f32 := pj0 m c (aX m c)
def o1 (c : Dev nD) : FVec Ideal S16384x64 .f32 := addf (F := Ideal) (o0 m c) (pj1 m c (tT1 m c))
def o2 (c : Dev nD) : FVec Ideal S16384x64 .f32 := addf (F := Ideal) (o1 m c) (pj2 m c (tT2 m c))
def o3 (c : Dev nD) : FVec Ideal S16384x64 .f32 := addf (F := Ideal) (o2 m c) (pj3 m c (tT3 m c))
def oOut (c : Dev nD) : FVec Ideal S16384x64 .f32 :=
  addf (F := Ideal) (o3 m c) (broadcastInDim S16384x64 ![0, 1] bcast_S1x64_S16384x64_0_1 (broadcastInDim S1x64 ![1] bcast_S64_S1x64_1 (aB m c)))

/-! ## After the first host stretch -/

theorem W1_arg0 (c : Dev nD) : W1 m ρ c (Proc.devRef .tc main_arg0) = aX m c := by
  show StableHlo.after hostOps0 (W0 m ρ c) (Proc.devRef .tc main_arg0) = _
  after_results
theorem W1_arg1 (c : Dev nD) : W1 m ρ c (Proc.devRef .tc main_arg1) = aL m c := by
  show StableHlo.after hostOps0 (W0 m ρ c) (Proc.devRef .tc main_arg1) = _
  after_results
theorem W1_arg2 (c : Dev nD) : W1 m ρ c (Proc.devRef .tc main_arg2) = aW m c := by
  show StableHlo.after hostOps0 (W0 m ρ c) (Proc.devRef .tc main_arg2) = _
  after_results
theorem W1_arg3 (c : Dev nD) : W1 m ρ c (Proc.devRef .tc main_arg3) = aB m c := by
  show StableHlo.after hostOps0 (W0 m ρ c) (Proc.devRef .tc main_arg3) = _
  after_results
theorem W1_v2 (c : Dev nD) : W1 m ρ c (Proc.devRef .tc main_v2) = o0 m c := by
  show StableHlo.after hostOps0 (W0 m ρ c) (Proc.devRef .tc main_v2) = _
  after_results
  rfl

/-! ## After region 0 -/

theorem W2_arg0 (c : Dev nD) : W2 m ρ c (Proc.devRef .tc main_arg0) = aX m c :=
  (W2_arr m ρ c 1).trans (((dat0 (V1 m ρ) c).arrAt_in 1 rfl _).trans ((A_eq0 (V1 m ρ) c 1).trans (W1_arg0 m ρ c)))
theorem W2_arg2 (c : Dev nD) : W2 m ρ c (Proc.devRef .tc main_arg2) = aW m c :=
  (W2_of_ne m ρ c main_arg2 (by decide)).trans (W1_arg2 m ρ c)
theorem W2_arg3 (c : Dev nD) : W2 m ρ c (Proc.devRef .tc main_arg3) = aB m c :=
  (W2_of_ne m ρ c main_arg3 (by decide)).trans (W1_arg3 m ρ c)
theorem W2_v2 (c : Dev nD) : W2 m ρ c (Proc.devRef .tc main_v2) = o0 m c :=
  (W2_of_ne m ρ c main_v2 (by decide)).trans (W1_v2 m ρ c)
theorem W2_v3_0 (c : Dev nD) : W2 m ρ c (Proc.devRef .tc main_v3_0) = tT1 m c := by
  refine (W2_arr m ρ c 2).trans ((final0_2 (V1 m ρ) c).trans ?_)
  unfold tT1
  rw [show V1 m ρ c main_arg1 = aL m c from W1_arg1 m ρ c, show V1 m ρ c main_arg0 = aX m c from W1_arg0 m ρ c]
theorem W2_v3_1 (c : Dev nD) : (W2 m ρ c (Proc.devRef .tc main_v3_1) : FVec Ideal S16384x16384 .f32) = aL m c :=
  (W2_arr m ρ c 3).trans ((final0_3 (V1 m ρ) c).trans (W1_arg1 m ρ c))

/-! ## After the second host stretch -/

theorem W3_arg0 (c : Dev nD) : W3 m ρ c (Proc.devRef .tc main_arg0) = aX m c := by
  show StableHlo.after hostOps1 (W2 m ρ c) (Proc.devRef .tc main_arg0) = _
  after_results
  exact W2_arg0 m ρ c
theorem W3_arg2 (c : Dev nD) : W3 m ρ c (Proc.devRef .tc main_arg2) = aW m c := by
  show StableHlo.after hostOps1 (W2 m ρ c) (Proc.devRef .tc main_arg2) = _
  after_results
  exact W2_arg2 m ρ c
theorem W3_arg3 (c : Dev nD) : W3 m ρ c (Proc.devRef .tc main_arg3) = aB m c := by
  show StableHlo.after hostOps1 (W2 m ρ c) (Proc.devRef .tc main_arg3) = _
  after_results
  exact W2_arg3 m ρ c
theorem W3_v3_0 (c : Dev nD) : W3 m ρ c (Proc.devRef .tc main_v3_0) = tT1 m c := by
  show StableHlo.after hostOps1 (W2 m ρ c) (Proc.devRef .tc main_v3_0) = _
  after_results
  exact W2_v3_0 m ρ c
theorem W3_v3_1 (c : Dev nD) : (W3 m ρ c (Proc.devRef .tc main_v3_1) : FVec Ideal S16384x16384 .f32) = aL m c := by
  show StableHlo.after hostOps1 (W2 m ρ c) (Proc.devRef .tc main_v3_1) = _
  after_results
  exact W2_v3_1 m ρ c
theorem W3_v7 (c : Dev nD) : W3 m ρ c (Proc.devRef .tc main_v7) = o1 m c := by
  show StableHlo.after hostOps1 (W2 m ρ c) (Proc.devRef .tc main_v7) = _
  after_results
  rw [W2_v2, W2_v3_0, W2_arg2]
  rfl

/-! ## After region 1 -/

theorem W4_arg2 (c : Dev nD) : W4 m ρ c (Proc.devRef .tc main_arg2) = aW m c :=
  (W4_of_ne m ρ c main_arg2 (by decide)).trans (W3_arg2 m ρ c)
theorem W4_arg3 (c : Dev nD) : W4 m ρ c (Proc.devRef .tc main_arg3) = aB m c :=
  (W4_of_ne m ρ c main_arg3 (by decide)).trans (W3_arg3 m ρ c)
theorem W4_v7 (c : Dev nD) : W4 m ρ c (Proc.devRef .tc main_v7) = o1 m c :=
  (W4_of_ne m ρ c main_v7 (by decide)).trans (W3_v7 m ρ c)
theorem W4_v3_1 (c : Dev nD) : (W4 m ρ c (Proc.devRef .tc main_v3_1) : FVec Ideal S16384x16384 .f32) = aL m c :=
  (W4_arr m ρ c 0).trans (((dat1 (V3 m ρ) c).arrAt_in 0 rfl _).trans ((A_eq1 (V3 m ρ) c 0).trans (W3_v3_1 m ρ c)))
theorem W4_v3_0 (c : Dev nD) : W4 m ρ c (Proc.devRef .tc main_v3_0) = tT1 m c :=
  (W4_arr m ρ c 1).trans (((dat1 (V3 m ρ) c).arrAt_in 1 rfl _).trans ((A_eq1 (V3 m ρ) c 1).trans (W3_v3_0 m ρ c)))
theorem W4_v8 (c : Dev nD) : W4 m ρ c (Proc.devRef .tc main_v8) = tT2 m c := by
  refine (W4_arr m ρ c 3).trans ((final1_3 (V3 m ρ) c).trans ?_)
  unfold tT2
  rw [show V3 m ρ c main_v3_1 = aL m c from W3_v3_1 m ρ c, show V3 m ρ c main_v3_0 = tT1 m c from W3_v3_0 m ρ c,
    show V3 m ρ c main_arg0 = aX m c from W3_arg0 m ρ c]

/-! ## After the third host stretch -/

theorem W5_arg2 (c : Dev nD) : W5 m ρ c (Proc.devRef .tc main_arg2) = aW m c := by
  show StableHlo.after hostOps2 (W4 m ρ c) (Proc.devRef .tc main_arg2) = _
  after_results
  exact W4_arg2 m ρ c
theorem W5_arg3 (c : Dev nD) : W5 m ρ c (Proc.devRef .tc main_arg3) = aB m c := by
  show StableHlo.after hostOps2 (W4 m ρ c) (Proc.devRef .tc main_arg3) = _
  after_results
  exact W4_arg3 m ρ c
theorem W5_v3_0 (c : Dev nD) : W5 m ρ c (Proc.devRef .tc main_v3_0) = tT1 m c := by
  show StableHlo.after hostOps2 (W4 m ρ c) (Proc.devRef .tc main_v3_0) = _
  after_results
  exact W4_v3_0 m ρ c
theorem W5_v3_1 (c : Dev nD) : (W5 m ρ c (Proc.devRef .tc main_v3_1) : FVec Ideal S16384x16384 .f32) = aL m c := by
  show StableHlo.after hostOps2 (W4 m ρ c) (Proc.devRef .tc main_v3_1) = _
  after_results
  exact W4_v3_1 m ρ c
theorem W5_v8 (c : Dev nD) : W5 m ρ c (Proc.devRef .tc main_v8) = tT2 m c := by
  show StableHlo.after hostOps2 (W4 m ρ c) (Proc.devRef .tc main_v8) = _
  after_results
  exact W4_v8 m ρ c
theorem W5_v12 (c : Dev nD) : W5 m ρ c (Proc.devRef .tc main_v12) = o2 m c := by
  show StableHlo.after hostOps2 (W4 m ρ c) (Proc.devRef .tc main_v12) = _
  after_results
  rw [W4_v7, W4_v8, W4_arg2]
  rfl

/-! ## After region 2 -/

theorem W6_arg2 (c : Dev nD) : W6 m ρ c (Proc.devRef .tc main_arg2) = aW m c :=
  (W6_of_ne m ρ c main_arg2 (by decide)).trans (W5_arg2 m ρ c)
theorem W6_arg3 (c : Dev nD) : W6 m ρ c (Proc.devRef .tc main_arg3) = aB m c :=
  (W6_of_ne m ρ c main_arg3 (by decide)).trans (W5_arg3 m ρ c)
theorem W6_v12 (c : Dev nD) : W6 m ρ c (Proc.devRef .tc main_v12) = o2 m c :=
  (W6_of_ne m ρ c main_v12 (by decide)).trans (W5_v12 m ρ c)
theorem W6_v13 (c : Dev nD) : W6 m ρ c (Proc.devRef .tc main_v13) = tT3 m c := by
  refine (W6_arr m ρ c 3).trans ((final2_3 (V5 m ρ) c).trans ?_)
  unfold tT3
  rw [show V5 m ρ c main_v3_1 = aL m c from W5_v3_1 m ρ c, show V5 m ρ c main_v8 = tT2 m c from W5_v8 m ρ c,
    show V5 m ρ c main_v3_0 = tT1 m c from W5_v3_0 m ρ c]

/-! ## The result -/

/-- The kernel's result buffer at the return: the bias added to x·W₀ + T₁·W₁ + T₂·W₂ + T₃·W₃. -/
theorem W7_v20 (c : Dev nD) : W7 m ρ c (Proc.devRef .tc main_v20) = oOut m c := by
  show StableHlo.after hostOps3 (W6 m ρ c) (Proc.devRef .tc main_v20) = _
  after_results
  rw [W6_v12, W6_v13, W6_arg2, W6_arg3]
  rfl

/-- It is the reference's result term of the same arguments. -/
theorem oOut_eq_ref (c : Dev nD) :
    oOut m c = Cert.ReferenceIdeal.Read.val_main_v26 (F := Ideal) (aX m c) (aL m c) (aW m c) (aB m c) := by
  unfold Cert.ReferenceIdeal.Read.val_main_v26 Cert.ReferenceIdeal.Read.val_main_v23 Cert.ReferenceIdeal.Read.val_main_v22
    Cert.ReferenceIdeal.Read.val_main_v15 Cert.ReferenceIdeal.Read.val_main_v14 Cert.ReferenceIdeal.Read.val_main_v7
    Cert.ReferenceIdeal.Read.val_main_v6 Cert.ReferenceIdeal.Read.val_main_v2
  rw [Cert.ReferenceIdeal.RefValue.ref_T3, Cert.ReferenceIdeal.RefValue.ref_T2, Cert.ReferenceIdeal.RefValue.ref_T1]
  rfl

theorem result_eq (c : Dev nD) :
    W7 m ρ c (Proc.devRef .tc main_v20)
      = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) :=
  (W7_v20 m ρ c).trans (oOut_eq_ref m c)

end Cert.KernelIdeal.Hand
end
-- ==== Proof.lean ====
/-
  The certificate: a Chebyshev graph convolution, out = x·W₀ + T₁·W₁ + T₂·W₂ + T₃·W₃ + b with T₁ = L·x,
  T₂ = 2·(L·T₁) − x, T₃ = 2·(L·T₂) − T₁, computed by three kernels (each forming L·T block row by block row, adding the
  partial products of L's column blocks into an accumulator zeroed at the first block) among host operations, against the
  same recurrence computed by whole contractions on the host.
  Each program runs to the end, faults nowhere and leaves its arguments unchanged (the kernel's program at both float
  instances by the run of its seven items; the reference by its run). The idealization rewrote nothing. At the ideal
  instance the two results agree: the kernel's three regions leave exactly the reference's three terms (a sum over all k
  is the sum over the blocks of the sums within each block; 0 + a = a; rounding to bf16 is the identity on extended
  reals), and both programs combine them by the same host operations in the same order.
-/
import proofs.«138783_j38826504356275_2_alg».proof.Defs
import proofs.«138783_j38826504356275_2_alg».proof.Proof.Gen.Kernel
import proofs.«138783_j38826504356275_2_alg».proof.Proof.Gen.KernelIdeal
import proofs.«138783_j38826504356275_2_alg».proof.Proof.Gen.ReferenceIdeal
import proofs.«138783_j38826504356275_2_alg».proof.Proof.Gen.Pre_finite_inputs
import proofs.«138783_j38826504356275_2_alg».proof.Proof.Gen.ReferenceIdeal.Run
import proofs.«138783_j38826504356275_2_alg».proof.Proof.Gen.ReferenceIdeal.Read
import proofs.«138783_j38826504356275_2_alg».proof.Proof.Kernel.Args
import proofs.«138783_j38826504356275_2_alg».proof.Proof.KernelIdeal.Args
import proofs.«138783_j38826504356275_2_alg».proof.Proof.Glue
import Idealize.ShloMosaic.Adequacy
import Idealize.ShloMosaic.Init

noncomputable section

namespace Cert.Proof

open Idealize.ShloMosaic Idealize.ShloMosaic.TcCoe Idealize.SL.Sem

/-- The word-level program runs, faults nowhere, and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: the reference's result
    term of the kernel's arguments. -/
theorem algebraic : Cert.algebraic_KernelIdeal_ReferenceIdeal := by
  intro m ρ m' ρ' _ hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run (F := Ideal) m ρ)
    · exact (h c _ (Cert.KernelIdeal.Hand.mem_uc Cert.KernelIdeal.main_v20 (by decide))).trans (Cert.KernelIdeal.Hand.result_eq m ρ c)
    · exact (h c _ (Cert.KernelIdeal.Hand.mem_uc Cert.KernelIdeal.main_arg0 (by decide))).trans (Cert.KernelIdeal.Hand.W7_main_arg0 m ρ c)
    · exact (h c _ (Cert.KernelIdeal.Hand.mem_uc Cert.KernelIdeal.main_arg1 (by decide))).trans (Cert.KernelIdeal.Hand.W7_main_arg1 m ρ c)
    · exact (h c _ (Cert.KernelIdeal.Hand.mem_uc Cert.KernelIdeal.main_arg2 (by decide))).trans (Cert.KernelIdeal.Hand.W7_main_arg2 m ρ c)
    · exact (h c _ (Cert.KernelIdeal.Hand.mem_uc Cert.KernelIdeal.main_arg3 (by decide))).trans (Cert.KernelIdeal.Hand.W7_main_arg3 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
